-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v36)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v36) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v81) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x1 : Shape := ⟨2, ![100000, 1]⟩
abbrev S2x1600000 : Shape := ⟨2, ![2, 1600000]⟩
abbrev S1x64 : Shape := ⟨2, ![1, 64]⟩
abbrev S64 : Shape := ⟨1, ![64]⟩
abbrev S64x128 : Shape := ⟨2, ![64, 128]⟩
abbrev S128 : Shape := ⟨1, ![128]⟩
abbrev S128x1 : Shape := ⟨2, ![128, 1]⟩
abbrev S1 : Shape := ⟨1, ![1]⟩
abbrev S_ : Shape := ⟨0, ![]⟩
abbrev S1x1600000 : Shape := ⟨2, ![1, 1600000]⟩
abbrev S1600000 : Shape := ⟨1, ![1600000]⟩

class Facts : Prop where
  bcast_S_S100000x1 : S_.BroadcastsInDim S100000x1 (![] : Fin 0 → Fin S100000x1.rank)
  reducesTo_S100000x1_S_d0_1 : S100000x1.ReducesTo [0, 1] S_
  h_S_ : 0 < S_.numel
  bcast_S_S1x64 : S_.BroadcastsInDim S1x64 (![] : Fin 0 → Fin S1x64.rank)
  reducesTo_S1x64_S_d0_1 : S1x64.ReducesTo [0, 1] S_
  bcast_S_S64 : S_.BroadcastsInDim S64 (![] : Fin 0 → Fin S64.rank)
  reducesTo_S64_S_d0 : S64.ReducesTo [0] S_
  bcast_S_S64x128 : S_.BroadcastsInDim S64x128 (![] : Fin 0 → Fin S64x128.rank)
  reducesTo_S64x128_S_d0_1 : S64x128.ReducesTo [0, 1] S_
  bcast_S_S128 : S_.BroadcastsInDim S128 (![] : Fin 0 → Fin S128.rank)
  reducesTo_S128_S_d0 : S128.ReducesTo [0] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_
  slices_S2x1600000_S1x1600000_0_0 : S2x1600000.Slices ![0, 0] S1x1600000
  shapeCasts_S1x1600000_S1600000 : S1x1600000.ShapeCasts S1600000
  bcast_S_S1600000 : S_.BroadcastsInDim S1600000 (![] : Fin 0 → Fin S1600000.rank)
  reducesTo_S1600000_S_d0 : S1600000.ReducesTo [0] S_

variable [Facts]

def fn_part2 {F : FTy → Type} [FloatOps F] (main_arg1 : IVec S2x1600000 32) (main_v33 : IVec S_ 1) : IVec S_ 1 :=
  let main_v34 : IVec S1x1600000 32 := (extractStridedSlice S1x1600000 ![0, 0] · slices_S2x1600000_S1x1600000_0_0) main_arg1
  let main_v35 : IVec S1600000 32 := shapeCast S1600000 main_v34 shapeCasts_S1x1600000_S1600000
  let main_c_12 : IVec S_ 32 := constantI S_ 32 0#32
  let main_v36 : IVec S1600000 32 := broadcastInDim S1600000 ![] bcast_S_S1600000 main_c_12
  let main_v37 : IVec S1600000 1 := cmpi .sge main_v35 main_v36
  let main_v38 : IVec S1x1600000 32 := (extractStridedSlice S1x1600000 ![0, 0] · slices_S2x1600000_S1x1600000_0_0) main_arg1
  let main_v39 : IVec S1600000 32 := shapeCast S1600000 main_v38 shapeCasts_S1x1600000_S1600000
  let main_c_13 : IVec S_ 32 := constantI S_ 32 100000#32
  let main_v40 : IVec S1600000 32 := broadcastInDim S1600000 ![] bcast_S_S1600000 main_c_13
  let main_v41 : IVec S1600000 1 := cmpi .slt main_v39 main_v40
  let main_v42 : IVec S1600000 1 := andi main_v37 main_v41
  let main_c_14 : IVec S_ 1 := constantI S_ 1 1#1
  let main_v43 : IVec S_ 1 := (fun x v => Host.reduce IntOp.andi x v reducesTo_S1600000_S_d0 h_S_) main_v42 main_c_14
  let main_v44 : IVec S_ 1 := andi main_v33 main_v43
  main_v44

def fn_part1 {F : FTy → Type} [FloatOps F] (main_arg1 : IVec S2x1600000 32) (main_arg5 : FVec F S128 .f32) (main_arg6 : FVec F S128x1 .f32) (main_arg7 : FVec F S1 .f32) (main_v13 : IVec S_ 1) (main_v16 : IVec S64x128 1) : IVec S_ 1 :=
  let main_c_5 : IVec S_ 1 := constantI S_ 1 1#1
  let main_v17 : IVec S_ 1 := (fun x v => Host.reduce IntOp.andi x v reducesTo_S64x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x1 .f32 := Host.absf main_arg6
  let main_cst_8 : FVec F S_ .f32 := constant S_ .f32 0x7F800000#32
  let main_v25 : FVec F S128x1 .f32 := broadcastInDim S128x1 ![] bcast_S_S128x1 main_cst_8
  let main_v26 : IVec S128x1 1 := cmpf .olt main_v24 main_v25
  let main_c_9 : IVec S_ 1 := constantI S_ 1 1#1
  let main_v27 : IVec S_ 1 := (fun x v => Host.reduce IntOp.andi x v reducesTo_S128x1_S_d0_1 h_S_) main_v26 main_c_9
  let main_v28 : IVec S_ 1 := andi main_v23 main_v27
  let main_v29 : FVec F S1 .f32 := Host.absf main_arg7
  let main_cst_10 : FVec F S_ .f32 := constant S_ .f32 0x7F800000#32
  let main_v30 : FVec F S1 .f32 := broadcastInDim S1 ![] bcast_S_S1 main_cst_10
  let main_v31 : IVec S1 1 := cmpf .olt main_v29 main_v30
  let main_c_11 : IVec S_ 1 := constantI S_ 1 1#1
  let main_v32 : IVec S_ 1 := (fun x v => Host.reduce IntOp.andi x v reducesTo_S1_S_d0 h_S_) main_v31 main_c_11
  let main_v33 : IVec S_ 1 := andi main_v28 main_v32
  fn_part2 (F := F) main_arg1 main_v33

def fn {F : FTy → Type} [FloatOps F] (main_arg0 : FVec F S100000x1 .f32) (main_arg1 : IVec S2x1600000 32) (main_arg2 : FVec F S1x64 .f32) (main_arg3 : FVec F S64 .f32) (main_arg4 : FVec F S64x128 .f32) (main_arg5 : FVec F S128 .f32) (main_arg6 : FVec F S128x1 .f32) (main_arg7 : FVec F S1 .f32) : IVec S_ 1 :=
  let main_v0 : FVec F S100000x1 .f32 := Host.absf main_arg0
  let main_cst : FVec F S_ .f32 := constant S_ .f32 0x7F800000#32
  let main_v1 : FVec F S100000x1 .f32 := broadcastInDim S100000x1 ![] bcast_S_S100000x1 main_cst
  let main_v2 : IVec S100000x1 1 := cmpf .olt main_v0 main_v1
  let main_c : IVec S_ 1 := constantI S_ 1 1#1
  let main_v3 : IVec S_ 1 := (fun x v => Host.reduce IntOp.andi x v reducesTo_S100000x1_S_d0_1 h_S_) main_v2 main_c
  let main_v4 : FVec F S1x64 .f32 := Host.absf main_arg2
  let main_cst_0 : FVec F S_ .f32 := constant S_ .f32 0x7F800000#32
  let main_v5 : FVec F S1x64 .f32 := broadcastInDim S1x64 ![] bcast_S_S1x64 main_cst_0
  let main_v6 : IVec S1x64 1 := cmpf .olt main_v4 main_v5
  let main_c_1 : IVec S_ 1 := constantI S_ 1 1#1
  let main_v7 : IVec S_ 1 := (fun x v => Host.reduce IntOp.andi x v reducesTo_S1x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x128 .f32 := Host.absf main_arg4
  let main_cst_4 : FVec F S_ .f32 := constant S_ .f32 0x7F800000#32
  let main_v15 : FVec F S64x128 .f32 := broadcastInDim S64x128 ![] bcast_S_S64x128 main_cst_4
  let main_v16 : IVec S64x128 1 := cmpf .olt main_v14 main_v15
  fn_part1 (F := F) main_arg1 main_arg5 main_arg6 main_arg7 main_v13 main_v16
-- ==== Kernel.lean ====
abbrev S100000x1 : Shape := ⟨2, ![100000, 1]⟩
abbrev S2x1600000 : Shape := ⟨2, ![2, 1600000]⟩
abbrev S1x64 : Shape := ⟨2, ![1, 64]⟩
abbrev S64 : Shape := ⟨1, ![64]⟩
abbrev S64x128 : Shape := ⟨2, ![64, 128]⟩
abbrev S128 : Shape := ⟨1, ![128]⟩
abbrev S128x1 : Shape := ⟨2, ![128, 1]⟩
abbrev S1 : Shape := ⟨1, ![1]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S5000x1 : Shape := ⟨2, ![5000, 1]⟩
abbrev S1x1 : Shape := ⟨2, ![1, 1]⟩
abbrev S100000x64 : Shape := ⟨2, ![100000, 64]⟩
abbrev S5000x64 : Shape := ⟨2, ![5000, 64]⟩
abbrev S1700000x64 : Shape := ⟨2, ![1700000, 64]⟩
abbrev S1x128 : Shape := ⟨2, ![1, 128]⟩
abbrev S100000x128 : Shape := ⟨2, ![100000, 128]⟩
abbrev S5000x128 : Shape := ⟨2, ![5000, 128]⟩

abbrev nBuf : Space → Nat
  | .hbm => 120
  | .vmem => 42
  | .smem => 0
  | _ => 0

abbrev bufTy : (tb : Table) → Fin (tcTables nBuf tb) → BufTy
  | .hbm, ⟨0, _⟩ => ⟨S100000x1, .f32⟩
  | .hbm, ⟨1, _⟩ => ⟨S2x1600000, .i32⟩
  | .hbm, ⟨2, _⟩ => ⟨S1x64, .f32⟩
  | .hbm, ⟨3, _⟩ => ⟨S64, .f32⟩
  | .hbm, ⟨4, _⟩ => ⟨S64x128, .f32⟩
  | .hbm, ⟨5, _⟩ => ⟨S128, .f32⟩
  | .hbm, ⟨6, _⟩ => ⟨S128x1, .f32⟩
  | .hbm, ⟨7, _⟩ => ⟨S1, .f32⟩
  | .hbm, ⟨8, _⟩ => ⟨S100000, .i32⟩
  | .hbm, ⟨9, _⟩ => ⟨S1x1600000, .i32⟩
  | .hbm, ⟨10, _⟩ => ⟨S1600000, .i32⟩
  | .hbm, ⟨11, _⟩ => ⟨S1700000, .i32⟩
  | .hbm, ⟨12, _⟩ => ⟨S1x1600000, .i32⟩
  | .hbm, ⟨13, _⟩ => ⟨S1600000, .i32⟩
  | .hbm, ⟨14, _⟩ => ⟨S1700000, .i32⟩
  | .hbm, ⟨15, _⟩ => ⟨S_, .f32⟩
  | .hbm, ⟨16, _⟩ => ⟨S1700000, .f32⟩
  | .hbm, ⟨17, _⟩ => ⟨S_, .f32⟩
  | .hbm, ⟨18, _⟩ => ⟨S100000, .f32⟩
  | .hbm, ⟨19, _⟩ => ⟨S1700000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .i1⟩
  | .hbm, ⟨24, _⟩ => ⟨S100000, .f32⟩
  | .hbm, ⟨25, _⟩ => ⟨S_, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S100000x1, .f32⟩
  | .hbm, ⟨30, _⟩ => ⟨S100000x1, .f32⟩
  | .hbm, ⟨31, _⟩ => ⟨S_, .i32⟩
  | .hbm, ⟨32, _⟩ => ⟨S1700000, .i32⟩
  | .hbm, ⟨33, _⟩ => ⟨S1700000, .i1⟩
  | .hbm, ⟨34, _⟩ => ⟨S_, .i32⟩
  | .hbm, ⟨35, _⟩ => ⟨S1700000, .i32⟩
  | .hbm, ⟨36, _⟩ => ⟨S1700000, .i32⟩
  | .hbm, ⟨37, _⟩ => ⟨S1700000, .i32⟩
  | .hbm, ⟨38, _⟩ => ⟨S1700000x1, .i32⟩
  | .hbm, ⟨39, _⟩ => ⟨S1, .i32⟩
  | .hbm, ⟨40, _⟩ => ⟨S_, .i32⟩
  | .hbm, ⟨41, _⟩ => ⟨S1700000x1, .i32⟩
  | .hbm, ⟨42, _⟩ => ⟨S1700000x1, .i1⟩
  | .hbm, ⟨43, _⟩ => ⟨S1x1, .i32⟩
  | .hbm, ⟨44, _⟩ => ⟨S1700000x1, .i32⟩
  | .hbm, ⟨45, _⟩ => ⟨S1700000x1, .i1⟩
  | .hbm, ⟨46, _⟩ => ⟨S1700000x1, .i1⟩
  | .hbm, ⟨47, _⟩ => ⟨S_, .i1⟩
  | .hbm, ⟨48, _⟩ => ⟨S1700000, .i1⟩
  | .hbm, ⟨49, _⟩ => ⟨S1700000x1, .f32⟩
  | .hbm, ⟨50, _⟩ => ⟨S1700000x1, .i1⟩
  | .hbm, ⟨51, _⟩ => ⟨S_, .f32⟩
  | .hbm, ⟨52, _⟩ => ⟨S1700000x1, .f32⟩
  | .hbm, ⟨53, _⟩ => ⟨S1700000x1, .f32⟩
  | .hbm, ⟨54, _⟩ => ⟨S_, .f32⟩
  | .hbm, ⟨55, _⟩ => ⟨S100000x1, .f32⟩
  | .hbm, ⟨56, _⟩ => ⟨S1700000x1, .i32⟩
  | .hbm, ⟨57, _⟩ => ⟨S100000x1, .f32⟩
  | .hbm, ⟨58, _⟩ => ⟨S1x64, .f32⟩
  | .hbm, ⟨59, _⟩ => ⟨S100000x64, .f32⟩
  | .hbm, ⟨60, _⟩ => ⟨S100000x64, .f32⟩
  | .hbm, ⟨61, _⟩ => ⟨S_, .i32⟩
  | .hbm, ⟨62, _⟩ => ⟨S1700000, .i32⟩
  | .hbm, ⟨63, _⟩ => ⟨S1700000, .i1⟩
  | .hbm, ⟨64, _⟩ => ⟨S_, .i32⟩
  | .hbm, ⟨65, _⟩ => ⟨S1700000, .i32⟩
  | .hbm, ⟨66, _⟩ => ⟨S1700000, .i32⟩
  | .hbm, ⟨67, _⟩ => ⟨S1700000, .i32⟩
  | .hbm, ⟨68, _⟩ => ⟨S1700000x1, .i32⟩
  | .hbm, ⟨69, _⟩ => ⟨S1, .i32⟩
  | .hbm, ⟨70, _⟩ => ⟨S_, .i32⟩
  | .hbm, ⟨71, _⟩ => ⟨S1700000x1, .i32⟩
  | .hbm, ⟨72, _⟩ => ⟨S1700000x1, .i1⟩
  | .hbm, ⟨73, _⟩ => ⟨S1x1, .i32⟩
  | .hbm, ⟨74, _⟩ => ⟨S1700000x1, .i32⟩
  | .hbm, ⟨75, _⟩ => ⟨S1700000x1, .i1⟩
  | .hbm, ⟨76, _⟩ => ⟨S1700000x1, .i1⟩
  | .hbm, ⟨77, _⟩ => ⟨S_, .i1⟩
  | .hbm, ⟨78, _⟩ => ⟨S1700000, .i1⟩
  | .hbm, ⟨79, _⟩ => ⟨S1700000x64, .f32⟩
  | .hbm, ⟨80, _⟩ => ⟨S1700000x64, .i1⟩
  | .hbm, ⟨81, _⟩ => ⟨S_, .f32⟩
  | .hbm, ⟨82, _⟩ => ⟨S1700000x64, .f32⟩
  | .hbm, ⟨83, _⟩ => ⟨S1700000x64, .f32⟩
  | .hbm, ⟨84, _⟩ => ⟨S_, .f32⟩
  | .hbm, ⟨85, _⟩ => ⟨S100000x64, .f32⟩
  | .hbm, ⟨86, _⟩ => ⟨S1700000x1, .i32⟩
  | .hbm, ⟨87, _⟩ => ⟨S100000x64, .f32⟩
  | .hbm, ⟨88, _⟩ => ⟨S1x128, .f32⟩
  | .hbm, ⟨89, _⟩ => ⟨S100000x128, .f32⟩
  | .hbm, ⟨90, _⟩ => ⟨S100000x1, .f32⟩
  | .hbm, ⟨91, _⟩ => ⟨S_, .i32⟩
  | .hbm, ⟨92, _⟩ => ⟨S1700000, .i32⟩
  | .hbm, ⟨93, _⟩ => ⟨S1700000, .i1⟩
  | .hbm, ⟨94, _⟩ => ⟨S_, .i32⟩
  | .hbm, ⟨95, _⟩ => ⟨S1700000, .i32⟩
  | .hbm, ⟨96, _⟩ => ⟨S1700000, .i32⟩
  | .hbm, ⟨97, _⟩ => ⟨S1700000, .i32⟩
  | .hbm, ⟨98, _⟩ => ⟨S1700000x1, .i32⟩
  | .hbm, ⟨99, _⟩ => ⟨S1, .i32⟩
  | .hbm, ⟨100, _⟩ => ⟨S_, .i32⟩
  | .hbm, ⟨101, _⟩ => ⟨S1700000x1, .i32⟩
  | .hbm, ⟨102, _⟩ => ⟨S1700000x1, .i1⟩
  | .hbm, ⟨103, _⟩ => ⟨S1x1, .i32⟩
  | .hbm, ⟨104, _⟩ => ⟨S1700000x1, .i32⟩
  | .hbm, ⟨105, _⟩ => ⟨S1700000x1, .i1⟩
  | .hbm, ⟨106, _⟩ => ⟨S1700000x1, .i1⟩
  | .hbm, ⟨107, _⟩ => ⟨S_, .i1⟩
  | .hbm, ⟨108, _⟩ => ⟨S1700000, .i1⟩
  | .hbm, ⟨109, _⟩ => ⟨S1700000x1, .f32⟩
  | .hbm, ⟨110, _⟩ => ⟨S1700000x1, .i1⟩
  | .hbm, ⟨111, _⟩ => ⟨S_, .f32⟩
  | .hbm, ⟨112, _⟩ => ⟨S1700000x1, .f32⟩
  | .hbm, ⟨113, _⟩ => ⟨S1700000x1, .f32⟩
  | .hbm, ⟨114, _⟩ => ⟨S_, .f32⟩
  | .hbm, ⟨115, _⟩ => ⟨S100000x1, .f32⟩
  | .hbm, ⟨116, _⟩ => ⟨S1700000x1, .i32⟩
  | .hbm, ⟨117, _⟩ => ⟨S100000x1, .f32⟩
  | .hbm, ⟨118, _⟩ => ⟨S1x1, .f32⟩
  | .hbm, ⟨119, _⟩ => ⟨S100000x1, .f32⟩
  | .local _ .vmem, ⟨0, _⟩ => ⟨S5000x1, .f32⟩
  | .local _ .vmem, ⟨1, _⟩ => ⟨S5000x1, .f32⟩
  | .local _ .vmem, ⟨2, _⟩ => ⟨S5000x1, .f32⟩
  | .local _ .vmem, ⟨3, _⟩ => ⟨S5000x1, .f32⟩
  | .local _ .vmem, ⟨4, _⟩ => ⟨S5000x1, .f32⟩
  | .local _ .vmem, ⟨5, _⟩ => ⟨S5000x1, .f32⟩
  | .local _ .vmem, ⟨6, _⟩ => ⟨S5000x1, .f32⟩
  | .local _ .vmem, ⟨7, _⟩ => ⟨S5000x1, .f32⟩
  | .local _ .vmem, ⟨8, _⟩ => ⟨S1x64, .f32⟩
  | .local _ .vmem, ⟨9, _⟩ => ⟨S5000x1, .f32⟩
  | .local _ .vmem, ⟨10, _⟩ => ⟨S5000x1, .f32⟩
  | .local _ .vmem, ⟨11, _⟩ => ⟨S1x64, .f32⟩
  | .local _ .vmem, ⟨12, _⟩ => ⟨S5000x64, .f32⟩
  | .local _ .vmem, ⟨13, _⟩ => ⟨S5000x64, .f32⟩
  | .local _ .vmem, ⟨14, _⟩ => ⟨S5000x64, .f32⟩
  | .local _ .vmem, ⟨15, _⟩ => ⟨S5000x64, .f32⟩
  | .local _ .vmem, ⟨16, _⟩ => ⟨S5000x1, .f32⟩
  | .local _ .vmem, ⟨17, _⟩ => ⟨S5000x1, .f32⟩
  | .local _ .vmem, ⟨18, _⟩ => ⟨S5000x64, .f32⟩
  | .local _ .vmem, ⟨19, _⟩ => ⟨S5000x64, .f32⟩
  | .local _ .vmem, ⟨20, _⟩ => ⟨S5000x64, .f32⟩
  | .local _ .vmem, ⟨21, _⟩ => ⟨S5000x64, .f32⟩
  | .local _ .vmem, ⟨22, _⟩ => ⟨S64x128, .f32⟩
  | .local _ .vmem, ⟨23, _⟩ => ⟨S5000x1, .f32⟩
  | .local _ .vmem, ⟨24, _⟩ => ⟨S5000x1, .f32⟩
  | .local _ .vmem, ⟨25, _⟩ => ⟨S1x128, .f32⟩
  | .local _ .vmem, ⟨26, _⟩ => ⟨S5000x128, .f32⟩
  | .local _ .vmem, ⟨27, _⟩ => ⟨S5000x128, .f32⟩
  | .local _ .vmem, ⟨28, _⟩ => ⟨S5000x128, .f32⟩
  | .local _ .vmem, ⟨29, _⟩ => ⟨S5000x128, .f32⟩
  | .local _ .vmem, ⟨30, _⟩ => ⟨S5000x1, .f32⟩
  | .local _ .vmem, ⟨31, _⟩ => ⟨S5000x1, .f32⟩
  | .local _ .vmem, ⟨32, _⟩ => ⟨S128x1, .f32⟩
  | .local _ .vmem, ⟨33, _⟩ => ⟨S5000x1, .f32⟩
  | .local _ .vmem, ⟨34, _⟩ => ⟨S5000x1, .f32⟩
  | .local _ .vmem, ⟨35, _⟩ => ⟨S5000x1, .f32⟩
  | .local _ .vmem, ⟨36, _⟩ => ⟨S5000x1, .f32⟩
  | .local _ .vmem, ⟨37, _⟩ => ⟨S5000x1, .f32⟩
  | .local _ .vmem, ⟨38, _⟩ => ⟨S5000x1, .f32⟩
  | .local _ .vmem, ⟨39, _⟩ => ⟨S1x1, .f32⟩
  | .local _ .vmem, ⟨40, _⟩ => ⟨S5000x1, .f32⟩
  | .local _ .vmem, ⟨41, _⟩ => ⟨S5000x1, .f32⟩
  | _, _ => ⟨S100000x1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | _, _ => false

abbrev semScoped : Fin 0 → Bool
  | ⟨_, h⟩ => absurd h (Nat.not_lt_zero _)

abbrev dmaSemScoped : Fin 42 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | _ => false

abbrev sig : RefSig :=
  ofTc nBuf bufTy 0 42 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_call1_c : Ref sig .tc := ⟨.hbm, 31, rfl⟩
abbrev main_call1_v0 : Ref sig .tc := ⟨.hbm, 32, rfl⟩
abbrev main_call1_v1 : Ref sig .tc := ⟨.hbm, 33, rfl⟩
abbrev main_call1_c_0 : Ref sig .tc := ⟨.hbm, 34, rfl⟩
abbrev main_call1_v2 : Ref sig .tc := ⟨.hbm, 35, rfl⟩
abbrev main_call1_v3 : Ref sig .tc := ⟨.hbm, 36, rfl⟩
abbrev main_call1_v4 : Ref sig .tc := ⟨.hbm, 37, rfl⟩
abbrev main_call1_v5 : Ref sig .tc := ⟨.hbm, 38, rfl⟩
abbrev main_call1_c_1 : Ref sig .tc := ⟨.hbm, 39, rfl⟩
abbrev main_call1_c_2 : Ref sig .tc := ⟨.hbm, 40, rfl⟩
abbrev main_call1_v6 : Ref sig .tc := ⟨.hbm, 41, rfl⟩
abbrev main_call1_v7 : Ref sig .tc := ⟨.hbm, 42, rfl⟩
abbrev main_call1_v8 : Ref sig .tc := ⟨.hbm, 43, rfl⟩
abbrev main_call1_v9 : Ref sig .tc := ⟨.hbm, 44, rfl⟩
abbrev main_call1_v10 : Ref sig .tc := ⟨.hbm, 45, rfl⟩
abbrev main_call1_v11 : Ref sig .tc := ⟨.hbm, 46, rfl⟩
abbrev main_call1_c_3 : Ref sig .tc := ⟨.hbm, 47, rfl⟩
abbrev main_call1_v12 : Ref sig .tc := ⟨.hbm, 48, rfl⟩
abbrev main_call1_v13 : Ref sig .tc := ⟨.hbm, 49, rfl⟩
abbrev main_call1_v14 : Ref sig .tc := ⟨.hbm, 50, rfl⟩
abbrev main_call1_cst : Ref sig .tc := ⟨.hbm, 51, rfl⟩
abbrev main_call1_v15 : Ref sig .tc := ⟨.hbm, 52, rfl⟩
abbrev main_v17 : Ref sig .tc := ⟨.hbm, 53, rfl⟩
abbrev main_cst_3 : Ref sig .tc := ⟨.hbm, 54, rfl⟩
abbrev main_v18 : Ref sig .tc := ⟨.hbm, 55, rfl⟩
abbrev main_v19 : Ref sig .tc := ⟨.hbm, 56, rfl⟩
abbrev main_v20 : Ref sig .tc := ⟨.hbm, 57, rfl⟩
abbrev main_v21 : Ref sig .tc := ⟨.hbm, 58, rfl⟩
abbrev main_v22 : Ref sig .tc := ⟨.hbm, 59, rfl⟩
abbrev main_v23 : Ref sig .tc := ⟨.hbm, 60, rfl⟩
abbrev main_call2_c : Ref sig .tc := ⟨.hbm, 61, rfl⟩
abbrev main_call2_v0 : Ref sig .tc := ⟨.hbm, 62, rfl⟩
abbrev main_call2_v1 : Ref sig .tc := ⟨.hbm, 63, rfl⟩
abbrev main_call2_c_0 : Ref sig .tc := ⟨.hbm, 64, rfl⟩
abbrev main_call2_v2 : Ref sig .tc := ⟨.hbm, 65, rfl⟩
abbrev main_call2_v3 : Ref sig .tc := ⟨.hbm, 66, rfl⟩
abbrev main_call2_v4 : Ref sig .tc := ⟨.hbm, 67, rfl⟩
abbrev main_call2_v5 : Ref sig .tc := ⟨.hbm, 68, rfl⟩
abbrev main_call2_c_1 : Ref sig .tc := ⟨.hbm, 69, rfl⟩
abbrev main_call2_c_2 : Ref sig .tc := ⟨.hbm, 70, rfl⟩
abbrev main_call2_v6 : Ref sig .tc := ⟨.hbm, 71, rfl⟩
abbrev main_call2_v7 : Ref sig .tc := ⟨.hbm, 72, rfl⟩
abbrev main_call2_v8 : Ref sig .tc := ⟨.hbm, 73, rfl⟩
abbrev main_call2_v9 : Ref sig .tc := ⟨.hbm, 74, rfl⟩
abbrev main_call2_v10 : Ref sig .tc := ⟨.hbm, 75, rfl⟩
abbrev main_call2_v11 : Ref sig .tc := ⟨.hbm, 76, rfl⟩
abbrev main_call2_c_3 : Ref sig .tc := ⟨.hbm, 77, rfl⟩
abbrev main_call2_v12 : Ref sig .tc := ⟨.hbm, 78, rfl⟩
abbrev main_call2_v13 : Ref sig .tc := ⟨.hbm, 79, rfl⟩
abbrev main_call2_v14 : Ref sig .tc := ⟨.hbm, 80, rfl⟩
abbrev main_call2_cst : Ref sig .tc := ⟨.hbm, 81, rfl⟩
abbrev main_call2_v15 : Ref sig .tc := ⟨.hbm, 82, rfl⟩
abbrev main_v24 : Ref sig .tc := ⟨.hbm, 83, rfl⟩
abbrev main_cst_4 : Ref sig .tc := ⟨.hbm, 84, rfl⟩
abbrev main_v25 : Ref sig .tc := ⟨.hbm, 85, rfl⟩
abbrev main_v26 : Ref sig .tc := ⟨.hbm, 86, rfl⟩
abbrev main_v27 : Ref sig .tc := ⟨.hbm, 87, rfl⟩
abbrev main_v28 : Ref sig .tc := ⟨.hbm, 88, rfl⟩
abbrev main_v29 : Ref sig .tc := ⟨.hbm, 89, rfl⟩
abbrev main_v30 : Ref sig .tc := ⟨.hbm, 90, rfl⟩
abbrev main_call3_c : Ref sig .tc := ⟨.hbm, 91, rfl⟩
abbrev main_call3_v0 : Ref sig .tc := ⟨.hbm, 92, rfl⟩
abbrev main_call3_v1 : Ref sig .tc := ⟨.hbm, 93, rfl⟩
abbrev main_call3_c_0 : Ref sig .tc := ⟨.hbm, 94, rfl⟩
abbrev main_call3_v2 : Ref sig .tc := ⟨.hbm, 95, rfl⟩
abbrev main_call3_v3 : Ref sig .tc := ⟨.hbm, 96, rfl⟩
abbrev main_call3_v4 : Ref sig .tc := ⟨.hbm, 97, rfl⟩
abbrev main_call3_v5 : Ref sig .tc := ⟨.hbm, 98, rfl⟩
abbrev main_call3_c_1 : Ref sig .tc := ⟨.hbm, 99, rfl⟩
abbrev main_call3_c_2 : Ref sig .tc := ⟨.hbm, 100, rfl⟩
abbrev main_call3_v6 : Ref sig .tc := ⟨.hbm, 101, rfl⟩
abbrev main_call3_v7 : Ref sig .tc := ⟨.hbm, 102, rfl⟩
abbrev main_call3_v8 : Ref sig .tc := ⟨.hbm, 103, rfl⟩
abbrev main_call3_v9 : Ref sig .tc := ⟨.hbm, 104, rfl⟩
abbrev main_call3_v10 : Ref sig .tc := ⟨.hbm, 105, rfl⟩
abbrev main_call3_v11 : Ref sig .tc := ⟨.hbm, 106, rfl⟩
abbrev main_call3_c_3 : Ref sig .tc := ⟨.hbm, 107, rfl⟩
abbrev main_call3_v12 : Ref sig .tc := ⟨.hbm, 108, rfl⟩
abbrev main_call3_v13 : Ref sig .tc := ⟨.hbm, 109, rfl⟩
abbrev main_call3_v14 : Ref sig .tc := ⟨.hbm, 110, rfl⟩
abbrev main_call3_cst : Ref sig .tc := ⟨.hbm, 111, rfl⟩
abbrev main_call3_v15 : Ref sig .tc := ⟨.hbm, 112, rfl⟩
abbrev main_v31 : Ref sig .tc := ⟨.hbm, 113, rfl⟩
abbrev main_cst_5 : Ref sig .tc := ⟨.hbm, 114, rfl⟩
abbrev main_v32 : Ref sig .tc := ⟨.hbm, 115, rfl⟩
abbrev main_v33 : Ref sig .tc := ⟨.hbm, 116, rfl⟩
abbrev main_v34 : Ref sig .tc := ⟨.hbm, 117, rfl⟩
abbrev main_v35 : Ref sig .tc := ⟨.hbm, 118, rfl⟩
abbrev main_v36 : Ref sig .tc := ⟨.hbm, 119, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg1_1 : Ref sig .tc := ⟨.vmem, 17, rfl⟩
abbrev cc2_stg2_0 : Ref sig .tc := ⟨.vmem, 18, rfl⟩
abbrev cc2_stg2_1 : Ref sig .tc := ⟨.vmem, 19, rfl⟩
abbrev cc3_stg0_0 : Ref sig .tc := ⟨.vmem, 20, rfl⟩
abbrev cc3_stg0_1 : Ref sig .tc := ⟨.vmem, 21, rfl⟩
abbrev cc3_stg1_0 : Ref sig .tc := ⟨.vmem, 22, rfl⟩
abbrev cc3_stg2_0 : Ref sig .tc := ⟨.vmem, 23, rfl⟩
abbrev cc3_stg2_1 : Ref sig .tc := ⟨.vmem, 24, rfl⟩
abbrev cc3_stg3_0 : Ref sig .tc := ⟨.vmem, 25, rfl⟩
abbrev cc3_stg4_0 : Ref sig .tc := ⟨.vmem, 26, rfl⟩
abbrev cc3_stg4_1 : Ref sig .tc := ⟨.vmem, 27, rfl⟩
abbrev cc4_stg0_0 : Ref sig .tc := ⟨.vmem, 28, rfl⟩
abbrev cc4_stg0_1 : Ref sig .tc := ⟨.vmem, 29, rfl⟩
abbrev cc4_stg1_0 : Ref sig .tc := ⟨.vmem, 30, rfl⟩
abbrev cc4_stg1_1 : Ref sig .tc := ⟨.vmem, 31, rfl⟩
abbrev cc4_stg2_0 : Ref sig .tc := ⟨.vmem, 32, rfl⟩
abbrev cc4_stg3_0 : Ref sig .tc := ⟨.vmem, 33, rfl⟩
abbrev cc4_stg3_1 : Ref sig .tc := ⟨.vmem, 34, rfl⟩
abbrev cc5_stg0_0 : Ref sig .tc := ⟨.vmem, 35, rfl⟩
abbrev cc5_stg0_1 : Ref sig .tc := ⟨.vmem, 36, rfl⟩
abbrev cc5_stg1_0 : Ref sig .tc := ⟨.vmem, 37, rfl⟩
abbrev cc5_stg1_1 : Ref sig .tc := ⟨.vmem, 38, rfl⟩
abbrev cc5_stg2_0 : Ref sig .tc := ⟨.vmem, 39, rfl⟩
abbrev cc5_stg3_0 : Ref sig .tc := ⟨.vmem, 40, rfl⟩
abbrev cc5_stg3_1 : Ref sig .tc := ⟨.vmem, 41, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem2_1 : DmaSem sig := 10
abbrev cc1_sem3_0 : DmaSem sig := 11
abbrev cc1_sem4_0 : DmaSem sig := 12
abbrev cc1_sem4_1 : DmaSem sig := 13
abbrev cc2_sem0_0 : DmaSem sig := 14
abbrev cc2_sem0_1 : DmaSem sig := 15
abbrev cc2_sem1_0 : DmaSem sig := 16
abbrev cc2_sem1_1 : DmaSem sig := 17
abbrev cc2_sem2_0 : DmaSem sig := 18
abbrev cc2_sem2_1 : DmaSem sig := 19
abbrev cc3_sem0_0 : DmaSem sig := 20
abbrev cc3_sem0_1 : DmaSem sig := 21
abbrev cc3_sem1_0 : DmaSem sig := 22
abbrev cc3_sem2_0 : DmaSem sig := 23
abbrev cc3_sem2_1 : DmaSem sig := 24
abbrev cc3_sem3_0 : DmaSem sig := 25
abbrev cc3_sem4_0 : DmaSem sig := 26
abbrev cc3_sem4_1 : DmaSem sig := 27
abbrev cc4_sem0_0 : DmaSem sig := 28
abbrev cc4_sem0_1 : DmaSem sig := 29
abbrev cc4_sem1_0 : DmaSem sig := 30
abbrev cc4_sem1_1 : DmaSem sig := 31
abbrev cc4_sem2_0 : DmaSem sig := 32
abbrev cc4_sem3_0 : DmaSem sig := 33
abbrev cc4_sem3_1 : DmaSem sig := 34
abbrev cc5_sem0_0 : DmaSem sig := 35
abbrev cc5_sem0_1 : DmaSem sig := 36
abbrev cc5_sem1_0 : DmaSem sig := 37
abbrev cc5_sem1_1 : DmaSem sig := 38
abbrev cc5_sem2_0 : DmaSem sig := 39
abbrev cc5_sem3_0 : DmaSem sig := 40
abbrev cc5_sem3_1 : DmaSem sig := 41

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x1 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x1 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S5000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S64x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S5000x128 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S5000x1 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S128x1 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S5000x1 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev grid5 : Pipeline.Grid := ⟨1, ![20], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x1 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S5000x1 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 1 → Memref sig .tc .vmem S1x1 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 2 → Memref sig .tc .vmem S5000x1 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  shapeCasts_S100000_S100000x1 : S100000.ShapeCasts S100000x1
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  bcast_S_S1700000x1 : S_.BroadcastsInDim S1700000x1 (![] : Fin 0 → Fin S1700000x1.rank)
  bcast_S1_S1x1_1 : S1.BroadcastsInDim S1x1 (![1] : Fin 1 → Fin S1x1.rank)
  bcast_S1x1_S1700000x1_0_1 : S1x1.BroadcastsInDim S1700000x1 (![0, 1] : Fin 2 → Fin S1700000x1.rank)
  reducesTo_S1700000x1_S1700000_d1 : S1700000x1.ReducesTo [1] S1700000
  h_S_ : 0 < S_.numel
  bcast_S_S100000x1 : S_.BroadcastsInDim S100000x1 (![] : Fin 0 → Fin S100000x1.rank)
  shapeCasts_S64_S1x64 : S64.ShapeCasts S1x64
  bitsLt_bf16_f32 : FTy.bits .bf16 < FTy.bits .f32
  inb_S1x64_S1x64_0_0 : ∀ a, (![0, 0] : Fin 2 → Nat) a + S1x64.size a ≤ S1x64.size a
  h_S1x64 : 0 < S1x64.numel
  broadcasts_S5000x1_S5000x64 : S5000x1.Broadcasts S5000x64
  shapeCasts_S1x64_S1x64 : S1x64.ShapeCasts S1x64
  broadcasts_S1x64_S5000x64 : S1x64.Broadcasts S5000x64
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  bcast_S1700000_S1700000x64_0 : S1700000.BroadcastsInDim S1700000x64 (![0] : Fin 1 → Fin S1700000x64.rank)
  bcast_S_S1700000x64 : S_.BroadcastsInDim S1700000x64 (![] : Fin 0 → Fin S1700000x64.rank)
  bcast_S_S100000x64 : S_.BroadcastsInDim S100000x64 (![] : Fin 0 → Fin S100000x64.rank)
  shapeCasts_S128_S1x128 : S128.ShapeCasts S1x128
  inb_S64x128_S64x128_0_0 : ∀ a, (![0, 0] : Fin 2 → Nat) a + S64x128.size a ≤ S64x128.size a
  h_S64x128 : 0 < S64x128.numel
  broadcasts_S5000x1_S5000x128 : S5000x1.Broadcasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S128x1_S128x1_0_0 : ∀ a, (![0, 0] : Fin 2 → Nat) a + S128x1.size a ≤ S128x1.size a
  h_S128x1 : 0 < S128x1.numel
  shapeCasts_S1_S1x1 : S1.ShapeCasts S1x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S5000x1 : S1x1.Broadcasts S5000x1
  scatter_S100000_S1700000x1_S1700000_n_0_0_1_wf : ScatterDims.WF S100000 S1700000x1 S1700000 [] [0] [0] 1
  gather_S100000x1_S1700000x1_S1700000x1_1_0_n_n_0_1_11_wf : GatherDims.WF S100000x1 S1700000x1 S1700000x1 [1] [0] [] [0] [] 1 ![1, 1]
  scatter_S100000x1_S1700000x1_S1700000x1_1_0_0_1_wf : ScatterDims.WF S100000x1 S1700000x1 S1700000x1 [1] [0] [0] 1
  dot_S5000x1_S1x64_S5000x64_1_0_0_1_n_n_wf : DotDims.WF S5000x1 S1x64 S5000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S5000x64_S64x128_S5000x128_1_0_0_1_n_n_wf : DotDims.WF S5000x64 S64x128 S5000x128 [1] [0] [0] [1] [] []
  dot_S5000x128_S128x1_S5000x1_1_0_0_1_n_n_wf : DotDims.WF S5000x128 S128x1 S5000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x1.size a ≤ S100000x1.size a
  hwx0_0 : ∀ i : grid0.Coords, EltTy.bits .f32 = 32 ∨ (Rect.block (s := S100000x1) S5000x1.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x1.size a ≤ S100000x1.size a
  hwx0_1 : ∀ i : grid0.Coords, EltTy.bits .f32 = 32 ∨ (Rect.block (s := S100000x1) S5000x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S100000x1.size a
  hwx0_2 : ∀ i : grid0.Coords, EltTy.bits .f32 = 32 ∨ (Rect.block (s := S100000x1) S5000x1.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x1.size a ≤ S100000x1.size a
  hwx1_0 : ∀ i : grid1.Coords, EltTy.bits .f32 = 32 ∨ (Rect.block (s := S100000x1) S5000x1.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S100000x1.size a
  hwx1_2 : ∀ i : grid1.Coords, EltTy.bits .f32 = 32 ∨ (Rect.block (s := S100000x1) S5000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x64.size a ≤ S100000x64.size a
  hwx1_4 : ∀ i : grid1.Coords, EltTy.bits .f32 = 32 ∨ (Rect.block (s := S100000x64) S5000x64.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S100000x64.size a
  hwx2_0 : ∀ i : grid2.Coords, EltTy.bits .f32 = 32 ∨ (Rect.block (s := S100000x64) S5000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x1.size a ≤ S100000x1.size a
  hwx2_1 : ∀ i : grid2.Coords, EltTy.bits .f32 = 32 ∨ (Rect.block (s := S100000x1) S5000x1.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x64.size a ≤ S100000x64.size a
  hwx2_2 : ∀ i : grid2.Coords, EltTy.bits .f32 = 32 ∨ (Rect.block (s := S100000x64) S5000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S100000x64.size a
  hwx3_0 : ∀ i : grid3.Coords, EltTy.bits .f32 = 32 ∨ (Rect.block (s := S100000x64) S5000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S64x128.size a ≤ S64x128.size a
  hwx3_1 : ∀ i : grid3.Coords, EltTy.bits .f32 = 32 ∨ (Rect.block (s := S64x128) S64x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x1.size a ≤ S100000x1.size a
  hwx3_2 : ∀ i : grid3.Coords, EltTy.bits .f32 = 32 ∨ (Rect.block (s := S100000x1) S5000x1.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S5000x128.size a ≤ S100000x128.size a
  hwx3_4 : ∀ i : grid3.Coords, EltTy.bits .f32 = 32 ∨ (Rect.block (s := S100000x128) S5000x128.size (cc3_transform_4 i) (hinb3_4 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S100000x128.size a
  hwx4_0 : ∀ i : grid4.Coords, EltTy.bits .f32 = 32 ∨ (Rect.block (s := S100000x128) S5000x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S5000x1.size a ≤ S100000x1.size a
  hwx4_1 : ∀ i : grid4.Coords, EltTy.bits .f32 = 32 ∨ (Rect.block (s := S100000x1) S5000x1.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S128x1.size a ≤ S128x1.size a
  hwx4_2 : ∀ i : grid4.Coords, EltTy.bits .f32 = 32 ∨ (Rect.block (s := S128x1) S128x1.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S5000x1.size a ≤ S100000x1.size a
  hwx4_3 : ∀ i : grid4.Coords, EltTy.bits .f32 = 32 ∨ (Rect.block (s := S100000x1) S5000x1.size (cc4_transform_3 i) (hinb4_3 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x1.size a ≤ S100000x1.size a
  hwx5_0 : ∀ i : grid5.Coords, EltTy.bits .f32 = 32 ∨ (Rect.block (s := S100000x1) S5000x1.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S5000x1.size a ≤ S100000x1.size a
  hwx5_1 : ∀ i : grid5.Coords, EltTy.bits .f32 = 32 ∨ (Rect.block (s := S100000x1) S5000x1.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x1.size a ≤ S1x1.size a
  hwx5_2 : ∀ i : grid5.Coords, EltTy.bits .f32 = 32 ∨ (Rect.block (s := S1x1) S1x1.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S5000x1.size a ≤ S100000x1.size a
  hwx5_3 : ∀ i : grid5.Coords, EltTy.bits .f32 = 32 ∨ (Rect.block (s := S100000x1) S5000x1.size (cc5_transform_3 i) (hinb5_3 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000x1_S1700000x1_S1700000x1_1_0_n_n_0_1_11 : GatherDims S100000x1 S1700000x1 S1700000x1 where
  offsetDims := [1]
  collapsedSliceDims := [0]
  operandBatchingDims := []
  startIndicesBatchingDims := []
  startIndexMap := [0]
  indexVectorDim := 1
  sliceSizes := ![1, 1]
  wf := gather_S100000x1_S1700000x1_S1700000x1_1_0_n_n_0_1_11_wf
def scatter_S100000x1_S1700000x1_S1700000x1_1_0_0_1 : ScatterDims S100000x1 S1700000x1 S1700000x1 where
  updateWindowDims := [1]
  insertedWindowDims := [0]
  scatterDimsToOperandDims := [0]
  indexVectorDim := 1
  wf := scatter_S100000x1_S1700000x1_S1700000x1_1_0_0_1_wf
def dot_S5000x1_S1x64_S5000x64_1_0_0_1_n_n : DotDims S5000x1 S1x64 S5000x64 where
  lhsContracting := [1]
  rhsContracting := [0]
  lhsNonContracting := [0]
  rhsNonContracting := [1]
  lhsBatch := []
  rhsBatch := []
  wf := dot_S5000x1_S1x64_S5000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S5000x64_S64x128_S5000x128_1_0_0_1_n_n : DotDims S5000x64 S64x128 S5000x128 where
  lhsContracting := [1]
  rhsContracting := [0]
  lhsNonContracting := [0]
  rhsNonContracting := [1]
  lhsBatch := []
  rhsBatch := []
  wf := dot_S5000x64_S64x128_S5000x128_1_0_0_1_n_n_wf
def dot_S5000x128_S128x1_S5000x1_1_0_0_1_n_n : DotDims S5000x128 S128x1 S5000x1 where
  lhsContracting := [1]
  rhsContracting := [0]
  lhsNonContracting := [0]
  rhsNonContracting := [1]
  lhsBatch := []
  rhsBatch := []
  wf := dot_S5000x128_S128x1_S5000x1_1_0_0_1_n_n_wf

abbrev win0_0 : Pipeline.Window sig grid0 :=
  Pipeline.Window.ofSpec (Memref.whole main_arg0) S5000x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v15) S5000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v16) S5000x1.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v20) S5000x1.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg2) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v15) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v21) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v22) S5000x64.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v22) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v15) S5000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v23) S5000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v27) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg4) S64x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v15) S5000x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v28) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v29) S5000x128.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev win4_0 : Pipeline.Window sig grid4 :=
  Pipeline.Window.ofSpec (Memref.whole main_v29) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v15) S5000x1.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_arg6) S128x1.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v30) S5000x1.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

abbrev win5_0 : Pipeline.Window sig grid5 :=
  Pipeline.Window.ofSpec (Memref.whole main_v34) S5000x1.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v15) S5000x1.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v35) S1x1.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v36) S5000x1.size cc5_transform_3 reads5_3 true false 2 stage5_3 sem5_3
    hrank5 hreads5_3 hinb5_3 nbuf5_3 (Memref.isWhole_whole _) hwx5_3 hstage5_3

abbrev win5 : Fin 4 → Pipeline.Window sig grid5 := fun | 0 => win5_0 | 1 => win5_1 | 2 => win5_2 | 3 => win5_3 | ⟨_ + 4, h⟩ => absurd h (Nat.not_lt.2 (Nat.le_add_left _ _))
abbrev spec5 : Fin 4 → Pipeline.WinSpec sig grid5.rank := fun w => (win5 w).toWinSpec

class Facts : Prop extends Facts₀ where

variable [Facts]
-- ==== ReferenceIdeal.lean ====
abbrev S100000x1 : Shape := ⟨2, ![100000, 1]⟩
abbrev S2x1600000 : Shape := ⟨2, ![2, 1600000]⟩
abbrev S1x64 : Shape := ⟨2, ![1, 64]⟩
abbrev S64 : Shape := ⟨1, ![64]⟩
abbrev S64x128 : Shape := ⟨2, ![64, 128]⟩
abbrev S128 : Shape := ⟨1, ![128]⟩
abbrev S128x1 : Shape := ⟨2, ![128, 1]⟩
abbrev S1 : Shape := ⟨1, ![1]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x64 : Shape := ⟨2, ![100000, 64]⟩
abbrev S1700000x64 : Shape := ⟨2, ![1700000, 64]⟩
abbrev S100000x128 : Shape := ⟨2, ![100000, 128]⟩
abbrev S1700000x128 : Shape := ⟨2, ![1700000, 128]⟩
abbrev S1x128 : Shape := ⟨2, ![1, 128]⟩
abbrev S1x1 : Shape := ⟨2, ![1, 1]⟩

abbrev nBuf : Space → Nat
  | .hbm => 113
  | .vmem => 0
  | .smem => 0
  | _ => 0

abbrev bufTy : (tb : Table) → Fin (tcTables nBuf tb) → BufTy
  | .hbm, ⟨0, _⟩ => ⟨S100000x1, .f32⟩
  | .hbm, ⟨1, _⟩ => ⟨S2x1600000, .i32⟩
  | .hbm, ⟨2, _⟩ => ⟨S1x64, .f32⟩
  | .hbm, ⟨3, _⟩ => ⟨S64, .f32⟩
  | .hbm, ⟨4, _⟩ => ⟨S64x128, .f32⟩
  | .hbm, ⟨5, _⟩ => ⟨S128, .f32⟩
  | .hbm, ⟨6, _⟩ => ⟨S128x1, .f32⟩
  | .hbm, ⟨7, _⟩ => ⟨S1, .f32⟩
  | .hbm, ⟨8, _⟩ => ⟨S100000, .i32⟩
  | .hbm, ⟨9, _⟩ => ⟨S1x1600000, .i32⟩
  | .hbm, ⟨10, _⟩ => ⟨S1600000, .i32⟩
  | .hbm, ⟨11, _⟩ => ⟨S1700000, .i32⟩
  | .hbm, ⟨12, _⟩ => ⟨S1x1600000, .i32⟩
  | .hbm, ⟨13, _⟩ => ⟨S1600000, .i32⟩
  | .hbm, ⟨14, _⟩ => ⟨S1700000, .i32⟩
  | .hbm, ⟨15, _⟩ => ⟨S_, .f32⟩
  | .hbm, ⟨16, _⟩ => ⟨S1700000, .f32⟩
  | .hbm, ⟨17, _⟩ => ⟨S_, .f32⟩
  | .hbm, ⟨18, _⟩ => ⟨S100000, .f32⟩
  | .hbm, ⟨19, _⟩ => ⟨S1700000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .i1⟩
  | .hbm, ⟨24, _⟩ => ⟨S100000, .f32⟩
  | .hbm, ⟨25, _⟩ => ⟨S_, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S_, .i32⟩
  | .hbm, ⟨30, _⟩ => ⟨S1700000, .i32⟩
  | .hbm, ⟨31, _⟩ => ⟨S1700000, .i1⟩
  | .hbm, ⟨32, _⟩ => ⟨S_, .i32⟩
  | .hbm, ⟨33, _⟩ => ⟨S1700000, .i32⟩
  | .hbm, ⟨34, _⟩ => ⟨S1700000, .i32⟩
  | .hbm, ⟨35, _⟩ => ⟨S1700000, .i32⟩
  | .hbm, ⟨36, _⟩ => ⟨S1700000x1, .i32⟩
  | .hbm, ⟨37, _⟩ => ⟨S1700000, .f32⟩
  | .hbm, ⟨38, _⟩ => ⟨S_, .i32⟩
  | .hbm, ⟨39, _⟩ => ⟨S1700000, .i32⟩
  | .hbm, ⟨40, _⟩ => ⟨S1700000, .i1⟩
  | .hbm, ⟨41, _⟩ => ⟨S_, .i32⟩
  | .hbm, ⟨42, _⟩ => ⟨S1700000, .i32⟩
  | .hbm, ⟨43, _⟩ => ⟨S1700000, .i32⟩
  | .hbm, ⟨44, _⟩ => ⟨S1700000, .i32⟩
  | .hbm, ⟨45, _⟩ => ⟨S1700000x1, .i32⟩
  | .hbm, ⟨46, _⟩ => ⟨S1700000, .f32⟩
  | .hbm, ⟨47, _⟩ => ⟨S1700000, .f32⟩
  | .hbm, ⟨48, _⟩ => ⟨S100000x64, .f32⟩
  | .hbm, ⟨49, _⟩ => ⟨S_, .i32⟩
  | .hbm, ⟨50, _⟩ => ⟨S1700000, .i32⟩
  | .hbm, ⟨51, _⟩ => ⟨S1700000, .i1⟩
  | .hbm, ⟨52, _⟩ => ⟨S_, .i32⟩
  | .hbm, ⟨53, _⟩ => ⟨S1700000, .i32⟩
  | .hbm, ⟨54, _⟩ => ⟨S1700000, .i32⟩
  | .hbm, ⟨55, _⟩ => ⟨S1700000, .i32⟩
  | .hbm, ⟨56, _⟩ => ⟨S1700000x1, .i32⟩
  | .hbm, ⟨57, _⟩ => ⟨S1700000x64, .f32⟩
  | .hbm, ⟨58, _⟩ => ⟨S1700000x1, .f32⟩
  | .hbm, ⟨59, _⟩ => ⟨S1700000x64, .f32⟩
  | .hbm, ⟨60, _⟩ => ⟨S1700000x64, .f32⟩
  | .hbm, ⟨61, _⟩ => ⟨S_, .f32⟩
  | .hbm, ⟨62, _⟩ => ⟨S100000x64, .f32⟩
  | .hbm, ⟨63, _⟩ => ⟨S1700000x1, .i32⟩
  | .hbm, ⟨64, _⟩ => ⟨S100000x64, .f32⟩
  | .hbm, ⟨65, _⟩ => ⟨S1x64, .f32⟩
  | .hbm, ⟨66, _⟩ => ⟨S100000x64, .f32⟩
  | .hbm, ⟨67, _⟩ => ⟨S100000x64, .f32⟩
  | .hbm, ⟨68, _⟩ => ⟨S_, .f32⟩
  | .hbm, ⟨69, _⟩ => ⟨S100000x64, .f32⟩
  | .hbm, ⟨70, _⟩ => ⟨S100000x64, .f32⟩
  | .hbm, ⟨71, _⟩ => ⟨S100000x128, .f32⟩
  | .hbm, ⟨72, _⟩ => ⟨S_, .i32⟩
  | .hbm, ⟨73, _⟩ => ⟨S1700000, .i32⟩
  | .hbm, ⟨74, _⟩ => ⟨S1700000, .i1⟩
  | .hbm, ⟨75, _⟩ => ⟨S_, .i32⟩
  | .hbm, ⟨76, _⟩ => ⟨S1700000, .i32⟩
  | .hbm, ⟨77, _⟩ => ⟨S1700000, .i32⟩
  | .hbm, ⟨78, _⟩ => ⟨S1700000, .i32⟩
  | .hbm, ⟨79, _⟩ => ⟨S1700000x1, .i32⟩
  | .hbm, ⟨80, _⟩ => ⟨S1700000x128, .f32⟩
  | .hbm, ⟨81, _⟩ => ⟨S1700000x1, .f32⟩
  | .hbm, ⟨82, _⟩ => ⟨S1700000x128, .f32⟩
  | .hbm, ⟨83, _⟩ => ⟨S1700000x128, .f32⟩
  | .hbm, ⟨84, _⟩ => ⟨S_, .f32⟩
  | .hbm, ⟨85, _⟩ => ⟨S100000x128, .f32⟩
  | .hbm, ⟨86, _⟩ => ⟨S1700000x1, .i32⟩
  | .hbm, ⟨87, _⟩ => ⟨S100000x128, .f32⟩
  | .hbm, ⟨88, _⟩ => ⟨S1x128, .f32⟩
  | .hbm, ⟨89, _⟩ => ⟨S100000x128, .f32⟩
  | .hbm, ⟨90, _⟩ => ⟨S100000x128, .f32⟩
  | .hbm, ⟨91, _⟩ => ⟨S_, .f32⟩
  | .hbm, ⟨92, _⟩ => ⟨S100000x128, .f32⟩
  | .hbm, ⟨93, _⟩ => ⟨S100000x128, .f32⟩
  | .hbm, ⟨94, _⟩ => ⟨S100000x1, .f32⟩
  | .hbm, ⟨95, _⟩ => ⟨S_, .i32⟩
  | .hbm, ⟨96, _⟩ => ⟨S1700000, .i32⟩
  | .hbm, ⟨97, _⟩ => ⟨S1700000, .i1⟩
  | .hbm, ⟨98, _⟩ => ⟨S_, .i32⟩
  | .hbm, ⟨99, _⟩ => ⟨S1700000, .i32⟩
  | .hbm, ⟨100, _⟩ => ⟨S1700000, .i32⟩
  | .hbm, ⟨101, _⟩ => ⟨S1700000, .i32⟩
  | .hbm, ⟨102, _⟩ => ⟨S1700000x1, .i32⟩
  | .hbm, ⟨103, _⟩ => ⟨S1700000x1, .f32⟩
  | .hbm, ⟨104, _⟩ => ⟨S1700000x1, .f32⟩
  | .hbm, ⟨105, _⟩ => ⟨S1700000x1, .f32⟩
  | .hbm, ⟨106, _⟩ => ⟨S_, .f32⟩
  | .hbm, ⟨107, _⟩ => ⟨S100000x1, .f32⟩
  | .hbm, ⟨108, _⟩ => ⟨S1700000x1, .i32⟩
  | .hbm, ⟨109, _⟩ => ⟨S100000x1, .f32⟩
  | .hbm, ⟨110, _⟩ => ⟨S1x1, .f32⟩
  | .hbm, ⟨111, _⟩ => ⟨S100000x1, .f32⟩
  | .hbm, ⟨112, _⟩ => ⟨S100000x1, .f32⟩
  | _, _ => ⟨S100000x1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v14 : Ref sig .tc := ⟨.hbm, 28, rfl⟩
abbrev main_c : Ref sig .tc := ⟨.hbm, 29, rfl⟩
abbrev main_v15 : Ref sig .tc := ⟨.hbm, 30, rfl⟩
abbrev main_v16 : Ref sig .tc := ⟨.hbm, 31, rfl⟩
abbrev main_c_3 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_c_4 : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_c_6 : Ref sig .tc := ⟨.hbm, 49, rfl⟩
abbrev main_v31 : Ref sig .tc := ⟨.hbm, 50, rfl⟩
abbrev main_v32 : Ref sig .tc := ⟨.hbm, 51, rfl⟩
abbrev main_c_7 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_call1_cst : Ref sig .tc := ⟨.hbm, 68, rfl⟩
abbrev main_call1_v0 : Ref sig .tc := ⟨.hbm, 69, rfl⟩
abbrev main_v47 : Ref sig .tc := ⟨.hbm, 70, rfl⟩
abbrev main_v48 : Ref sig .tc := ⟨.hbm, 71, rfl⟩
abbrev main_c_9 : Ref sig .tc := ⟨.hbm, 72, rfl⟩
abbrev main_v49 : Ref sig .tc := ⟨.hbm, 73, rfl⟩
abbrev main_v50 : Ref sig .tc := ⟨.hbm, 74, rfl⟩
abbrev main_c_10 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_cst_11 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_call2_cst : Ref sig .tc := ⟨.hbm, 91, rfl⟩
abbrev main_call2_v0 : Ref sig .tc := ⟨.hbm, 92, rfl⟩
abbrev main_v65 : Ref sig .tc := ⟨.hbm, 93, rfl⟩
abbrev main_v66 : Ref sig .tc := ⟨.hbm, 94, rfl⟩
abbrev main_c_12 : Ref sig .tc := ⟨.hbm, 95, rfl⟩
abbrev main_v67 : Ref sig .tc := ⟨.hbm, 96, rfl⟩
abbrev main_v68 : Ref sig .tc := ⟨.hbm, 97, rfl⟩
abbrev main_c_13 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_cst_14 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S100000x1 : S_.BroadcastsInDim S100000x1 (![] : Fin 0 → Fin S100000x1.rank)
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x1_S1x64_S100000x64_1_0_0_1_n_n_wf : DotDims.WF S100000x1 S1x64 S100000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S100000x64_S64x128_S100000x128_1_0_0_1_n_n_wf : DotDims.WF S100000x64 S64x128 S100000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S100000x128_S128x1_S100000x1_1_0_0_1_n_n_wf : DotDims.WF S100000x128 S128x1 S100000x1 [1] [0] [0] [1] [] []
  gather_S100000x1_S1700000x1_S1700000x1_1_0_n_n_0_1_11_wf : GatherDims.WF S100000x1 S1700000x1 S1700000x1 [1] [0] [] [0] [] 1 ![1, 1]
  scatter_S100000x1_S1700000x1_S1700000x1_1_0_0_1_wf : ScatterDims.WF S100000x1 S1700000x1 S1700000x1 [1] [0] [0] 1

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x1_S1x64_S100000x64_1_0_0_1_n_n : DotDims S100000x1 S1x64 S100000x64 where
  lhsContracting := [1]
  rhsContracting := [0]
  lhsNonContracting := [0]
  rhsNonContracting := [1]
  lhsBatch := []
  rhsBatch := []
  wf := dot_S100000x1_S1x64_S100000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S100000x64_S64x128_S100000x128_1_0_0_1_n_n : DotDims S100000x64 S64x128 S100000x128 where
  lhsContracting := [1]
  rhsContracting := [0]
  lhsNonContracting := [0]
  rhsNonContracting := [1]
  lhsBatch := []
  rhsBatch := []
  wf := dot_S100000x64_S64x128_S100000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S100000x128_S128x1_S100000x1_1_0_0_1_n_n : DotDims S100000x128 S128x1 S100000x1 where
  lhsContracting := [1]
  rhsContracting := [0]
  lhsNonContracting := [0]
  rhsNonContracting := [1]
  lhsBatch := []
  rhsBatch := []
  wf := dot_S100000x128_S128x1_S100000x1_1_0_0_1_n_n_wf
def gather_S100000x1_S1700000x1_S1700000x1_1_0_n_n_0_1_11 : GatherDims S100000x1 S1700000x1 S1700000x1 where
  offsetDims := [1]
  collapsedSliceDims := [0]
  operandBatchingDims := []
  startIndicesBatchingDims := []
  startIndexMap := [0]
  indexVectorDim := 1
  sliceSizes := ![1, 1]
  wf := gather_S100000x1_S1700000x1_S1700000x1_1_0_n_n_0_1_11_wf
def scatter_S100000x1_S1700000x1_S1700000x1_1_0_0_1 : ScatterDims S100000x1 S1700000x1 S1700000x1 where
  updateWindowDims := [1]
  insertedWindowDims := [0]
  scatterDimsToOperandDims := [0]
  indexVectorDim := 1
  wf := scatter_S100000x1_S1700000x1_S1700000x1_1_0_0_1_wf

class Facts : Prop extends Facts₀ where

variable [Facts]
-- ==== Proof.Spec.lean ====
/-
  A three-layer graph convolution over a fixed graph, as two arrangements of the same sums.

  The graph has `NN` nodes and `EE` edges (the given edges followed by one self-loop per node).  Edge `e` reads node
  `s e` and lands on node `i` when `e ∈ D i`; `dinv i` is the inverse square root of node `i`'s in-degree.  One layer
  with weights `W` and bias `b` sends node features `h` to
      out i j = Σ_{e ∈ D i} (Σ_k h (s e) k · W k j) · (dinv (s e) · dinv (t e)) + b j,
  where `t e` is the landing node of `e` read a second time (so `t e = i` for `e ∈ D i`).  Because the edge weight
  factors into a per-source and a per-destination scale, and the sums are finite sums of reals, the same value is
      dinv i · Σ_k (Σ_{e ∈ D i} h (s e) k · dinv (s e)) · W k j + b j        (aggregate first, then multiply by `W`)
      dinv i · Σ_{e ∈ D i} (Σ_k (h (s e) k · dinv (s e)) · W k j) + b j        (multiply by `W` first, then aggregate).
  This file only states the three arrangements and the three-layer compositions; that they agree on real-valued data
  is proved elsewhere.
-/
import Idealize.ShloMosaic.PureOps.Ideal
import Idealize.ShloMosaic.PureOps.Contract
import Idealize.ShloMosaic.Lib.ValueIdx

noncomputable section

namespace Gcn

open Idealize.ShloMosaic Idealize.ShloMosaic.ValueIdx

/-- The number of nodes. -/
abbrev NN : Nat := 100000
/-- The number of edges, self-loops included. -/
abbrev EE : Nat := 1700000

/-- What both programs derive from the edge list: each edge's source node `s`, its landing node read through a clamped
    look-up `t`, the set `D i` of edges landing on node `i`, and the per-node scale `dinv`. -/
structure Graph where
  s : Fin EE → Fin NN
  t : Fin EE → Fin NN
  D : Fin NN → Finset (Fin EE)
  dinv : Fin NN → EReal

/-- A function of one index is real-valued: it never takes an infinite value. -/
def Real1 {α : Type} (f : α → EReal) : Prop := ∀ i, ∃ r : ℝ, f i = (r : EReal)
/-- A function of two indices is real-valued. -/
def Real2 {α β : Type} (f : α → β → EReal) : Prop := ∀ i j, ∃ r : ℝ, f i j = (r : EReal)

namespace Graph

variable (G : Graph)

/-- The sum over the edges landing on node `i` of an edge function. -/
def agg (f : Fin EE → EReal) (i : Fin NN) : EReal := ∑ e ∈ G.D i, f e

/-- Aggregate the pre-scaled features first, then multiply by the weights, scale by the destination and add the bias. -/
def aggFirst {K J : Nat} (h : Fin NN → Fin K → EReal) (W : Fin K → Fin J → EReal) (b : Fin J → EReal) :
    Fin NN → Fin J → EReal :=
  fun i j => G.dinv i * (∑ k : Fin K, G.agg (fun e => h (G.s e) k * G.dinv (G.s e)) i * W k j) + b j

/-- Multiply the pre-scaled features by the weights first, then aggregate, scale by the destination and add the bias. -/
def matFirst {K J : Nat} (h : Fin NN → Fin K → EReal) (W : Fin K → Fin J → EReal) (b : Fin J → EReal) :
    Fin NN → Fin J → EReal :=
  fun i j => G.dinv i * G.agg (fun e => ∑ k : Fin K, (h (G.s e) k * G.dinv (G.s e)) * W k j) i + b j

/-- The layer as the reference spells it: transform, weigh each edge by `dinv (s e) · dinv (t e)`, aggregate, add the bias. -/
def conv {K J : Nat} (h : Fin NN → Fin K → EReal) (W : Fin K → Fin J → EReal) (b : Fin J → EReal) :
    Fin NN → Fin J → EReal :=
  fun i j => G.agg (fun e => (∑ k : Fin K, h (G.s e) k * W k j) * (G.dinv (G.s e) * G.dinv (G.t e))) i + b j

/-- The rectifier, entry by entry. -/
def relu {J : Nat} (y : Fin NN → Fin J → EReal) : Fin NN → Fin J → EReal := fun i j => max (y i j) 0

/-- Three layers in the kernel's arrangement: aggregate-first twice (rectified), then matrix-first. -/
def kOut (x : Fin NN → Fin 1 → EReal) (W1 : Fin 1 → Fin 64 → EReal) (b1 : Fin 64 → EReal)
    (W2 : Fin 64 → Fin 128 → EReal) (b2 : Fin 128 → EReal) (W3 : Fin 128 → Fin 1 → EReal) (b3 : Fin 1 → EReal) :
    Fin NN → Fin 1 → EReal :=
  G.matFirst (relu (G.aggFirst (relu (G.aggFirst x W1 b1)) W2 b2)) W3 b3

/-- Three layers in the reference's arrangement. -/
def rOut (x : Fin NN → Fin 1 → EReal) (W1 : Fin 1 → Fin 64 → EReal) (b1 : Fin 64 → EReal)
    (W2 : Fin 64 → Fin 128 → EReal) (b2 : Fin 128 → EReal) (W3 : Fin 128 → Fin 1 → EReal) (b3 : Fin 1 → EReal) :
    Fin NN → Fin 1 → EReal :=
  G.conv (relu (G.conv (relu (G.conv x W1 b1)) W2 b2)) W3 b3

end Graph

/-! ## Arrays as functions of coordinates -/

/-- A rank-2 array read by its two coordinates. -/
def mat {A B : Nat} (a : (⟨2, ![A, B]⟩ : Shape).Idx → EReal) : Fin A → Fin B → EReal := fun p q => a (ix2 p q)
/-- A rank-1 array read by its coordinate. -/
def vec {A : Nat} (a : (⟨1, ![A]⟩ : Shape).Idx → EReal) : Fin A → EReal := fun p => a (ix1 p)
/-- A function of two coordinates as a rank-2 array. -/
def arr {A B : Nat} (f : Fin A → Fin B → EReal) : (⟨2, ![A, B]⟩ : Shape).Idx → EReal := fun i => f (i 0) (i 1)

/-! ## The graph of an edge list, as the operations both programs perform on it

  `edge_index` is a [2, 1600000] array of 32-bit words: row 0 the source node of each given edge, row 1 its
  destination.  Both programs append one self-loop per node (`iota`), count each node's incoming edges by a scatter-add
  of ones (`degV`), and take `dinvV = rsqrt(deg)` where the degree is positive and 0 elsewhere.  A row of node features
  is looked up at an edge's source through numpy's negative-index wrap (`wrap`: a negative word has the extent added)
  followed by the gather's own clamp into [0, NN − 1]; the scatter-add drops an edge whose destination word, read signed,
  is not a node. -/

abbrev S2xE0 : Shape := ⟨2, ![2, 1600000]⟩
abbrev S1xE0 : Shape := ⟨2, ![1, 1600000]⟩
abbrev SE0 : Shape := ⟨1, ![1600000]⟩
abbrev SN : Shape := ⟨1, ![100000]⟩
abbrev SE : Shape := ⟨1, ![1700000]⟩
abbrev SEx1 : Shape := ⟨2, ![1700000, 1]⟩
abbrev S0 : Shape := ⟨0, ![]⟩

theorem slices0 : S2xE0.Slices ![0, 0] S1xE0 := by decide
theorem slices1 : S2xE0.Slices ![1, 0] S1xE0 := by decide
theorem castsE0 : S1xE0.ShapeCasts SE0 := by decide
theorem concatsE : Shape.Concatenates [SE0, SN] SE 0 := by decide
theorem bc0E : S0.BroadcastsInDim SE (![] : Fin 0 → Fin SE.rank) := by decide
theorem bc0N : S0.BroadcastsInDim SN (![] : Fin 0 → Fin SN.rank) := by decide
theorem bcEcol : SE.BroadcastsInDim SEx1 (![0] : Fin 1 → Fin SEx1.rank) := by decide

/-- Row `r` of the edge list followed by the self-loops `0, 1, …, NN − 1`. -/
def rowOf (r : Nat) (h : S2xE0.Slices ![r, 0] S1xE0) (ei : IVec S2xE0 32) : IVec SE 32 :=
  concatenate SE 0 [⟨SE0, shapeCast SE0 (extractStridedSlice S1xE0 ![r, 0] ei h) castsE0⟩, ⟨SN, iotaInDim SN 32 0⟩] concatsE

/-- Every edge's source word. -/
def srcRaw (ei : IVec S2xE0 32) : IVec SE 32 := rowOf 0 slices0 ei
/-- Every edge's destination word. -/
def dstRaw (ei : IVec S2xE0 32) : IVec SE 32 := rowOf 1 slices1 ei

/-- numpy's wrap of a negative index: a word below zero has the extent `NN` added. -/
def wrap (v : IVec SE 32) : IVec SE 32 :=
  select (cmpi .slt v (broadcastInDim SE ![] bc0E (constantI S0 32 0#32)))
    (addi v (broadcastInDim SE ![] bc0E (constantI S0 32 100000#32))) v

/-- The wrapped source words: what the row look-ups are started at. -/
def srcW (ei : IVec S2xE0 32) : IVec SE 32 := wrap (srcRaw ei)
/-- The wrapped destination words: what the reference's second look-up of `dinv` is started at. -/
def dstW (ei : IVec S2xE0 32) : IVec SE 32 := wrap (dstRaw ei)

/-- A vector of words as the one column of start indices a gather or scatter takes. -/
def col (v : IVec SE 32) : IVec SEx1 32 := broadcastInDim SEx1 ![0] bcEcol v

/-- The scatter of one number per edge onto the nodes. -/
def degDims : ScatterDims SN SEx1 SE where
  updateWindowDims := []
  insertedWindowDims := [0]
  scatterDimsToOperandDims := [0]
  indexVectorDim := 1

variable {F : FTy → Type} [FloatOps F]

/-- Each node's in-degree: zero plus a one for every edge landing on it. -/
def degV (ei : IVec S2xE0 32) : FVec F SN .f32 :=
  Host.scatterAdd degDims (broadcastInDim SN ![] bc0N (constant (F := F) S0 .f32 0x00000000#32)) (col (dstRaw ei))
    (broadcastInDim SE ![] bc0E (constant (F := F) S0 .f32 0x3F800000#32))

/-- The per-node scale: the inverse square root of the in-degree where that is positive, zero elsewhere. -/
def dinvV (ei : IVec S2xE0 32) : FVec F SN .f32 :=
  select (cmpf .ogt (degV (F := F) ei) (broadcastInDim SN ![] bc0N (constant (F := F) S0 .f32 0x00000000#32)))
    (Host.rsqrt (degV (F := F) ei)) (broadcastInDim SN ![] bc0N (constant (F := F) S0 .f32 0x00000000#32))

/-- The graph of an edge list. -/
def graphOf (ei : IVec S2xE0 32) : Graph where
  s e := ⟨min (srcW ei (ix1 e)).toInt.toNat (NN - 1), Nat.lt_of_le_of_lt (Nat.min_le_right _ _) (by decide)⟩
  t e := ⟨min (dstW ei (ix1 e)).toInt.toNat (NN - 1), Nat.lt_of_le_of_lt (Nat.min_le_right _ _) (by decide)⟩
  D i := Finset.univ.filter fun e : Fin EE => (dstRaw ei (ix1 e)).toInt = (i.val : Int)
  dinv i := dinvV (F := Ideal) ei (ix1 i)

/-- Every wrapped source word is a node: what makes the kernel's guarded row look-up return the row. -/
def SrcOk (ei : IVec S2xE0 32) : Prop :=
  ∀ e : Fin EE, IntOp.cmpi .sge (srcW ei (ix1 e)) 0#32 = 1#1 ∧ IntOp.cmpi .sle (srcW ei (ix1 e)) 99999#32 = 1#1

/-! ## The kernel's stages, as whole-array functions

  Between its six grid kernels the kernel program gathers rows with `jnp.take` (a look-up guarded by a range test: a row
  whose start word is not a node is filled with the NaN word) and scatter-adds them onto the nodes.  The grid kernels
  themselves compute, row block by row block, the four whole-array functions below. -/

abbrev SNx1 : Shape := ⟨2, ![100000, 1]⟩
abbrev SNx64 : Shape := ⟨2, ![100000, 64]⟩
abbrev SNx128 : Shape := ⟨2, ![100000, 128]⟩
abbrev SEx64 : Shape := ⟨2, ![1700000, 64]⟩
abbrev S1x1 : Shape := ⟨2, ![1, 1]⟩
abbrev S1x64 : Shape := ⟨2, ![1, 64]⟩
abbrev S1x128 : Shape := ⟨2, ![1, 128]⟩
abbrev S64x128 : Shape := ⟨2, ![64, 128]⟩
abbrev S128x1 : Shape := ⟨2, ![128, 1]⟩
abbrev S1v : Shape := ⟨1, ![1]⟩
abbrev S64v : Shape := ⟨1, ![64]⟩
abbrev S128v : Shape := ⟨1, ![128]⟩

/-- Every row of `a` scaled by that row's entry of the column `d`. -/
def scaleRows {C : Nat} (a : (⟨2, ![NN, C]⟩ : Shape).Idx → EReal) (d : (⟨2, ![NN, 1]⟩ : Shape).Idx → EReal) :
    (⟨2, ![NN, C]⟩ : Shape).Idx → EReal :=
  arr fun p q => mat a p q * mat d p 0

/-- `max (d · (a W) + b, 0)`: the product of `a` with the weights, each row scaled by `d`, the bias row added, rectified. -/
def denseRelu {K J : Nat} (a : (⟨2, ![NN, K]⟩ : Shape).Idx → EReal) (W : (⟨2, ![K, J]⟩ : Shape).Idx → EReal)
    (d : (⟨2, ![NN, 1]⟩ : Shape).Idx → EReal) (b : (⟨2, ![1, J]⟩ : Shape).Idx → EReal) : (⟨2, ![NN, J]⟩ : Shape).Idx → EReal :=
  arr fun p q => max (mat d p 0 * (∑ k : Fin K, mat a p k * mat W k q) + mat b 0 q) 0

/-- `(a scaled by d) W`: each row of `a` scaled by `d`, then the product with the weights. -/
def scaleDense {K J : Nat} (a : (⟨2, ![NN, K]⟩ : Shape).Idx → EReal) (d : (⟨2, ![NN, 1]⟩ : Shape).Idx → EReal)
    (W : (⟨2, ![K, J]⟩ : Shape).Idx → EReal) : (⟨2, ![NN, J]⟩ : Shape).Idx → EReal :=
  arr fun p q => ∑ k : Fin K, (mat a p k * mat d p 0) * mat W k q

/-- `d · a + b`: each row of `a` scaled by `d`, the bias row added. -/
def scaleBias {J : Nat} (a : (⟨2, ![NN, J]⟩ : Shape).Idx → EReal) (d : (⟨2, ![NN, 1]⟩ : Shape).Idx → EReal)
    (b : (⟨2, ![1, J]⟩ : Shape).Idx → EReal) : (⟨2, ![NN, J]⟩ : Shape).Idx → EReal :=
  arr fun p q => mat d p 0 * mat a p q + mat b 0 q

theorem castsNcol : SN.ShapeCasts SNx1 := by decide
theorem casts64row : S64v.ShapeCasts S1x64 := by decide
theorem casts128row : S128v.ShapeCasts S1x128 := by decide
theorem casts1row : S1v.ShapeCasts S1x1 := by decide
theorem bc0Ecol : S0.BroadcastsInDim SEx1 (![] : Fin 0 → Fin SEx1.rank) := by decide
theorem bc0E64 : S0.BroadcastsInDim SEx64 (![] : Fin 0 → Fin SEx64.rank) := by decide
theorem bc1v : S1v.BroadcastsInDim S1x1 (![1] : Fin 1 → Fin S1x1.rank) := by decide
theorem bc1x1 : S1x1.BroadcastsInDim SEx1 (![0, 1] : Fin 2 → Fin SEx1.rank) := by decide
theorem bcE64 : SE.BroadcastsInDim SEx64 (![0] : Fin 1 → Fin SEx64.rank) := by decide
theorem bc0N1 : S0.BroadcastsInDim SNx1 (![] : Fin 0 → Fin SNx1.rank) := by decide
theorem bc0N64 : S0.BroadcastsInDim SNx64 (![] : Fin 0 → Fin SNx64.rank) := by decide
theorem redEcol : SEx1.ReducesTo [1] SE := by decide
theorem pos0 : 0 < S0.numel := by decide

/-- The look-up of whole rows of a one-column table at one column of start words. -/
def gDims1 : GatherDims SNx1 SEx1 SEx1 where
  offsetDims := [1]
  collapsedSliceDims := [0]
  operandBatchingDims := []
  startIndicesBatchingDims := []
  startIndexMap := [0]
  indexVectorDim := 1
  sliceSizes := ![1, 1]
/-- The same of a 64-column table. -/
def gDims64 : GatherDims SNx64 SEx1 SEx64 where
  offsetDims := [1]
  collapsedSliceDims := [0]
  operandBatchingDims := []
  startIndicesBatchingDims := []
  startIndexMap := [0]
  indexVectorDim := 1
  sliceSizes := ![1, 64]
/-- The scatter of one-column rows onto the nodes. -/
def sDims1 : ScatterDims SNx1 SEx1 SEx1 where
  updateWindowDims := [1]
  insertedWindowDims := [0]
  scatterDimsToOperandDims := [0]
  indexVectorDim := 1
/-- The same of 64-column rows. -/
def sDims64 : ScatterDims SNx64 SEx1 SEx64 where
  updateWindowDims := [1]
  insertedWindowDims := [0]
  scatterDimsToOperandDims := [0]
  indexVectorDim := 1

/-- The range test of `jnp.take`: per edge, whether its wrapped source word lies in `[0, NN − 1]` (an all-true fold of the
    two comparisons along the index vector's one component). -/
def okMask (ei : IVec S2xE0 32) : IVec SE 1 :=
  Host.reduce IntOp.andi
    (andi (cmpi .sge (col (srcW ei)) (broadcastInDim SEx1 ![] bc0Ecol (constantI S0 32 0#32)))
      (cmpi .sle (col (srcW ei)) (broadcastInDim SEx1 ![0, 1] bc1x1 (broadcastInDim S1x1 ![1] bc1v (constantI S1v 32 99999#32)))))
    (constantI S0 1 1#1) redEcol pos0

/-- `jnp.take` of a one-column table at the edges' sources: the row where the range test holds, the NaN word elsewhere. -/
def take1 (ei : IVec S2xE0 32) (p : FVec Ideal SNx1 .f32) : FVec Ideal SEx1 .f32 :=
  select (broadcastInDim SEx1 ![0] bcEcol (okMask ei)) (Host.gather gDims1 p (col (srcW ei)))
    (broadcastInDim SEx1 ![] bc0Ecol (constant (F := Ideal) S0 .f32 0x7FC00000#32))
/-- The same of a 64-column table. -/
def take64 (ei : IVec S2xE0 32) (p : FVec Ideal SNx64 .f32) : FVec Ideal SEx64 .f32 :=
  select (broadcastInDim SEx64 ![0] bcE64 (okMask ei)) (Host.gather gDims64 p (col (srcW ei)))
    (broadcastInDim SEx64 ![] bc0E64 (constant (F := Ideal) S0 .f32 0x7FC00000#32))

/-- The segment sum of one-column edge rows onto their destination nodes, from zero. -/
def scat1 (ei : IVec S2xE0 32) (u : FVec Ideal SEx1 .f32) : FVec Ideal SNx1 .f32 :=
  Host.scatterAdd sDims1 (broadcastInDim SNx1 ![] bc0N1 (constant (F := Ideal) S0 .f32 0x00000000#32)) (col (dstRaw ei)) u
/-- The same of 64-column rows. -/
def scat64 (ei : IVec S2xE0 32) (u : FVec Ideal SEx64 .f32) : FVec Ideal SNx64 .f32 :=
  Host.scatterAdd sDims64 (broadcastInDim SNx64 ![] bc0N64 (constant (F := Ideal) S0 .f32 0x00000000#32)) (col (dstRaw ei)) u

/-- The scale `dinv` as the one column the grid kernels read. -/
def dinvCol (ei : IVec S2xE0 32) : FVec Ideal SNx1 .f32 := shapeCast SNx1 (dinvV (F := Ideal) ei) castsNcol

/-- After layer 1: pre-scale, take, segment-sum, then the fused product, scale, bias and rectifier. -/
def kH1 (x : FVec Ideal SNx1 .f32) (ei : IVec S2xE0 32) (W1 : FVec Ideal S1x64 .f32) (b1 : FVec Ideal S64v .f32) : FVec Ideal SNx64 .f32 :=
  denseRelu (K := 1) (J := 64) (scat1 ei (take1 ei (scaleRows (C := 1) x (dinvCol ei)))) W1 (dinvCol ei) (shapeCast S1x64 b1 casts64row)
/-- After layer 2. -/
def kH2 (x : FVec Ideal SNx1 .f32) (ei : IVec S2xE0 32) (W1 : FVec Ideal S1x64 .f32) (b1 : FVec Ideal S64v .f32)
    (W2 : FVec Ideal S64x128 .f32) (b2 : FVec Ideal S128v .f32) : FVec Ideal SNx128 .f32 :=
  denseRelu (K := 64) (J := 128) (scat64 ei (take64 ei (scaleRows (C := 64) (kH1 x ei W1 b1) (dinvCol ei)))) W2 (dinvCol ei)
    (shapeCast S1x128 b2 casts128row)
/-- The kernel program's result: after layer 3 (product first, then take, segment-sum, scale and bias). -/
def kTerm (x : FVec Ideal SNx1 .f32) (ei : IVec S2xE0 32) (W1 : FVec Ideal S1x64 .f32) (b1 : FVec Ideal S64v .f32)
    (W2 : FVec Ideal S64x128 .f32) (b2 : FVec Ideal S128v .f32) (W3 : FVec Ideal S128x1 .f32) (b3 : FVec Ideal S1v .f32) :
    FVec Ideal SNx1 .f32 :=
  scaleBias (J := 1) (scat1 ei (take1 ei (scaleDense (K := 128) (J := 1) (kH2 x ei W1 b1 W2 b2) (dinvCol ei) W3))) (dinvCol ei)
    (shapeCast S1x1 b3 casts1row)

end Gcn

end
-- ==== Proof.KRegP.lean ====
/-
  What the kernel program's three entrywise grid kernels (the two pre-scales and the final scale-and-bias) leave in their output arrays: the blocks of 5000 rows, one per grid
  point, tile the 100000 rows, and every block is the same function of the matching rows of the inputs, so the whole
  output array is one function of the whole input arrays, entry by entry.
-/
import proofs.«420770_j5153960755350_2_alg».proof.Proof.Gen.KernelIdeal.Frame
import proofs.«420770_j5153960755350_2_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Gen

open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

namespace Entrywise

/-! ## Grid kernel 0: the pre-scale of a one-column array -/

/-- The zero offsets of a whole-buffer access, however spelt. -/
theorem zero_offsets : (![0, 0] : Fin 2 → Nat) = fun _ => 0 := funext fun a => by fin_cases a <;> rfl

/-- The body's value at an entry of the block: the first block's entry times the second's. -/
theorem prescale1_body_apply (x0 x1 : Vec Ideal S5000x1 .f32) (j : S5000x1.Idx) : k0_pay1 x0 x1 j = x0 j * x1 j := by
  unfold k0_pay1
  rw [shapeCast_self]
  rfl

/-- The row-scaled array at an entry, from the two arrays read at that entry's row. -/
theorem scaleRows_entry {C : Nat} (a : (⟨2, ![100000, C]⟩ : Shape).Idx → EReal) (d : S100000x1.Idx → EReal)
    (i i0 : (⟨2, ![100000, C]⟩ : Shape).Idx) (i1 : S100000x1.Idx) (h0 : i0 = ix2 (i 0) (i 1)) (h1 : i1 = ix2 (i 0) 0) :
    a i0 * d i1 = Gcn.scaleRows (C := C) a d i := by
  subst h0 h1; rfl

/-- The index maps over the grid: all three windows sit at block row `t`, block column 0. -/
theorem prescale1_block_index : ∀ t : Fin cfg0.N, win0_0.index t (0 : Fin 2) = win0_2.index t (0 : Fin 2)
    ∧ win0_0.index t (1 : Fin 2) = 0
    ∧ win0_1.index t (0 : Fin 2) = win0_2.index t (0 : Fin 2)
    ∧ win0_1.index t (1 : Fin 2) = 0
    ∧ win0_2.index t (0 : Fin 2) ≤ 19
    ∧ win0_2.index t (1 : Fin 2) = 0 :=
  (by decide +kernel : ∀ t : Fin grid0.N, _)

/-- Every block row is some point's. -/
theorem prescale1_block_onto : ∀ q : Fin 20, ∃ t : Fin cfg0.N, win0_2.index t = ![q.val, 0] :=
  (by decide +kernel : ∀ q : Fin 20, ∃ t : Fin grid0.N, win0_2.index t = ![q.val, 0])

/-- What point `t` writes back is block `t` of the row-scaled array. -/
theorem prescale1_flushed (c : Dev nD) (t : Fin cfg0.N) :
    (dat0 (F := Ideal) V c).flushed 2 t
      = ((cfg0.win 2).blk t).view.read (Elt Ideal) (Gcn.scaleRows (C := 1) (V c main_arg0) (V c main_v15)) := by
  show (cfg0.win 2).cut (grid0.coords t) ((dat0 V c).after 2 t) = _
  rw [after0_2]
  unfold out0_2
  rw [View.canon_unit_zero zero_offsets]
  simp only [View.ld_unit_zero (S := S5000x1) zero_offsets]
  obtain ⟨e0, e1, e2, e3, e4, e5⟩ := prescale1_block_index t
  funext j
  have h0 : (((cfg0.win 0).blk t).view.emb j : S100000x1.Idx)
      = ix2 (n0 := 100000) (n1 := 1) ((((cfg0.win 2).blk t).view.emb j : S100000x1.Idx) 0)
        ((((cfg0.win 2).blk t).view.emb j : S100000x1.Idx) 1) := by
    funext a; apply Fin.ext
    match a with
    | ⟨0, _⟩ => show win0_0.index t (0 : Fin 2) * 5000 + 1 * (j 0).val = win0_2.index t (0 : Fin 2) * 5000 + 1 * (j 0).val; omega
    | ⟨1, _⟩ => show win0_0.index t (1 : Fin 2) * 1 + 1 * (j 1).val = win0_2.index t (1 : Fin 2) * 1 + 1 * (j 1).val; omega
  have h1 : (((cfg0.win 1).blk t).view.emb j : S100000x1.Idx)
      = ix2 (n0 := 100000) (n1 := 1) ((((cfg0.win 2).blk t).view.emb j : S100000x1.Idx) 0) 0 := by
    funext a; apply Fin.ext
    match a with
    | ⟨0, _⟩ => show win0_1.index t (0 : Fin 2) * 5000 + 1 * (j 0).val = win0_2.index t (0 : Fin 2) * 5000 + 1 * (j 0).val; omega
    | ⟨1, _⟩ => show win0_1.index t (1 : Fin 2) * 1 + 1 * (j 1).val = 0; have hj : (j 1).val < 1 := (j 1).isLt; omega
  exact (prescale1_body_apply (iblk0 V c 0 t) (iblk0 V c 1 t) j).trans
    (scaleRows_entry (V c main_arg0) (V c main_v15) (((cfg0.win 2).blk t).view.emb j) _ _ h0 h1)

/-- An index of the array is in point `t`'s block iff each coordinate is in the block's range on its axis. -/
theorem prescale1_mem_block (t : Fin cfg0.N) (i : S100000x1.Idx) :
    i ∈ ((cfg0.win 2).blk t).view.set ↔ ∀ a : Fin 2, win0_2.index t a * S5000x1.size a ≤ (i a).val
      ∧ (i a).val < win0_2.index t a * S5000x1.size a + S5000x1.size a := by
  show i ∈ ((View.whole main_v16).slice (win0_2.rect t)).set ↔ _
  rw [View.set_slice_whole, Rect.mem_set_unit]
  exact Iff.rfl

/-- The blocks tile the array: row `r` is in the block of point `r / 5000`. -/
theorem prescale1_cover (i : S100000x1.Idx) :
    ∃ t : Fin cfg0.N, (cfg0.win 2).flush t = true ∧ i ∈ ((cfg0.win 2).blk t).view.set := by
  have hi0 : (i 0).val < 100000 := (i 0).isLt
  have hi1 : (i 1).val < 1 := (i 1).isLt
  obtain ⟨t, ht⟩ := prescale1_block_onto ⟨(i 0).val / 5000, by omega⟩
  have q0 : win0_2.index t (0 : Fin 2) = (i 0).val / 5000 := congrFun ht 0
  have q1 : win0_2.index t (1 : Fin 2) = 0 := congrFun ht 1
  refine ⟨t, flush0_2 t, ?_⟩
  rw [prescale1_mem_block]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 1 ≤ (i 1).val ∧ (i 1).val < win0_2.index t (1 : Fin 2) * 1 + 1; omega

/-! ## Grid kernel 2: the pre-scale of a 64-column array -/

/-- The body's value at an entry of the block: the first block's entry times the second's entry of the same row. -/
theorem prescale64_body_apply (x0 : Vec Ideal S5000x64 .f32) (x1 : Vec Ideal S5000x1 .f32) (j : S5000x64.Idx) :
    k2_pay1 x0 x1 j = x0 j * x1 (ix2 (j 0) 0) := by
  unfold k2_pay1
  rw [shapeCast_self, shapeCast_self]
  refine (mulf_apply _ _ j).trans ?_
  refine congrArg (fun z => x0 j * z) ?_
  refine broadcastTo_apply x1 _ j (ix2 (j 0) 0) fun a => ?_
  match a with
  | ⟨0, _⟩ => rfl
  | ⟨1, _⟩ => rfl

/-- The index maps over the grid: all three windows sit at block row `t`, block column 0. -/
theorem prescale64_block_index : ∀ t : Fin cfg2.N, win2_0.index t (0 : Fin 2) = win2_2.index t (0 : Fin 2)
    ∧ win2_0.index t (1 : Fin 2) = 0
    ∧ win2_1.index t (0 : Fin 2) = win2_2.index t (0 : Fin 2)
    ∧ win2_1.index t (1 : Fin 2) = 0
    ∧ win2_2.index t (0 : Fin 2) ≤ 19
    ∧ win2_2.index t (1 : Fin 2) = 0 :=
  (by decide +kernel : ∀ t : Fin grid2.N, _)

/-- Every block row is some point's. -/
theorem prescale64_block_onto : ∀ q : Fin 20, ∃ t : Fin cfg2.N, win2_2.index t = ![q.val, 0] :=
  (by decide +kernel : ∀ q : Fin 20, ∃ t : Fin grid2.N, win2_2.index t = ![q.val, 0])

/-- What point `t` writes back is block `t` of the row-scaled array. -/
theorem prescale64_flushed (c : Dev nD) (t : Fin cfg2.N) :
    (dat2 (F := Ideal) V c).flushed 2 t
      = ((cfg2.win 2).blk t).view.read (Elt Ideal) (Gcn.scaleRows (C := 64) (V c main_v22) (V c main_v15)) := by
  show (cfg2.win 2).cut (grid2.coords t) ((dat2 V c).after 2 t) = _
  rw [after2_2]
  unfold out2_2
  rw [View.canon_unit_zero zero_offsets]
  simp only [View.ld_unit_zero (S := S5000x64) zero_offsets, View.ld_unit_zero (S := S5000x1) zero_offsets]
  obtain ⟨e0, e1, e2, e3, e4, e5⟩ := prescale64_block_index t
  funext j
  have h0 : (((cfg2.win 0).blk t).view.emb j : S100000x64.Idx)
      = ix2 (n0 := 100000) (n1 := 64) ((((cfg2.win 2).blk t).view.emb j : S100000x64.Idx) 0)
        ((((cfg2.win 2).blk t).view.emb j : S100000x64.Idx) 1) := by
    funext a; apply Fin.ext
    match a with
    | ⟨0, _⟩ => show win2_0.index t (0 : Fin 2) * 5000 + 1 * (j 0).val = win2_2.index t (0 : Fin 2) * 5000 + 1 * (j 0).val; omega
    | ⟨1, _⟩ => show win2_0.index t (1 : Fin 2) * 64 + 1 * (j 1).val = win2_2.index t (1 : Fin 2) * 64 + 1 * (j 1).val; omega
  have h1 : (((cfg2.win 1).blk t).view.emb (ix2 (n0 := 5000) (n1 := 1) (j 0) 0) : S100000x1.Idx)
      = ix2 (n0 := 100000) (n1 := 1) ((((cfg2.win 2).blk t).view.emb j : S100000x64.Idx) 0) 0 := by
    funext a; apply Fin.ext
    match a with
    | ⟨0, _⟩ => show win2_1.index t (0 : Fin 2) * 5000 + 1 * (j 0).val = win2_2.index t (0 : Fin 2) * 5000 + 1 * (j 0).val; omega
    | ⟨1, _⟩ => show win2_1.index t (1 : Fin 2) * 1 + 1 * 0 = 0; omega
  exact (prescale64_body_apply (iblk2 V c 0 t) (iblk2 V c 1 t) j).trans
    (scaleRows_entry (V c main_v22) (V c main_v15) (((cfg2.win 2).blk t).view.emb j) _ _ h0 h1)

/-- An index of the array is in point `t`'s block iff each coordinate is in the block's range on its axis. -/
theorem prescale64_mem_block (t : Fin cfg2.N) (i : S100000x64.Idx) :
    i ∈ ((cfg2.win 2).blk t).view.set ↔ ∀ a : Fin 2, win2_2.index t a * S5000x64.size a ≤ (i a).val
      ∧ (i a).val < win2_2.index t a * S5000x64.size a + S5000x64.size a := by
  show i ∈ ((View.whole main_v23).slice (win2_2.rect t)).set ↔ _
  rw [View.set_slice_whole, Rect.mem_set_unit]
  exact Iff.rfl

/-- The blocks tile the array: row `r` is in the block of point `r / 5000`. -/
theorem prescale64_cover (i : S100000x64.Idx) :
    ∃ t : Fin cfg2.N, (cfg2.win 2).flush t = true ∧ i ∈ ((cfg2.win 2).blk t).view.set := by
  have hi0 : (i 0).val < 100000 := (i 0).isLt
  have hi1 : (i 1).val < 64 := (i 1).isLt
  obtain ⟨t, ht⟩ := prescale64_block_onto ⟨(i 0).val / 5000, by omega⟩
  have q0 : win2_2.index t (0 : Fin 2) = (i 0).val / 5000 := congrFun ht 0
  have q1 : win2_2.index t (1 : Fin 2) = 0 := congrFun ht 1
  refine ⟨t, flush2_2 t, ?_⟩
  rw [prescale64_mem_block]
  intro a
  match a with
  | ⟨0, _⟩ => show win2_2.index t (0 : Fin 2) * 5000 ≤ (i 0).val ∧ (i 0).val < win2_2.index t (0 : Fin 2) * 5000 + 5000; omega
  | ⟨1, _⟩ => show win2_2.index t (1 : Fin 2) * 64 ≤ (i 1).val ∧ (i 1).val < win2_2.index t (1 : Fin 2) * 64 + 64; omega

/-! ## Grid kernel 5: row scale and bias -/

/-- The body's value at an entry of the block: the product of the first two blocks' entries plus the one bias entry. -/
theorem scaleBias_body_apply (x0 x1 : Vec Ideal S5000x1 .f32) (x2 : Vec Ideal S1x1 .f32) (j : S5000x1.Idx) :
    k5_pay1 x0 x1 x2 j = x0 j * x1 j + x2 (ix2 0 0) := by
  unfold k5_pay1
  rw [shapeCast_self, shapeCast_self, shapeCast_self]
  refine (addf_apply _ _ j).trans ?_
  refine congrArg (fun z => x0 j * x1 j + z) ?_
  refine broadcastTo_apply x2 _ j (ix2 0 0) fun a => ?_
  match a with
  | ⟨0, _⟩ => rfl
  | ⟨1, _⟩ => rfl

/-- The scaled-and-biased array at an entry, from the three arrays read at that entry's row and column. -/
theorem scaleBias_entry (a d : S100000x1.Idx → EReal) (b : S1x1.Idx → EReal) (i i0 i1 : S100000x1.Idx) (i2 : S1x1.Idx)
    (h0 : i0 = ix2 (i 0) (i 1)) (h1 : i1 = ix2 (i 0) 0) (h2 : i2 = ix2 0 (i 1)) :
    d i1 * a i0 + b i2 = Gcn.scaleBias (J := 1) a d b i := by
  subst h0 h1 h2; rfl

/-- The index maps over the grid: the row-blocked windows sit at block row `t`, block column 0; the bias window at 0, 0. -/
theorem scaleBias_block_index : ∀ t : Fin cfg5.N, win5_0.index t (0 : Fin 2) = win5_3.index t (0 : Fin 2)
    ∧ win5_0.index t (1 : Fin 2) = 0
    ∧ win5_1.index t (0 : Fin 2) = win5_3.index t (0 : Fin 2)
    ∧ win5_1.index t (1 : Fin 2) = 0
    ∧ win5_2.index t (0 : Fin 2) = 0
    ∧ win5_2.index t (1 : Fin 2) = 0
    ∧ win5_3.index t (0 : Fin 2) ≤ 19
    ∧ win5_3.index t (1 : Fin 2) = 0 :=
  (by decide +kernel : ∀ t : Fin grid5.N, _)

/-- Every block row is some point's. -/
theorem scaleBias_block_onto : ∀ q : Fin 20, ∃ t : Fin cfg5.N, win5_3.index t = ![q.val, 0] :=
  (by decide +kernel : ∀ q : Fin 20, ∃ t : Fin grid5.N, win5_3.index t = ![q.val, 0])

/-- What point `t` writes back is block `t` of the scaled-and-biased array. -/
theorem scaleBias_flushed (c : Dev nD) (t : Fin cfg5.N) :
    (dat5 (F := Ideal) V c).flushed 3 t
      = ((cfg5.win 3).blk t).view.read (Elt Ideal) (Gcn.scaleBias (J := 1) (V c main_v34) (V c main_v15) (V c main_v35)) := by
  show (cfg5.win 3).cut (grid5.coords t) ((dat5 V c).after 3 t) = _
  rw [after5_3]
  unfold out5_3
  rw [View.canon_unit_zero zero_offsets]
  simp only [View.ld_unit_zero (S := S5000x1) zero_offsets, View.ld_unit_zero (S := S1x1) zero_offsets]
  obtain ⟨e0, e1, e2, e3, e4, e5, e6, e7⟩ := scaleBias_block_index t
  funext j
  have h0 : (((cfg5.win 0).blk t).view.emb j : S100000x1.Idx)
      = ix2 (n0 := 100000) (n1 := 1) ((((cfg5.win 3).blk t).view.emb j : S100000x1.Idx) 0)
        ((((cfg5.win 3).blk t).view.emb j : S100000x1.Idx) 1) := by
    funext a; apply Fin.ext
    match a with
    | ⟨0, _⟩ => show win5_0.index t (0 : Fin 2) * 5000 + 1 * (j 0).val = win5_3.index t (0 : Fin 2) * 5000 + 1 * (j 0).val; omega
    | ⟨1, _⟩ => show win5_0.index t (1 : Fin 2) * 1 + 1 * (j 1).val = win5_3.index t (1 : Fin 2) * 1 + 1 * (j 1).val; omega
  have h1 : (((cfg5.win 1).blk t).view.emb j : S100000x1.Idx)
      = ix2 (n0 := 100000) (n1 := 1) ((((cfg5.win 3).blk t).view.emb j : S100000x1.Idx) 0) 0 := by
    funext a; apply Fin.ext
    match a with
    | ⟨0, _⟩ => show win5_1.index t (0 : Fin 2) * 5000 + 1 * (j 0).val = win5_3.index t (0 : Fin 2) * 5000 + 1 * (j 0).val; omega
    | ⟨1, _⟩ => show win5_1.index t (1 : Fin 2) * 1 + 1 * (j 1).val = 0; have hj : (j 1).val < 1 := (j 1).isLt; omega
  have h2 : (((cfg5.win 2).blk t).view.emb (ix2 (n0 := 1) (n1 := 1) 0 0) : S1x1.Idx)
      = ix2 (n0 := 1) (n1 := 1) 0 ((((cfg5.win 3).blk t).view.emb j : S100000x1.Idx) 1) := by
    funext a; apply Fin.ext
    match a with
    | ⟨0, _⟩ => show win5_2.index t (0 : Fin 2) * 1 + 1 * 0 = 0; omega
    | ⟨1, _⟩ => show win5_2.index t (1 : Fin 2) * 1 + 1 * 0 = win5_3.index t (1 : Fin 2) * 1 + 1 * (j 1).val; have hj : (j 1).val < 1 := (j 1).isLt; omega
  exact (scaleBias_body_apply (iblk5 V c 1 t) (iblk5 V c 0 t) (iblk5 V c 2 t) j).trans
    (scaleBias_entry (V c main_v34) (V c main_v15) (V c main_v35) (((cfg5.win 3).blk t).view.emb j) _ _ _ h0 h1 h2)

/-- An index of the array is in point `t`'s block iff each coordinate is in the block's range on its axis. -/
theorem scaleBias_mem_block (t : Fin cfg5.N) (i : S100000x1.Idx) :
    i ∈ ((cfg5.win 3).blk t).view.set ↔ ∀ a : Fin 2, win5_3.index t a * S5000x1.size a ≤ (i a).val
      ∧ (i a).val < win5_3.index t a * S5000x1.size a + S5000x1.size a := by
  show i ∈ ((View.whole main_v36).slice (win5_3.rect t)).set ↔ _
  rw [View.set_slice_whole, Rect.mem_set_unit]
  exact Iff.rfl

/-- The blocks tile the array: row `r` is in the block of point `r / 5000`. -/
theorem scaleBias_cover (i : S100000x1.Idx) :
    ∃ t : Fin cfg5.N, (cfg5.win 3).flush t = true ∧ i ∈ ((cfg5.win 3).blk t).view.set := by
  have hi0 : (i 0).val < 100000 := (i 0).isLt
  have hi1 : (i 1).val < 1 := (i 1).isLt
  obtain ⟨t, ht⟩ := scaleBias_block_onto ⟨(i 0).val / 5000, by omega⟩
  have q0 : win5_3.index t (0 : Fin 2) = (i 0).val / 5000 := congrFun ht 0
  have q1 : win5_3.index t (1 : Fin 2) = 0 := congrFun ht 1
  refine ⟨t, flush5_3 t, ?_⟩
  rw [scaleBias_mem_block]
  intro a
  match a with
  | ⟨0, _⟩ => show win5_3.index t (0 : Fin 2) * 5000 ≤ (i 0).val ∧ (i 0).val < win5_3.index t (0 : Fin 2) * 5000 + 5000; omega
  | ⟨1, _⟩ => show win5_3.index t (1 : Fin 2) * 1 ≤ (i 1).val ∧ (i 1).val < win5_3.index t (1 : Fin 2) * 1 + 1; omega

end Entrywise

open Entrywise

/-- Grid kernel 0 (the pre-scale of a one-column array): every row of the first input scaled by the second's entry. -/
theorem region0_out (c : Dev nD) :
    (dat0 (F := Ideal) V c).arrAt 2 cfg0.N = Gcn.scaleRows (C := 1) (V c main_arg0) (V c main_v15) :=
  (dat0 (F := Ideal) V c).arrAt_eq_of_cover 2 _ (fun t _ => prescale1_flushed V c t) prescale1_cover

/-- Grid kernel 2 (the pre-scale of a 64-column array). -/
theorem region2_out (c : Dev nD) :
    (dat2 (F := Ideal) V c).arrAt 2 cfg2.N = Gcn.scaleRows (C := 64) (V c main_v22) (V c main_v15) :=
  (dat2 (F := Ideal) V c).arrAt_eq_of_cover 2 _ (fun t _ => prescale64_flushed V c t) prescale64_cover

/-- Grid kernel 5 (row scale and bias). -/
theorem region5_out (c : Dev nD) :
    (dat5 (F := Ideal) V c).arrAt 3 cfg5.N = Gcn.scaleBias (J := 1) (V c main_v34) (V c main_v15) (V c main_v35) :=
  (dat5 (F := Ideal) V c).arrAt_eq_of_cover 3 _ (fun t _ => scaleBias_flushed V c t) scaleBias_cover

end Cert.KernelIdeal.Gen

end
-- ==== Proof.KRegM.lean ====
/-
  What the kernel program's three grid kernels with a matrix product leave in their output arrays: the blocks of 5000 rows, one per grid
  point, tile the 100000 rows, and every block is the same function of the matching rows of the inputs, so the whole
  output array is one function of the whole input arrays, entry by entry.
-/
import proofs.«420770_j5153960755350_2_alg».proof.Proof.Gen.KernelIdeal.Frame
import proofs.«420770_j5153960755350_2_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Gen

open Idealize.ShloMosaic Idealize.ShloMosaic.TcCoe Idealize.ShloMosaic.ValueIdx Idealize.SL.Sem
open Idealize.ShloMosaic.Pipeline (Dat Cfg Window)

/-! ## Reads the three bodies share -/

/-- The zero offsets of a whole-block access, as the constant function. -/
theorem zeros2 : (![0, 0] : Fin 2 → Nat) = fun _ => 0 := funext fun a => match a with
  | ⟨0, _⟩ => rfl
  | ⟨1, _⟩ => rfl

/-- An `[a, 1]` array broadcast to `[a, b]` reads, at `(p, c)`, the operand's one column at `p`. -/
theorem broadcastTo_col_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

variable (V : (c : Dev nD) → (b : Ref sig .tc) → Buf (Elt Ideal) ((c : Thread nD τ).loc b))

/-! ## Grid kernel 1: the body's arithmetic at an entry -/

theorem dot1_lhs_0 (i : S5000x64.Idx) (q : dot_S5000x1_S1x64_S5000x64_1_0_0_1_n_n.contr.Idx) :
    (dot_S5000x1_S1x64_S5000x64_1_0_0_1_n_n.lhsIdx i q 0).val = (i 0).val := by
  unfold DotDims.lhsIdx
  rw [dif_neg (show ¬(0 : Fin S5000x1.rank) ∈ dot_S5000x1_S1x64_S5000x64_1_0_0_1_n_n.lhsBatch by decide), dif_pos (show (0 : Fin S5000x1.rank) ∈ dot_S5000x1_S1x64_S5000x64_1_0_0_1_n_n.lhsNonContracting by decide)]
  rfl
theorem dot1_lhs_1 (i : S5000x64.Idx) (q : dot_S5000x1_S1x64_S5000x64_1_0_0_1_n_n.contr.Idx) :
    (dot_S5000x1_S1x64_S5000x64_1_0_0_1_n_n.lhsIdx i q 1).val = (q ⟨0, by decide⟩).val :=
  dot_S5000x1_S1x64_S5000x64_1_0_0_1_n_n.lhsIdx_val_of_single rfl i q
theorem dot1_rhs_0 (i : S5000x64.Idx) (q : dot_S5000x1_S1x64_S5000x64_1_0_0_1_n_n.contr.Idx) :
    (dot_S5000x1_S1x64_S5000x64_1_0_0_1_n_n.rhsIdx i q 0).val = (q ⟨0, by decide⟩).val :=
  dot_S5000x1_S1x64_S5000x64_1_0_0_1_n_n.rhsIdx_val_of_single rfl i q
theorem dot1_rhs_1 (i : S5000x64.Idx) (q : dot_S5000x1_S1x64_S5000x64_1_0_0_1_n_n.contr.Idx) :
    (dot_S5000x1_S1x64_S5000x64_1_0_0_1_n_n.rhsIdx i q 1).val = (i 1).val := by
  unfold DotDims.rhsIdx
  rw [dif_neg (show ¬(1 : Fin S1x64.rank) ∈ dot_S5000x1_S1x64_S5000x64_1_0_0_1_n_n.rhsBatch by decide), dif_pos (show (1 : Fin S1x64.rank) ∈ dot_S5000x1_S1x64_S5000x64_1_0_0_1_n_n.rhsNonContracting by decide)]
  rfl

/-- The product into the zero accumulator, at entry `(p, q)`: the sum over the contracted coordinate. -/
theorem matmul1_apply (l : FVec Ideal S5000x1 .bf16) (r : FVec Ideal S1x64 .bf16) (p : Fin 5000) (q : Fin 64) :
    matmul dot_S5000x1_S1x64_S5000x64_1_0_0_1_n_n none l r (constant S5000x64 .f32 0x00000000#32) (ix2 p q)
      = ∑ k : Fin 1, l (ix2 p k) * r (ix2 k q) := by
  simp only [matmul]
  rw [Ideal.matmul_constant_zero_apply, ← Equiv.sum_comp (contrEquiv1 dot_S5000x1_S1x64_S5000x64_1_0_0_1_n_n 1 rfl rfl).symm]
  refine Finset.sum_congr rfl fun k _ => ?_
  have hk := contrEquiv1_symm_val dot_S5000x1_S1x64_S5000x64_1_0_0_1_n_n 1 rfl rfl k
  have el : dot_S5000x1_S1x64_S5000x64_1_0_0_1_n_n.lhsIdx (ix2 p q) ((contrEquiv1 dot_S5000x1_S1x64_S5000x64_1_0_0_1_n_n 1 rfl rfl).symm k) = ix2 p k := funext fun a => Fin.ext (by
    match a with
    | ⟨0, _⟩ => exact dot1_lhs_0 _ _
    | ⟨1, _⟩ => exact (dot1_lhs_1 _ _).trans hk)
  have er : dot_S5000x1_S1x64_S5000x64_1_0_0_1_n_n.rhsIdx (ix2 p q) ((contrEquiv1 dot_S5000x1_S1x64_S5000x64_1_0_0_1_n_n 1 rfl rfl).symm k) = ix2 k q := funext fun a => Fin.ext (by
    match a with
    | ⟨0, _⟩ => exact (dot1_rhs_0 _ _).trans hk
    | ⟨1, _⟩ => exact dot1_rhs_1 _ _)
  rw [el, er]

/-- The body's arithmetic at entry `(p, q)` of a block: the row's scale times the row of the product, plus the bias
    entry, rectified. -/
theorem pay1_apply (x0 : Vec Ideal S5000x1 .f32) (x1 : Vec Ideal S1x64 .f32) (x2 : Vec Ideal S5000x1 .f32) (x3 : Vec Ideal S1x64 .f32)
    (p : Fin 5000) (q : Fin 64) :
    k1_pay1 (F := Ideal) x0 x1 x2 x3 (ix2 p q)
      = max (x2 (ix2 p 0) * (∑ k : Fin 1, x0 (ix2 p k) * x1 (ix2 k q)) + x3 (ix2 0 q)) 0 := by
  unfold k1_pay1
  simp only [shapeCast_self]
  rw [maximumf_apply, addf_apply, mulf_apply, broadcast_apply, broadcastTo_col_apply, broadcastTo_1b_ab_apply, matmul1_apply]
  simp only [truncf_apply]
  show max _ (Ideal.ofBits .f32 0x00000000#32) = _
  rw [Ideal.ofBits_zero_f32]

/-! ## Grid kernel 1: from the blocks to the array -/

/-- The printed index maps, decided over the 20 grid points: the row-blocked windows move with the output's, the
    whole-array windows sit at block 0, and the output's block index is the point's number. -/
theorem index_facts1 : ∀ t : Fin cfg1.N, win1_0.index t (0 : Fin 2) = win1_4.index t (0 : Fin 2)
    ∧ win1_0.index t (1 : Fin 2) = 0
    ∧ win1_1.index t (0 : Fin 2) = 0
    ∧ win1_1.index t (1 : Fin 2) = 0
    ∧ win1_2.index t (0 : Fin 2) = win1_4.index t (0 : Fin 2)
    ∧ win1_2.index t (1 : Fin 2) = 0
    ∧ win1_3.index t (0 : Fin 2) = 0
    ∧ win1_3.index t (1 : Fin 2) = 0
    ∧ win1_4.index t (0 : Fin 2) = t.val
    ∧ win1_4.index t (1 : Fin 2) = 0 :=
  (by decide +kernel : ∀ t : Fin grid1.N, _)

/-- The body's arithmetic on blocks that read the arrays `a`, `W`, `d`, `b` where entry `i` of the output array needs
    them is entry `i` of the whole-array function. -/
theorem pay1_eq_denseRelu (x0 : Vec Ideal S5000x1 .f32) (x1 : Vec Ideal S1x64 .f32) (x2 : Vec Ideal S5000x1 .f32) (x3 : Vec Ideal S1x64 .f32)
    (a : S100000x1.Idx → EReal) (W : S1x64.Idx → EReal) (d : S100000x1.Idx → EReal) (b : S1x64.Idx → EReal)
    (j : S5000x64.Idx) (i : S100000x64.Idx)
    (h0 : ∀ k : Fin 1, x0 (ix2 (j 0) k) = a (ix2 (i 0) k))
    (h1 : ∀ k : Fin 1, x1 (ix2 k (j 1)) = W (ix2 k (i 1)))
    (h2 : x2 (ix2 (j 0) 0) = d (ix2 (i 0) 0))
    (h3 : x3 (ix2 0 (j 1)) = b (ix2 0 (i 1))) :
    k1_pay1 (F := Ideal) x0 x1 x2 x3 j = Gcn.denseRelu (K := 1) (J := 64) a W d b i := by
  refine ((congrArg (k1_pay1 (F := Ideal) x0 x1 x2 x3) (eq_ix2 j)).trans (pay1_apply x0 x1 x2 x3 (j 0) (j 1))).trans ?_
  rw [h2, h3]
  simp only [h0, h1]
  rfl

/-- What point `t` writes back is block `t` of the whole-array function of the arrays as the region finds them. -/
theorem flushed1_eq (c : Dev nD) (t : Fin cfg1.N) :
    (dat1 (F := Ideal) V c).flushed 4 t = ((cfg1.win 4).blk t).view.read (Elt Ideal)
      (Gcn.denseRelu (K := 1) (J := 64) (V c main_v20) (V c main_arg2) (V c main_v15) (V c main_v21)) := by
  show (cfg1.win 4).cut (grid1.coords t) ((dat1 V c).after 4 t) = _
  rw [after1_4]
  unfold out1_4
  rw [View.canon_unit_zero zeros2]
  simp only [View.ld_unit_zero (S := S5000x1) zeros2, View.ld_unit_zero (S := S1x64) zeros2, View.ld_unit_zero (S := S5000x1) zeros2,
    View.ld_unit_zero (S := S1x64) zeros2]
  obtain ⟨e0, e1, e2, e3, e4, e5, e6, e7, e8, e9⟩ := index_facts1 t
  funext j
  show k1_pay1 (F := Ideal) (iblk1 V c 0 t) (iblk1 V c 1 t) (iblk1 V c 2 t) (iblk1 V c 3 t) j
    = Gcn.denseRelu (K := 1) (J := 64) (V c main_v20) (V c main_arg2) (V c main_v15) (V c main_v21) (((cfg1.win 4).blk t).view.emb j)
  refine pay1_eq_denseRelu _ _ _ _ _ _ _ _ j _ (fun k => ?_) (fun k => ?_) ?_ ?_
  · refine congrArg (V c main_v20) (funext fun a => Fin.ext ?_)
    match a with
    | ⟨0, _⟩ => show win1_0.index t (0 : Fin 2) * 5000 + 1 * (j 0).val = win1_4.index t (0 : Fin 2) * 5000 + 1 * (j 0).val; omega
    | ⟨1, _⟩ => show win1_0.index t (1 : Fin 2) * 1 + 1 * k.val = k.val; omega
  · refine congrArg (V c main_arg2) (funext fun a => Fin.ext ?_)
    match a with
    | ⟨0, _⟩ => show win1_1.index t (0 : Fin 2) * 1 + 1 * k.val = k.val; omega
    | ⟨1, _⟩ => show win1_1.index t (1 : Fin 2) * 64 + 1 * (j 1).val = win1_4.index t (1 : Fin 2) * 64 + 1 * (j 1).val; omega
  · refine congrArg (V c main_v15) (funext fun a => Fin.ext ?_)
    match a with
    | ⟨0, _⟩ => show win1_2.index t (0 : Fin 2) * 5000 + 1 * (j 0).val = win1_4.index t (0 : Fin 2) * 5000 + 1 * (j 0).val; omega
    | ⟨1, _⟩ => show win1_2.index t (1 : Fin 2) * 1 + 1 * 0 = 0; omega
  · refine congrArg (V c main_v21) (funext fun a => Fin.ext ?_)
    match a with
    | ⟨0, _⟩ => show win1_3.index t (0 : Fin 2) * 1 + 1 * 0 = 0; omega
    | ⟨1, _⟩ => show win1_3.index t (1 : Fin 2) * 64 + 1 * (j 1).val = win1_4.index t (1 : Fin 2) * 64 + 1 * (j 1).val; omega

/-- An entry of the array is in point `t`'s block iff each coordinate is in the block's range on its axis. -/
theorem mem_blk1 (t : Fin cfg1.N) (i : S100000x64.Idx) :
    i ∈ ((cfg1.win 4).blk t).view.set ↔ ∀ a : Fin 2, win1_4.index t a * S5000x64.size a ≤ (i a).val ∧ (i a).val < win1_4.index t a * S5000x64.size a + S5000x64.size a := by
  show i ∈ ((View.whole main_v22).slice (win1_4.rect t)).set ↔ _
  rw [View.set_slice_whole, Rect.mem_set_unit]
  exact Iff.rfl

/-- Every entry of the array is in the block of the point numbered by its row divided by 5000. -/
theorem cover1 (i : S100000x64.Idx) : ∃ t : Fin cfg1.N, (cfg1.win 4).flush t = true ∧ i ∈ ((cfg1.win 4).blk t).view.set := by
  have hi0 : (i 0).val < 100000 := (i 0).isLt
  have hi1 : (i 1).val < 64 := (i 1).isLt
  have hN : (i 0).val / 5000 < cfg1.N := by rw [show cfg1.N = 20 from N_1]; omega
  obtain ⟨e0, e1, e2, e3, e4, e5, e6, e7, e8, e9⟩ := index_facts1 ⟨(i 0).val / 5000, hN⟩
  have e8' : win1_4.index ⟨(i 0).val / 5000, hN⟩ (0 : Fin 2) = (i 0).val / 5000 := e8
  refine ⟨⟨(i 0).val / 5000, hN⟩, flush1_4 _, ?_⟩
  rw [mem_blk1]
  intro a
  match a with
  | ⟨0, _⟩ => show win1_4.index ⟨(i 0).val / 5000, hN⟩ (0 : Fin 2) * 5000 ≤ (i 0).val ∧ (i 0).val < win1_4.index ⟨(i 0).val / 5000, hN⟩ (0 : Fin 2) * 5000 + 5000; omega
  | ⟨1, _⟩ => show win1_4.index ⟨(i 0).val / 5000, hN⟩ (1 : Fin 2) * 64 ≤ (i 1).val ∧ (i 1).val < win1_4.index ⟨(i 0).val / 5000, hN⟩ (1 : Fin 2) * 64 + 64; omega

/-- Grid kernel 1 (product with the 1×64 weights, row scale, bias, rectifier). -/
theorem region1_out (c : Dev nD) :
    (dat1 (F := Ideal) V c).arrAt 4 cfg1.N
      = Gcn.denseRelu (K := 1) (J := 64) (V c main_v20) (V c main_arg2) (V c main_v15) (V c main_v21) :=
  (dat1 (F := Ideal) V c).arrAt_eq_of_cover 4 _ (fun t _ => flushed1_eq V c t) cover1

/-! ## Grid kernel 3: the body's arithmetic at an entry -/

theorem dot3_lhs_0 (i : S5000x128.Idx) (q : dot_S5000x64_S64x128_S5000x128_1_0_0_1_n_n.contr.Idx) :
    (dot_S5000x64_S64x128_S5000x128_1_0_0_1_n_n.lhsIdx i q 0).val = (i 0).val := by
  unfold DotDims.lhsIdx
  rw [dif_neg (show ¬(0 : Fin S5000x64.rank) ∈ dot_S5000x64_S64x128_S5000x128_1_0_0_1_n_n.lhsBatch by decide), dif_pos (show (0 : Fin S5000x64.rank) ∈ dot_S5000x64_S64x128_S5000x128_1_0_0_1_n_n.lhsNonContracting by decide)]
  rfl
theorem dot3_lhs_1 (i : S5000x128.Idx) (q : dot_S5000x64_S64x128_S5000x128_1_0_0_1_n_n.contr.Idx) :
    (dot_S5000x64_S64x128_S5000x128_1_0_0_1_n_n.lhsIdx i q 1).val = (q ⟨0, by decide⟩).val :=
  dot_S5000x64_S64x128_S5000x128_1_0_0_1_n_n.lhsIdx_val_of_single rfl i q
theorem dot3_rhs_0 (i : S5000x128.Idx) (q : dot_S5000x64_S64x128_S5000x128_1_0_0_1_n_n.contr.Idx) :
    (dot_S5000x64_S64x128_S5000x128_1_0_0_1_n_n.rhsIdx i q 0).val = (q ⟨0, by decide⟩).val :=
  dot_S5000x64_S64x128_S5000x128_1_0_0_1_n_n.rhsIdx_val_of_single rfl i q
theorem dot3_rhs_1 (i : S5000x128.Idx) (q : dot_S5000x64_S64x128_S5000x128_1_0_0_1_n_n.contr.Idx) :
    (dot_S5000x64_S64x128_S5000x128_1_0_0_1_n_n.rhsIdx i q 1).val = (i 1).val := by
  unfold DotDims.rhsIdx
  rw [dif_neg (show ¬(1 : Fin S64x128.rank) ∈ dot_S5000x64_S64x128_S5000x128_1_0_0_1_n_n.rhsBatch by decide), dif_pos (show (1 : Fin S64x128.rank) ∈ dot_S5000x64_S64x128_S5000x128_1_0_0_1_n_n.rhsNonContracting by decide)]
  rfl

/-- The product into the zero accumulator, at entry `(p, q)`: the sum over the contracted coordinate. -/
theorem matmul3_apply (l : FVec Ideal S5000x64 .bf16) (r : FVec Ideal S64x128 .bf16) (p : Fin 5000) (q : Fin 128) :
    matmul dot_S5000x64_S64x128_S5000x128_1_0_0_1_n_n none l r (constant S5000x128 .f32 0x00000000#32) (ix2 p q)
      = ∑ k : Fin 64, l (ix2 p k) * r (ix2 k q) := by
  simp only [matmul]
  rw [Ideal.matmul_constant_zero_apply, ← Equiv.sum_comp (contrEquiv1 dot_S5000x64_S64x128_S5000x128_1_0_0_1_n_n 64 rfl rfl).symm]
  refine Finset.sum_congr rfl fun k _ => ?_
  have hk := contrEquiv1_symm_val dot_S5000x64_S64x128_S5000x128_1_0_0_1_n_n 64 rfl rfl k
  have el : dot_S5000x64_S64x128_S5000x128_1_0_0_1_n_n.lhsIdx (ix2 p q) ((contrEquiv1 dot_S5000x64_S64x128_S5000x128_1_0_0_1_n_n 64 rfl rfl).symm k) = ix2 p k := funext fun a => Fin.ext (by
    match a with
    | ⟨0, _⟩ => exact dot3_lhs_0 _ _
    | ⟨1, _⟩ => exact (dot3_lhs_1 _ _).trans hk)
  have er : dot_S5000x64_S64x128_S5000x128_1_0_0_1_n_n.rhsIdx (ix2 p q) ((contrEquiv1 dot_S5000x64_S64x128_S5000x128_1_0_0_1_n_n 64 rfl rfl).symm k) = ix2 k q := funext fun a => Fin.ext (by
    match a with
    | ⟨0, _⟩ => exact (dot3_rhs_0 _ _).trans hk
    | ⟨1, _⟩ => exact dot3_rhs_1 _ _)
  rw [el, er]

/-- The body's arithmetic at entry `(p, q)` of a block: the row's scale times the row of the product, plus the bias
    entry, rectified. -/
theorem pay3_apply (x0 : Vec Ideal S5000x64 .f32) (x1 : Vec Ideal S64x128 .f32) (x2 : Vec Ideal S5000x1 .f32) (x3 : Vec Ideal S1x128 .f32)
    (p : Fin 5000) (q : Fin 128) :
    k3_pay1 (F := Ideal) x0 x1 x2 x3 (ix2 p q)
      = max (x2 (ix2 p 0) * (∑ k : Fin 64, x0 (ix2 p k) * x1 (ix2 k q)) + x3 (ix2 0 q)) 0 := by
  unfold k3_pay1
  simp only [shapeCast_self]
  rw [maximumf_apply, addf_apply, mulf_apply, broadcast_apply, broadcastTo_col_apply, broadcastTo_1b_ab_apply, matmul3_apply]
  simp only [truncf_apply]
  show max _ (Ideal.ofBits .f32 0x00000000#32) = _
  rw [Ideal.ofBits_zero_f32]

/-! ## Grid kernel 3: from the blocks to the array -/

/-- The printed index maps, decided over the 20 grid points: the row-blocked windows move with the output's, the
    whole-array windows sit at block 0, and the output's block index is the point's number. -/
theorem index_facts3 : ∀ t : Fin cfg3.N, win3_0.index t (0 : Fin 2) = win3_4.index t (0 : Fin 2)
    ∧ win3_0.index t (1 : Fin 2) = 0
    ∧ win3_1.index t (0 : Fin 2) = 0
    ∧ win3_1.index t (1 : Fin 2) = 0
    ∧ win3_2.index t (0 : Fin 2) = win3_4.index t (0 : Fin 2)
    ∧ win3_2.index t (1 : Fin 2) = 0
    ∧ win3_3.index t (0 : Fin 2) = 0
    ∧ win3_3.index t (1 : Fin 2) = 0
    ∧ win3_4.index t (0 : Fin 2) = t.val
    ∧ win3_4.index t (1 : Fin 2) = 0 :=
  (by decide +kernel : ∀ t : Fin grid3.N, _)

/-- The body's arithmetic on blocks that read the arrays `a`, `W`, `d`, `b` where entry `i` of the output array needs
    them is entry `i` of the whole-array function. -/
theorem pay3_eq_denseRelu (x0 : Vec Ideal S5000x64 .f32) (x1 : Vec Ideal S64x128 .f32) (x2 : Vec Ideal S5000x1 .f32) (x3 : Vec Ideal S1x128 .f32)
    (a : S100000x64.Idx → EReal) (W : S64x128.Idx → EReal) (d : S100000x1.Idx → EReal) (b : S1x128.Idx → EReal)
    (j : S5000x128.Idx) (i : S100000x128.Idx)
    (h0 : ∀ k : Fin 64, x0 (ix2 (j 0) k) = a (ix2 (i 0) k))
    (h1 : ∀ k : Fin 64, x1 (ix2 k (j 1)) = W (ix2 k (i 1)))
    (h2 : x2 (ix2 (j 0) 0) = d (ix2 (i 0) 0))
    (h3 : x3 (ix2 0 (j 1)) = b (ix2 0 (i 1))) :
    k3_pay1 (F := Ideal) x0 x1 x2 x3 j = Gcn.denseRelu (K := 64) (J := 128) a W d b i := by
  refine ((congrArg (k3_pay1 (F := Ideal) x0 x1 x2 x3) (eq_ix2 j)).trans (pay3_apply x0 x1 x2 x3 (j 0) (j 1))).trans ?_
  rw [h2, h3]
  simp only [h0, h1]
  rfl

/-- What point `t` writes back is block `t` of the whole-array function of the arrays as the region finds them. -/
theorem flushed3_eq (c : Dev nD) (t : Fin cfg3.N) :
    (dat3 (F := Ideal) V c).flushed 4 t = ((cfg3.win 4).blk t).view.read (Elt Ideal)
      (Gcn.denseRelu (K := 64) (J := 128) (V c main_v27) (V c main_arg4) (V c main_v15) (V c main_v28)) := by
  show (cfg3.win 4).cut (grid3.coords t) ((dat3 V c).after 4 t) = _
  rw [after3_4]
  unfold out3_4
  rw [View.canon_unit_zero zeros2]
  simp only [View.ld_unit_zero (S := S5000x64) zeros2, View.ld_unit_zero (S := S64x128) zeros2, View.ld_unit_zero (S := S5000x1) zeros2,
    View.ld_unit_zero (S := S1x128) zeros2]
  obtain ⟨e0, e1, e2, e3, e4, e5, e6, e7, e8, e9⟩ := index_facts3 t
  funext j
  show k3_pay1 (F := Ideal) (iblk3 V c 0 t) (iblk3 V c 1 t) (iblk3 V c 2 t) (iblk3 V c 3 t) j
    = Gcn.denseRelu (K := 64) (J := 128) (V c main_v27) (V c main_arg4) (V c main_v15) (V c main_v28) (((cfg3.win 4).blk t).view.emb j)
  refine pay3_eq_denseRelu _ _ _ _ _ _ _ _ j _ (fun k => ?_) (fun k => ?_) ?_ ?_
  · refine congrArg (V c main_v27) (funext fun a => Fin.ext ?_)
    match a with
    | ⟨0, _⟩ => show win3_0.index t (0 : Fin 2) * 5000 + 1 * (j 0).val = win3_4.index t (0 : Fin 2) * 5000 + 1 * (j 0).val; omega
    | ⟨1, _⟩ => show win3_0.index t (1 : Fin 2) * 64 + 1 * k.val = k.val; omega
  · refine congrArg (V c main_arg4) (funext fun a => Fin.ext ?_)
    match a with
    | ⟨0, _⟩ => show win3_1.index t (0 : Fin 2) * 64 + 1 * k.val = k.val; omega
    | ⟨1, _⟩ => show win3_1.index t (1 : Fin 2) * 128 + 1 * (j 1).val = win3_4.index t (1 : Fin 2) * 128 + 1 * (j 1).val; omega
  · refine congrArg (V c main_v15) (funext fun a => Fin.ext ?_)
    match a with
    | ⟨0, _⟩ => show win3_2.index t (0 : Fin 2) * 5000 + 1 * (j 0).val = win3_4.index t (0 : Fin 2) * 5000 + 1 * (j 0).val; omega
    | ⟨1, _⟩ => show win3_2.index t (1 : Fin 2) * 1 + 1 * 0 = 0; omega
  · refine congrArg (V c main_v28) (funext fun a => Fin.ext ?_)
    match a with
    | ⟨0, _⟩ => show win3_3.index t (0 : Fin 2) * 1 + 1 * 0 = 0; omega
    | ⟨1, _⟩ => show win3_3.index t (1 : Fin 2) * 128 + 1 * (j 1).val = win3_4.index t (1 : Fin 2) * 128 + 1 * (j 1).val; omega

/-- An entry of the array is in point `t`'s block iff each coordinate is in the block's range on its axis. -/
theorem mem_blk3 (t : Fin cfg3.N) (i : S100000x128.Idx) :
    i ∈ ((cfg3.win 4).blk t).view.set ↔ ∀ a : Fin 2, win3_4.index t a * S5000x128.size a ≤ (i a).val ∧ (i a).val < win3_4.index t a * S5000x128.size a + S5000x128.size a := by
  show i ∈ ((View.whole main_v29).slice (win3_4.rect t)).set ↔ _
  rw [View.set_slice_whole, Rect.mem_set_unit]
  exact Iff.rfl

/-- Every entry of the array is in the block of the point numbered by its row divided by 5000. -/
theorem cover3 (i : S100000x128.Idx) : ∃ t : Fin cfg3.N, (cfg3.win 4).flush t = true ∧ i ∈ ((cfg3.win 4).blk t).view.set := by
  have hi0 : (i 0).val < 100000 := (i 0).isLt
  have hi1 : (i 1).val < 128 := (i 1).isLt
  have hN : (i 0).val / 5000 < cfg3.N := by rw [show cfg3.N = 20 from N_3]; omega
  obtain ⟨e0, e1, e2, e3, e4, e5, e6, e7, e8, e9⟩ := index_facts3 ⟨(i 0).val / 5000, hN⟩
  have e8' : win3_4.index ⟨(i 0).val / 5000, hN⟩ (0 : Fin 2) = (i 0).val / 5000 := e8
  refine ⟨⟨(i 0).val / 5000, hN⟩, flush3_4 _, ?_⟩
  rw [mem_blk3]
  intro a
  match a with
  | ⟨0, _⟩ => show win3_4.index ⟨(i 0).val / 5000, hN⟩ (0 : Fin 2) * 5000 ≤ (i 0).val ∧ (i 0).val < win3_4.index ⟨(i 0).val / 5000, hN⟩ (0 : Fin 2) * 5000 + 5000; omega
  | ⟨1, _⟩ => show win3_4.index ⟨(i 0).val / 5000, hN⟩ (1 : Fin 2) * 128 ≤ (i 1).val ∧ (i 1).val < win3_4.index ⟨(i 0).val / 5000, hN⟩ (1 : Fin 2) * 128 + 128; omega

/-- Grid kernel 3 (product with the 64×128 weights, row scale, bias, rectifier). -/
theorem region3_out (c : Dev nD) :
    (dat3 (F := Ideal) V c).arrAt 4 cfg3.N
      = Gcn.denseRelu (K := 64) (J := 128) (V c main_v27) (V c main_arg4) (V c main_v15) (V c main_v28) :=
  (dat3 (F := Ideal) V c).arrAt_eq_of_cover 4 _ (fun t _ => flushed3_eq V c t) cover3

/-! ## Grid kernel 4: the body's arithmetic at an entry -/

theorem dot4_lhs_0 (i : S5000x1.Idx) (q : dot_S5000x128_S128x1_S5000x1_1_0_0_1_n_n.contr.Idx) :
    (dot_S5000x128_S128x1_S5000x1_1_0_0_1_n_n.lhsIdx i q 0).val = (i 0).val := by
  unfold DotDims.lhsIdx
  rw [dif_neg (show ¬(0 : Fin S5000x128.rank) ∈ dot_S5000x128_S128x1_S5000x1_1_0_0_1_n_n.lhsBatch by decide), dif_pos (show (0 : Fin S5000x128.rank) ∈ dot_S5000x128_S128x1_S5000x1_1_0_0_1_n_n.lhsNonContracting by decide)]
  rfl
theorem dot4_lhs_1 (i : S5000x1.Idx) (q : dot_S5000x128_S128x1_S5000x1_1_0_0_1_n_n.contr.Idx) :
    (dot_S5000x128_S128x1_S5000x1_1_0_0_1_n_n.lhsIdx i q 1).val = (q ⟨0, by decide⟩).val :=
  dot_S5000x128_S128x1_S5000x1_1_0_0_1_n_n.lhsIdx_val_of_single rfl i q
theorem dot4_rhs_0 (i : S5000x1.Idx) (q : dot_S5000x128_S128x1_S5000x1_1_0_0_1_n_n.contr.Idx) :
    (dot_S5000x128_S128x1_S5000x1_1_0_0_1_n_n.rhsIdx i q 0).val = (q ⟨0, by decide⟩).val :=
  dot_S5000x128_S128x1_S5000x1_1_0_0_1_n_n.rhsIdx_val_of_single rfl i q
theorem dot4_rhs_1 (i : S5000x1.Idx) (q : dot_S5000x128_S128x1_S5000x1_1_0_0_1_n_n.contr.Idx) :
    (dot_S5000x128_S128x1_S5000x1_1_0_0_1_n_n.rhsIdx i q 1).val = (i 1).val := by
  unfold DotDims.rhsIdx
  rw [dif_neg (show ¬(1 : Fin S128x1.rank) ∈ dot_S5000x128_S128x1_S5000x1_1_0_0_1_n_n.rhsBatch by decide), dif_pos (show (1 : Fin S128x1.rank) ∈ dot_S5000x128_S128x1_S5000x1_1_0_0_1_n_n.rhsNonContracting by decide)]
  rfl

/-- The product into the zero accumulator, at entry `(p, q)`: the sum over the contracted coordinate. -/
theorem matmul4_apply (l : FVec Ideal S5000x128 .bf16) (r : FVec Ideal S128x1 .bf16) (p : Fin 5000) (q : Fin 1) :
    matmul dot_S5000x128_S128x1_S5000x1_1_0_0_1_n_n none l r (constant S5000x1 .f32 0x00000000#32) (ix2 p q)
      = ∑ k : Fin 128, l (ix2 p k) * r (ix2 k q) := by
  simp only [matmul]
  rw [Ideal.matmul_constant_zero_apply, ← Equiv.sum_comp (contrEquiv1 dot_S5000x128_S128x1_S5000x1_1_0_0_1_n_n 128 rfl rfl).symm]
  refine Finset.sum_congr rfl fun k _ => ?_
  have hk := contrEquiv1_symm_val dot_S5000x128_S128x1_S5000x1_1_0_0_1_n_n 128 rfl rfl k
  have el : dot_S5000x128_S128x1_S5000x1_1_0_0_1_n_n.lhsIdx (ix2 p q) ((contrEquiv1 dot_S5000x128_S128x1_S5000x1_1_0_0_1_n_n 128 rfl rfl).symm k) = ix2 p k := funext fun a => Fin.ext (by
    match a with
    | ⟨0, _⟩ => exact dot4_lhs_0 _ _
    | ⟨1, _⟩ => exact (dot4_lhs_1 _ _).trans hk)
  have er : dot_S5000x128_S128x1_S5000x1_1_0_0_1_n_n.rhsIdx (ix2 p q) ((contrEquiv1 dot_S5000x128_S128x1_S5000x1_1_0_0_1_n_n 128 rfl rfl).symm k) = ix2 k q := funext fun a => Fin.ext (by
    match a with
    | ⟨0, _⟩ => exact (dot4_rhs_0 _ _).trans hk
    | ⟨1, _⟩ => exact dot4_rhs_1 _ _)
  rw [el, er]

/-- The body's arithmetic at entry `(p, q)` of a block: the product of the row, scaled by the row's scale, with the
    weights' column. -/
theorem pay4_apply (x0 : Vec Ideal S5000x128 .f32) (x1 : Vec Ideal S5000x1 .f32) (x2 : Vec Ideal S128x1 .f32)
    (p : Fin 5000) (q : Fin 1) :
    k4_pay1 (F := Ideal) x0 x1 x2 (ix2 p q) = ∑ k : Fin 128, (x0 (ix2 p k) * x1 (ix2 p 0)) * x2 (ix2 k q) := by
  unfold k4_pay1
  simp only [shapeCast_self]
  rw [matmul4_apply]
  refine Finset.sum_congr rfl fun k _ => ?_
  rw [truncf_apply, truncf_apply, mulf_apply, broadcastTo_col_apply]

/-! ## Grid kernel 4: from the blocks to the array -/

/-- The printed index maps, decided over the 20 grid points: the row-blocked windows move with the output's, the
    whole-array window sits at block 0, and the output's block index is the point's number. -/
theorem index_facts4 : ∀ t : Fin cfg4.N, win4_0.index t (0 : Fin 2) = win4_3.index t (0 : Fin 2)
    ∧ win4_0.index t (1 : Fin 2) = 0
    ∧ win4_1.index t (0 : Fin 2) = win4_3.index t (0 : Fin 2)
    ∧ win4_1.index t (1 : Fin 2) = 0
    ∧ win4_2.index t (0 : Fin 2) = 0
    ∧ win4_2.index t (1 : Fin 2) = 0
    ∧ win4_3.index t (0 : Fin 2) = t.val
    ∧ win4_3.index t (1 : Fin 2) = 0 :=
  (by decide +kernel : ∀ t : Fin grid4.N, _)

/-- The body's arithmetic on blocks that read the arrays `a`, `d`, `W` where entry `i` of the output array needs them is
    entry `i` of the whole-array function. -/
theorem pay4_eq_scaleDense (x0 : Vec Ideal S5000x128 .f32) (x1 : Vec Ideal S5000x1 .f32) (x2 : Vec Ideal S128x1 .f32)
    (a : S100000x128.Idx → EReal) (d : S100000x1.Idx → EReal) (W : S128x1.Idx → EReal)
    (j : S5000x1.Idx) (i : S100000x1.Idx)
    (h0 : ∀ k : Fin 128, x0 (ix2 (j 0) k) = a (ix2 (i 0) k))
    (h1 : x1 (ix2 (j 0) 0) = d (ix2 (i 0) 0))
    (h2 : ∀ k : Fin 128, x2 (ix2 k (j 1)) = W (ix2 k (i 1))) :
    k4_pay1 (F := Ideal) x0 x1 x2 j = Gcn.scaleDense (K := 128) (J := 1) a d W i := by
  refine ((congrArg (k4_pay1 (F := Ideal) x0 x1 x2) (eq_ix2 j)).trans (pay4_apply x0 x1 x2 (j 0) (j 1))).trans ?_
  rw [h1]
  simp only [h0, h2]
  rfl

/-- What point `t` writes back is block `t` of the whole-array function of the arrays as the region finds them. -/
theorem flushed4_eq (c : Dev nD) (t : Fin cfg4.N) :
    (dat4 (F := Ideal) V c).flushed 3 t = ((cfg4.win 3).blk t).view.read (Elt Ideal)
      (Gcn.scaleDense (K := 128) (J := 1) (V c main_v29) (V c main_v15) (V c main_arg6)) := by
  show (cfg4.win 3).cut (grid4.coords t) ((dat4 V c).after 3 t) = _
  rw [after4_3]
  unfold out4_3
  rw [View.canon_unit_zero zeros2]
  simp only [View.ld_unit_zero (S := S5000x128) zeros2, View.ld_unit_zero (S := S5000x1) zeros2, View.ld_unit_zero (S := S128x1) zeros2]
  obtain ⟨e0, e1, e2, e3, e4, e5, e6, e7⟩ := index_facts4 t
  funext j
  show k4_pay1 (F := Ideal) (iblk4 V c 0 t) (iblk4 V c 1 t) (iblk4 V c 2 t) j
    = Gcn.scaleDense (K := 128) (J := 1) (V c main_v29) (V c main_v15) (V c main_arg6) (((cfg4.win 3).blk t).view.emb j)
  refine pay4_eq_scaleDense _ _ _ _ _ _ j _ (fun k => ?_) ?_ (fun k => ?_)
  · refine congrArg (V c main_v29) (funext fun a => Fin.ext ?_)
    match a with
    | ⟨0, _⟩ => show win4_0.index t (0 : Fin 2) * 5000 + 1 * (j 0).val = win4_3.index t (0 : Fin 2) * 5000 + 1 * (j 0).val; omega
    | ⟨1, _⟩ => show win4_0.index t (1 : Fin 2) * 128 + 1 * k.val = k.val; omega
  · refine congrArg (V c main_v15) (funext fun a => Fin.ext ?_)
    match a with
    | ⟨0, _⟩ => show win4_1.index t (0 : Fin 2) * 5000 + 1 * (j 0).val = win4_3.index t (0 : Fin 2) * 5000 + 1 * (j 0).val; omega
    | ⟨1, _⟩ => show win4_1.index t (1 : Fin 2) * 1 + 1 * 0 = 0; omega
  · refine congrArg (V c main_arg6) (funext fun a => Fin.ext ?_)
    match a with
    | ⟨0, _⟩ => show win4_2.index t (0 : Fin 2) * 128 + 1 * k.val = k.val; omega
    | ⟨1, _⟩ => show win4_2.index t (1 : Fin 2) * 1 + 1 * (j 1).val = win4_3.index t (1 : Fin 2) * 1 + 1 * (j 1).val; omega

/-- An entry of the array is in point `t`'s block iff each coordinate is in the block's range on its axis. -/
theorem mem_blk4 (t : Fin cfg4.N) (i : S100000x1.Idx) :
    i ∈ ((cfg4.win 3).blk t).view.set ↔ ∀ a : Fin 2, win4_3.index t a * S5000x1.size a ≤ (i a).val ∧ (i a).val < win4_3.index t a * S5000x1.size a + S5000x1.size a := by
  show i ∈ ((View.whole main_v30).slice (win4_3.rect t)).set ↔ _
  rw [View.set_slice_whole, Rect.mem_set_unit]
  exact Iff.rfl

/-- Every entry of the array is in the block of the point numbered by its row divided by 5000. -/
theorem cover4 (i : S100000x1.Idx) : ∃ t : Fin cfg4.N, (cfg4.win 3).flush t = true ∧ i ∈ ((cfg4.win 3).blk t).view.set := by
  have hi0 : (i 0).val < 100000 := (i 0).isLt
  have hi1 : (i 1).val < 1 := (i 1).isLt
  have hN : (i 0).val / 5000 < cfg4.N := by rw [show cfg4.N = 20 from N_4]; omega
  obtain ⟨e0, e1, e2, e3, e4, e5, e6, e7⟩ := index_facts4 ⟨(i 0).val / 5000, hN⟩
  have e6' : win4_3.index ⟨(i 0).val / 5000, hN⟩ (0 : Fin 2) = (i 0).val / 5000 := e6
  refine ⟨⟨(i 0).val / 5000, hN⟩, flush4_3 _, ?_⟩
  rw [mem_blk4]
  intro a
  match a with
  | ⟨0, _⟩ => show win4_3.index ⟨(i 0).val / 5000, hN⟩ (0 : Fin 2) * 5000 ≤ (i 0).val ∧ (i 0).val < win4_3.index ⟨(i 0).val / 5000, hN⟩ (0 : Fin 2) * 5000 + 5000; omega
  | ⟨1, _⟩ => show win4_3.index ⟨(i 0).val / 5000, hN⟩ (1 : Fin 2) * 1 ≤ (i 1).val ∧ (i 1).val < win4_3.index ⟨(i 0).val / 5000, hN⟩ (1 : Fin 2) * 1 + 1; omega

/-- Grid kernel 4 (row scale, then the product with the 128×1 weights). -/
theorem region4_out (c : Dev nD) :
    (dat4 (F := Ideal) V c).arrAt 3 cfg4.N
      = Gcn.scaleDense (K := 128) (J := 1) (V c main_v29) (V c main_v15) (V c main_arg6) :=
  (dat4 (F := Ideal) V c).arrAt_eq_of_cover 3 _ (fun t _ => flushed4_eq V c t) cover4

end Cert.KernelIdeal.Gen

end
-- ==== Proof.KChain.lean ====
/-
  The kernel program's result buffer after the run, as the composition of its stages applied to the argument arrays:
  the buffer contents are followed from the launch through each stretch of host operations and each grid kernel.
-/
import proofs.«420770_j5153960755350_2_alg».proof.Proof.Gen.KernelIdeal.Frame
import proofs.«420770_j5153960755350_2_alg».proof.Proof.KRegP
import proofs.«420770_j5153960755350_2_alg».proof.Proof.KRegM
import proofs.«420770_j5153960755350_2_alg».proof.Proof.Spec
import Idealize.ShloMosaic.Lib.StableHlo.Run

set_option maxRecDepth 16384

noncomputable section

namespace Cert.KernelIdeal.Gen

open Idealize.ShloMosaic Idealize.ShloMosaic.TcCoe Idealize.ShloMosaic.ValueIdx Idealize.SL.Sem Idealize.ShloMosaic.StableHlo

namespace Chain

/-! ## What a stretch of host operations does not write, it keeps -/

section AnyF
variable {F : FTy → Type} [FloatOps F]

theorem skip0 (V : Valuation τ sig (Elt F)) {r : Ref sig .tc}
    (hr : r ∉ [main_v0, main_v1, main_v2, main_v3, main_v4, main_v5, main_v6, main_cst, main_v7, main_cst_0, main_v8,
      main_v9, main_v10, main_cst_1, main_v11, main_v12, main_v13, main_cst_2]) :
    StableHlo.after hostOps0 V (Proc.devRef .tc r) = V (Proc.devRef .tc r) :=
  StableHlo.after_of_writes_sub _ V (by
    simp only [hostOps0, List.Forall, StableHlo.nullary_writes, StableHlo.unary_writes, StableHlo.binary_writes,
      StableHlo.ternary_writes, StableHlo.reshape_writes, Finset.singleton_subset_iff, List.mem_toFinset]
    repeat' apply And.intro
    all_goals exact List.mem_map.mpr ⟨_, by decide, rfl⟩) hr

theorem skip0_1 (V : Valuation τ sig (Elt F)) {r : Ref sig .tc}
    (hr : r ∉ [main_call0_v0, main_call0_v1, main_v14]) :
    StableHlo.after hostOps0_1 V (Proc.devRef .tc r) = V (Proc.devRef .tc r) :=
  StableHlo.after_of_writes_sub _ V (by
    simp only [hostOps0_1, List.Forall, StableHlo.nullary_writes, StableHlo.unary_writes, StableHlo.binary_writes,
      StableHlo.ternary_writes, StableHlo.reshape_writes, Finset.singleton_subset_iff, List.mem_toFinset]
    repeat' apply And.intro
    all_goals exact List.mem_map.mpr ⟨_, by decide, rfl⟩) hr

theorem skip0_2 (V : Valuation τ sig (Elt F)) {r : Ref sig .tc}
    (hr : r ∉ [main_v15]) :
    StableHlo.after hostOps0_2 V (Proc.devRef .tc r) = V (Proc.devRef .tc r) :=
  StableHlo.after_of_writes_sub _ V (by
    simp only [hostOps0_2, List.Forall, StableHlo.nullary_writes, StableHlo.unary_writes, StableHlo.binary_writes,
      StableHlo.ternary_writes, StableHlo.reshape_writes, Finset.singleton_subset_iff, List.mem_toFinset]
    repeat' apply And.intro
    all_goals exact List.mem_map.mpr ⟨_, by decide, rfl⟩) hr

theorem skip1 (V : Valuation τ sig (Elt F)) {r : Ref sig .tc}
    (hr : r ∉ [main_call1_c, main_call1_v0, main_call1_v1, main_call1_c_0, main_call1_v2, main_call1_v3,
      main_call1_v4, main_call1_v5, main_call1_c_1, main_call1_c_2, main_call1_v6, main_call1_v7,
      main_call1_v8, main_call1_v9, main_call1_v10, main_call1_v11, main_call1_c_3, main_call1_v12,
      main_call1_v13, main_call1_v14, main_call1_cst, main_call1_v15, main_v17]) :
    StableHlo.after hostOps1 V (Proc.devRef .tc r) = V (Proc.devRef .tc r) :=
  StableHlo.after_of_writes_sub _ V (by
    simp only [hostOps1, List.Forall, StableHlo.nullary_writes, StableHlo.unary_writes, StableHlo.binary_writes,
      StableHlo.ternary_writes, StableHlo.reshape_writes, Finset.singleton_subset_iff, List.mem_toFinset]
    repeat' apply And.intro
    all_goals exact List.mem_map.mpr ⟨_, by decide, rfl⟩) hr

theorem skip1_1 (V : Valuation τ sig (Elt F)) {r : Ref sig .tc}
    (hr : r ∉ [main_cst_3, main_v18, main_v19, main_v20, main_v21]) :
    StableHlo.after hostOps1_1 V (Proc.devRef .tc r) = V (Proc.devRef .tc r) :=
  StableHlo.after_of_writes_sub _ V (by
    simp only [hostOps1_1, List.Forall, StableHlo.nullary_writes, StableHlo.unary_writes, StableHlo.binary_writes,
      StableHlo.ternary_writes, StableHlo.reshape_writes, Finset.singleton_subset_iff, List.mem_toFinset]
    repeat' apply And.intro
    all_goals exact List.mem_map.mpr ⟨_, by decide, rfl⟩) hr

theorem skip3 (V : Valuation τ sig (Elt F)) {r : Ref sig .tc}
    (hr : r ∉ [main_call2_c, main_call2_v0, main_call2_v1, main_call2_c_0, main_call2_v2, main_call2_v3,
      main_call2_v4, main_call2_v5, main_call2_c_1, main_call2_c_2, main_call2_v6, main_call2_v7,
      main_call2_v8, main_call2_v9, main_call2_v10, main_call2_v11, main_call2_c_3, main_call2_v12,
      main_call2_v13, main_call2_v14, main_call2_cst, main_call2_v15, main_v24]) :
    StableHlo.after hostOps3 V (Proc.devRef .tc r) = V (Proc.devRef .tc r) :=
  StableHlo.after_of_writes_sub _ V (by
    simp only [hostOps3, List.Forall, StableHlo.nullary_writes, StableHlo.unary_writes, StableHlo.binary_writes,
      StableHlo.ternary_writes, StableHlo.reshape_writes, Finset.singleton_subset_iff, List.mem_toFinset]
    repeat' apply And.intro
    all_goals exact List.mem_map.mpr ⟨_, by decide, rfl⟩) hr

theorem skip3_1 (V : Valuation τ sig (Elt F)) {r : Ref sig .tc}
    (hr : r ∉ [main_cst_4, main_v25, main_v26, main_v27, main_v28]) :
    StableHlo.after hostOps3_1 V (Proc.devRef .tc r) = V (Proc.devRef .tc r) :=
  StableHlo.after_of_writes_sub _ V (by
    simp only [hostOps3_1, List.Forall, StableHlo.nullary_writes, StableHlo.unary_writes, StableHlo.binary_writes,
      StableHlo.ternary_writes, StableHlo.reshape_writes, Finset.singleton_subset_iff, List.mem_toFinset]
    repeat' apply And.intro
    all_goals exact List.mem_map.mpr ⟨_, by decide, rfl⟩) hr

theorem skip5 (V : Valuation τ sig (Elt F)) {r : Ref sig .tc}
    (hr : r ∉ [main_call3_c, main_call3_v0, main_call3_v1, main_call3_c_0, main_call3_v2, main_call3_v3,
      main_call3_v4, main_call3_v5, main_call3_c_1, main_call3_c_2, main_call3_v6, main_call3_v7,
      main_call3_v8, main_call3_v9, main_call3_v10, main_call3_v11, main_call3_c_3, main_call3_v12,
      main_call3_v13, main_call3_v14, main_call3_cst, main_call3_v15, main_v31]) :
    StableHlo.after hostOps5 V (Proc.devRef .tc r) = V (Proc.devRef .tc r) :=
  StableHlo.after_of_writes_sub _ V (by
    simp only [hostOps5, List.Forall, StableHlo.nullary_writes, StableHlo.unary_writes, StableHlo.binary_writes,
      StableHlo.ternary_writes, StableHlo.reshape_writes, Finset.singleton_subset_iff, List.mem_toFinset]
    repeat' apply And.intro
    all_goals exact List.mem_map.mpr ⟨_, by decide, rfl⟩) hr

theorem skip5_1 (V : Valuation τ sig (Elt F)) {r : Ref sig .tc}
    (hr : r ∉ [main_cst_5, main_v32, main_v33, main_v34, main_v35]) :
    StableHlo.after hostOps5_1 V (Proc.devRef .tc r) = V (Proc.devRef .tc r) :=
  StableHlo.after_of_writes_sub _ V (by
    simp only [hostOps5_1, List.Forall, StableHlo.nullary_writes, StableHlo.unary_writes, StableHlo.binary_writes,
      StableHlo.ternary_writes, StableHlo.reshape_writes, Finset.singleton_subset_iff, List.mem_toFinset]
    repeat' apply And.intro
    all_goals exact List.mem_map.mpr ⟨_, by decide, rfl⟩) hr

/-! ## The look-up and the segment sum at any float instance

  The same terms as `Gcn.take1`, `Gcn.take64`, `Gcn.scat1`, `Gcn.scat64`, stated over any float instance: the stretches of host
  operations are read at any instance, where their operations stay closed, and specialised afterwards. -/

/-- The guarded look-up of rows of a one-column table at the edges' sources. -/
def take1F (ei : IVec Gcn.S2xE0 32) (p : FVec F Gcn.SNx1 .f32) : FVec F Gcn.SEx1 .f32 :=
  select (broadcastInDim Gcn.SEx1 ![0] Gcn.bcEcol (Gcn.okMask ei)) (Host.gather Gcn.gDims1 p (Gcn.col (Gcn.srcW ei)))
    (broadcastInDim Gcn.SEx1 ![] Gcn.bc0Ecol (constant (F := F) Gcn.S0 .f32 0x7FC00000#32))
/-- The same of a 64-column table. -/
def take64F (ei : IVec Gcn.S2xE0 32) (p : FVec F Gcn.SNx64 .f32) : FVec F Gcn.SEx64 .f32 :=
  select (broadcastInDim Gcn.SEx64 ![0] Gcn.bcE64 (Gcn.okMask ei)) (Host.gather Gcn.gDims64 p (Gcn.col (Gcn.srcW ei)))
    (broadcastInDim Gcn.SEx64 ![] Gcn.bc0E64 (constant (F := F) Gcn.S0 .f32 0x7FC00000#32))
/-- The segment sum of one-column edge rows onto their destination nodes, from zero. -/
def scat1F (ei : IVec Gcn.S2xE0 32) (u : FVec F Gcn.SEx1 .f32) : FVec F Gcn.SNx1 .f32 :=
  Host.scatterAdd Gcn.sDims1 (broadcastInDim Gcn.SNx1 ![] Gcn.bc0N1 (constant (F := F) Gcn.S0 .f32 0x00000000#32))
    (Gcn.col (Gcn.dstRaw ei)) u
/-- The same of 64-column rows. -/
def scat64F (ei : IVec Gcn.S2xE0 32) (u : FVec F Gcn.SEx64 .f32) : FVec F Gcn.SNx64 .f32 :=
  Host.scatterAdd Gcn.sDims64 (broadcastInDim Gcn.SNx64 ![] Gcn.bc0N64 (constant (F := F) Gcn.S0 .f32 0x00000000#32))
    (Gcn.col (Gcn.dstRaw ei)) u

/-! ## The stretches before the first grid kernel: the edge words and the scale column -/

theorem pre_v3 (V : Valuation τ sig (Elt F)) :
    StableHlo.after hostOps0_2 (StableHlo.after hostOps0_1 (StableHlo.after hostOps0 V)) (Proc.devRef .tc main_v3)
      = Gcn.srcRaw (V (Proc.devRef .tc main_arg1)) := by
  after_results
  rfl
theorem pre_v6 (V : Valuation τ sig (Elt F)) :
    StableHlo.after hostOps0_2 (StableHlo.after hostOps0_1 (StableHlo.after hostOps0 V)) (Proc.devRef .tc main_v6)
      = Gcn.dstRaw (V (Proc.devRef .tc main_arg1)) := by
  after_results
  rfl
theorem pre_v15 (V : Valuation τ sig (Elt F)) :
    StableHlo.after hostOps0_2 (StableHlo.after hostOps0_1 (StableHlo.after hostOps0 V)) (Proc.devRef .tc main_v15)
      = shapeCast Gcn.SNx1 (Gcn.dinvV (F := F) (V (Proc.devRef .tc main_arg1))) Gcn.castsNcol := by
  after_results_simp
  rfl

/-! ## The look-ups: a stretch of 23 operations each

  The operations of a called function move contents between a value's type and its buffer's type; moving there and back
  is the identity, which clears every such pair inside the composed term. -/

/-- Contents moved to a buffer's own type and back are the contents. -/
theorem ofBuf_toBuf {Val : EltTy → Type} {T : BufTy} (x : TRef sig T) (v : T.Contents Val) : x.ofBuf (x.toBuf v) = v := by
  obtain ⟨ref, rfl, _, _⟩ := x
  rfl
/-- At a buffer whose type is the value's, the move is the identity. -/
theorem toBuf_v3 {Val : EltTy → Type} (v : (⟨S1700000, .i32⟩ : BufTy).Contents Val) :
    (TRef.of main_v3 : TRef sig ⟨S1700000, .i32⟩).toBuf v = v := rfl
theorem toBuf_v16 {Val : EltTy → Type} (v : (⟨S100000x1, .f32⟩ : BufTy).Contents Val) :
    (TRef.of main_v16 : TRef sig ⟨S100000x1, .f32⟩).toBuf v = v := rfl
theorem toBuf_v17 {Val : EltTy → Type} (v : (⟨S1700000x1, .f32⟩ : BufTy).Contents Val) :
    (TRef.of main_v17 : TRef sig ⟨S1700000x1, .f32⟩).toBuf v = v := rfl
theorem toBuf_v23 {Val : EltTy → Type} (v : (⟨S100000x64, .f32⟩ : BufTy).Contents Val) :
    (TRef.of main_v23 : TRef sig ⟨S100000x64, .f32⟩).toBuf v = v := rfl
theorem toBuf_v24 {Val : EltTy → Type} (v : (⟨S1700000x64, .f32⟩ : BufTy).Contents Val) :
    (TRef.of main_v24 : TRef sig ⟨S1700000x64, .f32⟩).toBuf v = v := rfl
theorem toBuf_v30 {Val : EltTy → Type} (v : (⟨S100000x1, .f32⟩ : BufTy).Contents Val) :
    (TRef.of main_v30 : TRef sig ⟨S100000x1, .f32⟩).toBuf v = v := rfl
theorem toBuf_v31 {Val : EltTy → Type} (v : (⟨S1700000x1, .f32⟩ : BufTy).Contents Val) :
    (TRef.of main_v31 : TRef sig ⟨S1700000x1, .f32⟩).toBuf v = v := rfl

theorem take1_run (V : Valuation τ sig (Elt F)) (ei : IVec Gcn.S2xE0 32) (p : FVec F Gcn.SNx1 .f32)
    (h3 : V (Proc.devRef .tc main_v3) = (TRef.of main_v3 : TRef sig ⟨S1700000, .i32⟩).toBuf (Gcn.srcRaw ei))
    (hp : V (Proc.devRef .tc main_v16) = (TRef.of main_v16 : TRef sig ⟨S100000x1, .f32⟩).toBuf p) :
    StableHlo.after hostOps1 V (Proc.devRef .tc main_v17)
      = (TRef.of main_v17 : TRef sig ⟨S1700000x1, .f32⟩).toBuf (take1F ei p) := by
  after_results_simp
  rw [h3, hp]
  simp only [ofBuf_toBuf]
  rfl
/-- The same with the table read where the stretch finds it and no move between types left. -/
theorem take1_stretch (V : Valuation τ sig (Elt F)) (ei : IVec Gcn.S2xE0 32)
    (h3 : V (Proc.devRef .tc main_v3) = Gcn.srcRaw ei) :
    StableHlo.after hostOps1 V (Proc.devRef .tc main_v17) = take1F ei (V (Proc.devRef .tc main_v16)) :=
  (take1_run V ei (V (Proc.devRef .tc main_v16)) (h3.trans (toBuf_v3 (Val := Elt F) (Gcn.srcRaw ei)).symm)
    (toBuf_v16 (Val := Elt F) (V (Proc.devRef .tc main_v16))).symm).trans
    (toBuf_v17 (Val := Elt F) _)

theorem take64_run (V : Valuation τ sig (Elt F)) (ei : IVec Gcn.S2xE0 32) (p : FVec F Gcn.SNx64 .f32)
    (h3 : V (Proc.devRef .tc main_v3) = (TRef.of main_v3 : TRef sig ⟨S1700000, .i32⟩).toBuf (Gcn.srcRaw ei))
    (hp : V (Proc.devRef .tc main_v23) = (TRef.of main_v23 : TRef sig ⟨S100000x64, .f32⟩).toBuf p) :
    StableHlo.after hostOps3 V (Proc.devRef .tc main_v24)
      = (TRef.of main_v24 : TRef sig ⟨S1700000x64, .f32⟩).toBuf (take64F ei p) := by
  after_results_simp
  rw [h3, hp]
  simp only [ofBuf_toBuf]
  rfl
/-- The same with the table read where the stretch finds it and no move between types left. -/
theorem take64_stretch (V : Valuation τ sig (Elt F)) (ei : IVec Gcn.S2xE0 32)
    (h3 : V (Proc.devRef .tc main_v3) = Gcn.srcRaw ei) :
    StableHlo.after hostOps3 V (Proc.devRef .tc main_v24) = take64F ei (V (Proc.devRef .tc main_v23)) :=
  (take64_run V ei (V (Proc.devRef .tc main_v23)) (h3.trans (toBuf_v3 (Val := Elt F) (Gcn.srcRaw ei)).symm)
    (toBuf_v23 (Val := Elt F) (V (Proc.devRef .tc main_v23))).symm).trans
    (toBuf_v24 (Val := Elt F) _)

theorem take1_run' (V : Valuation τ sig (Elt F)) (ei : IVec Gcn.S2xE0 32) (p : FVec F Gcn.SNx1 .f32)
    (h3 : V (Proc.devRef .tc main_v3) = (TRef.of main_v3 : TRef sig ⟨S1700000, .i32⟩).toBuf (Gcn.srcRaw ei))
    (hp : V (Proc.devRef .tc main_v30) = (TRef.of main_v30 : TRef sig ⟨S100000x1, .f32⟩).toBuf p) :
    StableHlo.after hostOps5 V (Proc.devRef .tc main_v31)
      = (TRef.of main_v31 : TRef sig ⟨S1700000x1, .f32⟩).toBuf (take1F ei p) := by
  after_results_simp
  rw [h3, hp]
  simp only [ofBuf_toBuf]
  rfl
/-- The same with the table read where the stretch finds it and no move between types left. -/
theorem take1_stretch' (V : Valuation τ sig (Elt F)) (ei : IVec Gcn.S2xE0 32)
    (h3 : V (Proc.devRef .tc main_v3) = Gcn.srcRaw ei) :
    StableHlo.after hostOps5 V (Proc.devRef .tc main_v31) = take1F ei (V (Proc.devRef .tc main_v30)) :=
  (take1_run' V ei (V (Proc.devRef .tc main_v30)) (h3.trans (toBuf_v3 (Val := Elt F) (Gcn.srcRaw ei)).symm)
    (toBuf_v30 (Val := Elt F) (V (Proc.devRef .tc main_v30))).symm).trans
    (toBuf_v31 (Val := Elt F) _)

/-! ## The segment sums and the bias rows: a stretch of 5 operations each -/

theorem scat1_stretch (V : Valuation τ sig (Elt F)) (ei : IVec Gcn.S2xE0 32)
    (h6 : V (Proc.devRef .tc main_v6) = Gcn.dstRaw ei) :
    StableHlo.after hostOps1_1 V (Proc.devRef .tc main_v20) = scat1F ei (V (Proc.devRef .tc main_v17)) := by
  after_results
  rw [h6]
  rfl
theorem bias1_stretch (V : Valuation τ sig (Elt F)) :
    StableHlo.after hostOps1_1 V (Proc.devRef .tc main_v21)
      = shapeCast Gcn.S1x64 (V (Proc.devRef .tc main_arg3)) Gcn.casts64row := by
  after_results
  rfl
theorem scat64_stretch (V : Valuation τ sig (Elt F)) (ei : IVec Gcn.S2xE0 32)
    (h6 : V (Proc.devRef .tc main_v6) = Gcn.dstRaw ei) :
    StableHlo.after hostOps3_1 V (Proc.devRef .tc main_v27) = scat64F ei (V (Proc.devRef .tc main_v24)) := by
  after_results
  rw [h6]
  rfl
theorem bias2_stretch (V : Valuation τ sig (Elt F)) :
    StableHlo.after hostOps3_1 V (Proc.devRef .tc main_v28)
      = shapeCast Gcn.S1x128 (V (Proc.devRef .tc main_arg5)) Gcn.casts128row := by
  after_results
  rfl
theorem scat1_stretch' (V : Valuation τ sig (Elt F)) (ei : IVec Gcn.S2xE0 32)
    (h6 : V (Proc.devRef .tc main_v6) = Gcn.dstRaw ei) :
    StableHlo.after hostOps5_1 V (Proc.devRef .tc main_v34) = scat1F ei (V (Proc.devRef .tc main_v31)) := by
  after_results
  rw [h6]
  rfl
theorem bias3_stretch (V : Valuation τ sig (Elt F)) :
    StableHlo.after hostOps5_1 V (Proc.devRef .tc main_v35)
      = shapeCast Gcn.S1x1 (V (Proc.devRef .tc main_arg7)) Gcn.casts1row := by
  after_results
  rfl

end AnyF

/-! ## At the exact instance these are `Gcn.take1`, `Gcn.take64`, `Gcn.scat1`, `Gcn.scat64` -/

theorem take1F_ideal (ei : IVec Gcn.S2xE0 32) (p : FVec Ideal Gcn.SNx1 .f32) : take1F ei p = Gcn.take1 ei p := rfl
theorem take64F_ideal (ei : IVec Gcn.S2xE0 32) (p : FVec Ideal Gcn.SNx64 .f32) : take64F ei p = Gcn.take64 ei p := rfl
theorem scat1F_ideal (ei : IVec Gcn.S2xE0 32) (u : FVec Ideal Gcn.SEx1 .f32) : scat1F ei u = Gcn.scat1 ei u := rfl
theorem scat64F_ideal (ei : IVec Gcn.S2xE0 32) (u : FVec Ideal Gcn.SEx64 .f32) : scat64F ei u = Gcn.scat64 ei u := rfl

/-! ## Congruences of the stages in several arguments -/

theorem congr2 {α β γ : Type} (f : α → β → γ) {a a' : α} {b b' : β} (ha : a = a') (hb : b = b') : f a b = f a' b' := by
  rw [ha, hb]
theorem congr3 {α β γ δ : Type} (f : α → β → γ → δ) {a a' : α} {b b' : β} {d d' : γ} (ha : a = a') (hb : b = b')
    (hd : d = d') : f a b d = f a' b' d' := by
  rw [ha, hb, hd]
theorem congr4 {α β γ δ ε : Type} (f : α → β → γ → δ → ε) {a a' : α} {b b' : β} {d d' : γ} {e e' : δ} (ha : a = a')
    (hb : b = b') (hd : d = d') (he : e = e') : f a b d e = f a' b' d' e' := by
  rw [ha, hb, hd, he]

section AtIdeal
variable (m : (ℓ : Loc nD τ sig) → Buf (Elt Ideal) ℓ) (ρ : Dev nD → PrngReg) (c : Dev nD)

/-- The argument arrays as launched. -/
abbrev aX : FVec Ideal Gcn.SNx1 .f32 := m ((c : Thread nD τ).loc main_arg0)
abbrev aE : IVec Gcn.S2xE0 32 := m ((c : Thread nD τ).loc main_arg1)
abbrev aW1 : FVec Ideal Gcn.S1x64 .f32 := m ((c : Thread nD τ).loc main_arg2)
abbrev aB1 : FVec Ideal Gcn.S64v .f32 := m ((c : Thread nD τ).loc main_arg3)
abbrev aW2 : FVec Ideal Gcn.S64x128 .f32 := m ((c : Thread nD τ).loc main_arg4)
abbrev aB2 : FVec Ideal Gcn.S128v .f32 := m ((c : Thread nD τ).loc main_arg5)
abbrev aW3 : FVec Ideal Gcn.S128x1 .f32 := m ((c : Thread nD τ).loc main_arg6)
abbrev aB3 : FVec Ideal Gcn.S1v .f32 := m ((c : Thread nD τ).loc main_arg7)

/-! ### The edge words and the scale column, carried to where they are read

  Each is written once before the first grid kernel; afterwards the grid kernels only read the scale column through an
  input window and the stretches only read the edge words. -/

theorem W3_v3 : W3 m ρ c (Proc.devRef .tc main_v3) = Gcn.srcRaw (aE m c) := pre_v3 (W0 m ρ c)
theorem W3_v6 : W3 m ρ c (Proc.devRef .tc main_v6) = Gcn.dstRaw (aE m c) := pre_v6 (W0 m ρ c)
theorem W3_v15 : W3 m ρ c (Proc.devRef .tc main_v15) = Gcn.dinvCol (aE m c) := pre_v15 (W0 m ρ c)

theorem W4_v3 : W4 m ρ c (Proc.devRef .tc main_v3) = Gcn.srcRaw (aE m c) :=
  (W4_of_ne m ρ c main_v3 (by decide)).trans (W3_v3 m ρ c)
theorem W8_v3 : W8 m ρ c (Proc.devRef .tc main_v3) = Gcn.srcRaw (aE m c) :=
  (W8_of_ne m ρ c main_v3 (by decide)).trans <| (W7_of_ne m ρ c main_v3 (by decide)).trans <|
    (skip1_1 _ (by decide)).trans <| (skip1 _ (by decide)).trans <| W4_v3 m ρ c
theorem W12_v3 : W12 m ρ c (Proc.devRef .tc main_v3) = Gcn.srcRaw (aE m c) :=
  (W12_of_ne m ρ c main_v3 (by decide)).trans <| (W11_of_ne m ρ c main_v3 (by decide)).trans <|
    (skip3_1 _ (by decide)).trans <| (skip3 _ (by decide)).trans <| W8_v3 m ρ c

theorem W5_v6 : W5 m ρ c (Proc.devRef .tc main_v6) = Gcn.dstRaw (aE m c) :=
  (skip1 _ (by decide)).trans <| (W4_of_ne m ρ c main_v6 (by decide)).trans <| W3_v6 m ρ c
theorem W9_v6 : W9 m ρ c (Proc.devRef .tc main_v6) = Gcn.dstRaw (aE m c) :=
  (skip3 _ (by decide)).trans <| (W8_of_ne m ρ c main_v6 (by decide)).trans <|
    (W7_of_ne m ρ c main_v6 (by decide)).trans <| (skip1_1 _ (by decide)).trans <| W5_v6 m ρ c
theorem W13_v6 : W13 m ρ c (Proc.devRef .tc main_v6) = Gcn.dstRaw (aE m c) :=
  (skip5 _ (by decide)).trans <| (W12_of_ne m ρ c main_v6 (by decide)).trans <|
    (W11_of_ne m ρ c main_v6 (by decide)).trans <| (skip3_1 _ (by decide)).trans <| W9_v6 m ρ c

theorem W6_v15 : W6 m ρ c (Proc.devRef .tc main_v15) = Gcn.dinvCol (aE m c) :=
  (skip1_1 _ (by decide)).trans <| (skip1 _ (by decide)).trans <|
    ((W4_arr m ρ c 1).trans (((dat0 (V3 m ρ) c).arrAt_in 1 rfl _).trans (A_eq0 (V3 m ρ) c 1))).trans <| W3_v15 m ρ c
theorem W7_v15 : W7 m ρ c (Proc.devRef .tc main_v15) = Gcn.dinvCol (aE m c) :=
  ((W7_arr m ρ c 2).trans (((dat1 (V6 m ρ) c).arrAt_in 2 rfl _).trans (A_eq1 (V6 m ρ) c 2))).trans (W6_v15 m ρ c)
theorem W10_v15 : W10 m ρ c (Proc.devRef .tc main_v15) = Gcn.dinvCol (aE m c) :=
  (skip3_1 _ (by decide)).trans <| (skip3 _ (by decide)).trans <|
    ((W8_arr m ρ c 1).trans (((dat2 (V7 m ρ) c).arrAt_in 1 rfl _).trans (A_eq2 (V7 m ρ) c 1))).trans <| W7_v15 m ρ c
theorem W11_v15 : W11 m ρ c (Proc.devRef .tc main_v15) = Gcn.dinvCol (aE m c) :=
  ((W11_arr m ρ c 2).trans (((dat3 (V10 m ρ) c).arrAt_in 2 rfl _).trans (A_eq3 (V10 m ρ) c 2))).trans (W10_v15 m ρ c)
theorem W14_v15 : W14 m ρ c (Proc.devRef .tc main_v15) = Gcn.dinvCol (aE m c) :=
  (skip5_1 _ (by decide)).trans <| (skip5 _ (by decide)).trans <|
    ((W12_arr m ρ c 1).trans (((dat4 (V11 m ρ) c).arrAt_in 1 rfl _).trans (A_eq4 (V11 m ρ) c 1))).trans <|
    W11_v15 m ρ c

/-! ### The arguments, as launched, where they are read -/

theorem W3_arg0 : W3 m ρ c (Proc.devRef .tc main_arg0) = aX m c :=
  (skip0_2 _ (by decide)).trans <| (skip0_1 _ (by decide)).trans <| (skip0 _ (by decide)).trans <| rfl
theorem W6_arg2 : W6 m ρ c (Proc.devRef .tc main_arg2) = aW1 m c :=
  (skip1_1 _ (by decide)).trans <| (skip1 _ (by decide)).trans <| (W4_of_ne m ρ c main_arg2 (by decide)).trans <|
    (skip0_2 _ (by decide)).trans <| (skip0_1 _ (by decide)).trans <| (skip0 _ (by decide)).trans <| rfl
theorem W5_arg3 : W5 m ρ c (Proc.devRef .tc main_arg3) = aB1 m c :=
  (skip1 _ (by decide)).trans <| (W4_of_ne m ρ c main_arg3 (by decide)).trans <| (skip0_2 _ (by decide)).trans <|
    (skip0_1 _ (by decide)).trans <| (skip0 _ (by decide)).trans <| rfl
theorem W10_arg4 : W10 m ρ c (Proc.devRef .tc main_arg4) = aW2 m c :=
  (skip3_1 _ (by decide)).trans <| (skip3 _ (by decide)).trans <| (W8_of_ne m ρ c main_arg4 (by decide)).trans <|
    (W7_of_ne m ρ c main_arg4 (by decide)).trans <| (skip1_1 _ (by decide)).trans <| (skip1 _ (by decide)).trans <|
    (W4_of_ne m ρ c main_arg4 (by decide)).trans <| (skip0_2 _ (by decide)).trans <|
    (skip0_1 _ (by decide)).trans <| (skip0 _ (by decide)).trans <| rfl
theorem W9_arg5 : W9 m ρ c (Proc.devRef .tc main_arg5) = aB2 m c :=
  (skip3 _ (by decide)).trans <| (W8_of_ne m ρ c main_arg5 (by decide)).trans <|
    (W7_of_ne m ρ c main_arg5 (by decide)).trans <| (skip1_1 _ (by decide)).trans <| (skip1 _ (by decide)).trans <|
    (W4_of_ne m ρ c main_arg5 (by decide)).trans <| (skip0_2 _ (by decide)).trans <|
    (skip0_1 _ (by decide)).trans <| (skip0 _ (by decide)).trans <| rfl
theorem W11_arg6 : W11 m ρ c (Proc.devRef .tc main_arg6) = aW3 m c :=
  (W11_of_ne m ρ c main_arg6 (by decide)).trans <| (skip3_1 _ (by decide)).trans <| (skip3 _ (by decide)).trans <|
    (W8_of_ne m ρ c main_arg6 (by decide)).trans <| (W7_of_ne m ρ c main_arg6 (by decide)).trans <|
    (skip1_1 _ (by decide)).trans <| (skip1 _ (by decide)).trans <| (W4_of_ne m ρ c main_arg6 (by decide)).trans <|
    (skip0_2 _ (by decide)).trans <| (skip0_1 _ (by decide)).trans <| (skip0 _ (by decide)).trans <| rfl
theorem W13_arg7 : W13 m ρ c (Proc.devRef .tc main_arg7) = aB3 m c :=
  (skip5 _ (by decide)).trans <| (W12_of_ne m ρ c main_arg7 (by decide)).trans <|
    (W11_of_ne m ρ c main_arg7 (by decide)).trans <| (skip3_1 _ (by decide)).trans <|
    (skip3 _ (by decide)).trans <| (W8_of_ne m ρ c main_arg7 (by decide)).trans <|
    (W7_of_ne m ρ c main_arg7 (by decide)).trans <| (skip1_1 _ (by decide)).trans <| (skip1 _ (by decide)).trans <|
    (W4_of_ne m ρ c main_arg7 (by decide)).trans <| (skip0_2 _ (by decide)).trans <|
    (skip0_1 _ (by decide)).trans <| (skip0 _ (by decide)).trans <| rfl

/-! ### Layer 1 -/

/-- After grid kernel 0: the input rows scaled by the scale column. -/
theorem W4_v16 : W4 m ρ c (Proc.devRef .tc main_v16) = Gcn.scaleRows (C := 1) (aX m c) (Gcn.dinvCol (aE m c)) :=
  (W4_arr m ρ c 2).trans ((region0_out (V3 m ρ) c).trans
    (congr2 (Gcn.scaleRows (C := 1)) (W3_arg0 m ρ c) (W3_v15 m ρ c)))
/-- After the look-up at the edges' sources. -/
theorem W5_v17 : W5 m ρ c (Proc.devRef .tc main_v17)
    = Gcn.take1 (aE m c) (Gcn.scaleRows (C := 1) (aX m c) (Gcn.dinvCol (aE m c))) :=
  (take1_stretch (W4 m ρ c) (aE m c) (W4_v3 m ρ c)).trans
    ((take1F_ideal _ _).trans (congrArg (Gcn.take1 (aE m c)) (W4_v16 m ρ c)))
/-- After the segment sum onto the destinations. -/
theorem W6_v20 : W6 m ρ c (Proc.devRef .tc main_v20)
    = Gcn.scat1 (aE m c) (Gcn.take1 (aE m c) (Gcn.scaleRows (C := 1) (aX m c) (Gcn.dinvCol (aE m c)))) :=
  (scat1_stretch (W5 m ρ c) (aE m c) (W5_v6 m ρ c)).trans
    ((scat1F_ideal _ _).trans (congrArg (Gcn.scat1 (aE m c)) (W5_v17 m ρ c)))
/-- The first bias as a row. -/
theorem W6_v21 : W6 m ρ c (Proc.devRef .tc main_v21) = shapeCast Gcn.S1x64 (aB1 m c) Gcn.casts64row :=
  (bias1_stretch (W5 m ρ c)).trans (congrArg (fun b => shapeCast Gcn.S1x64 b Gcn.casts64row) (W5_arg3 m ρ c))
/-- After grid kernel 1: the first layer's output. -/
theorem W7_v22 : W7 m ρ c (Proc.devRef .tc main_v22) = Gcn.kH1 (aX m c) (aE m c) (aW1 m c) (aB1 m c) :=
  (W7_arr m ρ c 4).trans ((region1_out (V6 m ρ) c).trans
    (congr4 (Gcn.denseRelu (K := 1) (J := 64)) (W6_v20 m ρ c) (W6_arg2 m ρ c) (W6_v15 m ρ c) (W6_v21 m ρ c)))

/-! ### Layer 2 -/

/-- After grid kernel 2: the first layer's output scaled by the scale column. -/
theorem W8_v23 : W8 m ρ c (Proc.devRef .tc main_v23)
    = Gcn.scaleRows (C := 64) (Gcn.kH1 (aX m c) (aE m c) (aW1 m c) (aB1 m c)) (Gcn.dinvCol (aE m c)) :=
  (W8_arr m ρ c 2).trans ((region2_out (V7 m ρ) c).trans
    (congr2 (Gcn.scaleRows (C := 64)) (W7_v22 m ρ c) (W7_v15 m ρ c)))
theorem W9_v24 : W9 m ρ c (Proc.devRef .tc main_v24)
    = Gcn.take64 (aE m c) (Gcn.scaleRows (C := 64) (Gcn.kH1 (aX m c) (aE m c) (aW1 m c) (aB1 m c)) (Gcn.dinvCol (aE m c))) :=
  (take64_stretch (W8 m ρ c) (aE m c) (W8_v3 m ρ c)).trans
    ((take64F_ideal _ _).trans (congrArg (Gcn.take64 (aE m c)) (W8_v23 m ρ c)))
theorem W10_v27 : W10 m ρ c (Proc.devRef .tc main_v27)
    = Gcn.scat64 (aE m c) (Gcn.take64 (aE m c)
        (Gcn.scaleRows (C := 64) (Gcn.kH1 (aX m c) (aE m c) (aW1 m c) (aB1 m c)) (Gcn.dinvCol (aE m c)))) :=
  (scat64_stretch (W9 m ρ c) (aE m c) (W9_v6 m ρ c)).trans
    ((scat64F_ideal _ _).trans (congrArg (Gcn.scat64 (aE m c)) (W9_v24 m ρ c)))
theorem W10_v28 : W10 m ρ c (Proc.devRef .tc main_v28) = shapeCast Gcn.S1x128 (aB2 m c) Gcn.casts128row :=
  (bias2_stretch (W9 m ρ c)).trans (congrArg (fun b => shapeCast Gcn.S1x128 b Gcn.casts128row) (W9_arg5 m ρ c))
/-- After grid kernel 3: the second layer's output. -/
theorem W11_v29 : W11 m ρ c (Proc.devRef .tc main_v29)
    = Gcn.kH2 (aX m c) (aE m c) (aW1 m c) (aB1 m c) (aW2 m c) (aB2 m c) :=
  (W11_arr m ρ c 4).trans ((region3_out (V10 m ρ) c).trans
    (congr4 (Gcn.denseRelu (K := 64) (J := 128)) (W10_v27 m ρ c) (W10_arg4 m ρ c) (W10_v15 m ρ c) (W10_v28 m ρ c)))

/-! ### Layer 3 -/

/-- After grid kernel 4: the second layer's output scaled, then multiplied by the last weights. -/
theorem W12_v30 : W12 m ρ c (Proc.devRef .tc main_v30)
    = Gcn.scaleDense (K := 128) (J := 1) (Gcn.kH2 (aX m c) (aE m c) (aW1 m c) (aB1 m c) (aW2 m c) (aB2 m c))
        (Gcn.dinvCol (aE m c)) (aW3 m c) :=
  (W12_arr m ρ c 3).trans ((region4_out (V11 m ρ) c).trans
    (congr3 (Gcn.scaleDense (K := 128) (J := 1)) (W11_v29 m ρ c) (W11_v15 m ρ c) (W11_arg6 m ρ c)))
theorem W13_v31 : W13 m ρ c (Proc.devRef .tc main_v31)
    = Gcn.take1 (aE m c) (Gcn.scaleDense (K := 128) (J := 1)
        (Gcn.kH2 (aX m c) (aE m c) (aW1 m c) (aB1 m c) (aW2 m c) (aB2 m c)) (Gcn.dinvCol (aE m c)) (aW3 m c)) :=
  (take1_stretch' (W12 m ρ c) (aE m c) (W12_v3 m ρ c)).trans
    ((take1F_ideal _ _).trans (congrArg (Gcn.take1 (aE m c)) (W12_v30 m ρ c)))
theorem W14_v34 : W14 m ρ c (Proc.devRef .tc main_v34)
    = Gcn.scat1 (aE m c) (Gcn.take1 (aE m c) (Gcn.scaleDense (K := 128) (J := 1)
        (Gcn.kH2 (aX m c) (aE m c) (aW1 m c) (aB1 m c) (aW2 m c) (aB2 m c)) (Gcn.dinvCol (aE m c)) (aW3 m c))) :=
  (scat1_stretch' (W13 m ρ c) (aE m c) (W13_v6 m ρ c)).trans
    ((scat1F_ideal _ _).trans (congrArg (Gcn.scat1 (aE m c)) (W13_v31 m ρ c)))
theorem W14_v35 : W14 m ρ c (Proc.devRef .tc main_v35) = shapeCast Gcn.S1x1 (aB3 m c) Gcn.casts1row :=
  (bias3_stretch (W13 m ρ c)).trans (congrArg (fun b => shapeCast Gcn.S1x1 b Gcn.casts1row) (W13_arg7 m ρ c))
/-- After grid kernel 5: the result. -/
theorem W15_v36 : W15 m ρ c (Proc.devRef .tc main_v36)
    = Gcn.kTerm (aX m c) (aE m c) (aW1 m c) (aB1 m c) (aW2 m c) (aB2 m c) (aW3 m c) (aB3 m c) :=
  (W15_arr m ρ c 3).trans ((region5_out (V14 m ρ) c).trans
    (congr3 (Gcn.scaleBias (J := 1)) (W14_v34 m ρ c) (W14_v15 m ρ c) (W14_v35 m ρ c)))

end AtIdeal

end Chain

variable (m : (ℓ : Loc nD τ sig) → Buf (Elt Ideal) ℓ) (ρ : Dev nD → PrngReg)

/-- The result buffer at the end of the run is `Gcn.kTerm` of the argument arrays as launched. -/
theorem W15_result (c : Dev nD) :
    W15 (F := Ideal) m ρ c (Proc.devRef .tc main_v36)
      = Gcn.kTerm (m ((c : Thread nD τ).loc main_arg0)) (m ((c : Thread nD τ).loc main_arg1))
          (m ((c : Thread nD τ).loc main_arg2)) (m ((c : Thread nD τ).loc main_arg3))
          (m ((c : Thread nD τ).loc main_arg4)) (m ((c : Thread nD τ).loc main_arg5))
          (m ((c : Thread nD τ).loc main_arg6)) (m ((c : Thread nD τ).loc main_arg7)) :=
  Chain.W15_v36 m ρ c

end Cert.KernelIdeal.Gen

end
-- ==== Proof.LibRowGather.lean ====
/-
  A stablehlo.gather that picks whole rows of a rank-2 table, read at an index.

  What `table[idx]` of a table `[N, C]` at a vector of `n` row numbers lowers to: a gather whose start indices are the
  `[n, 1]` column of row numbers, whose operand axis 0 is collapsed and start-indexed, whose operand axis 1 is the one
  offset axis (result axis 1), with slice sizes `[1, C]`, no batching axes and the index vector on axis 1 of the
  start indices.  Result element `(p, q)` is the table at row "start index `p` read SIGNED and CLAMPED into
  `[0, N − 1]`" and column `q`: on axis 0 the slice has one row, so the clamp is to `N − 1`; on axis 1 the slice is the
  whole axis, the start is 0 and the offset coordinate is `q`.
-/
import Idealize.ShloMosaic.PureOps.ShapeOps
import Idealize.ShloMosaic.Lib.ValueIdx

namespace RowGather

open Idealize.ShloMosaic Idealize.ShloMosaic.ValueIdx

/-- THE ROW GATHER READ AT `(p, q)`.  `d` is any record of dimension numbers over an operand `[N, C]`, start indices
    `[n, 1]` and a result `[n, C]` whose lists are the row-take's (`hoff` … `hivd`: each holds by `rfl` for a printed
    record): offset axes `[1]`, collapsed slice axes `[0]`, no operand batching axes, start index map `[0]`, index vector
    on axis 1.  The result at `(p, q)` is the operand at row `min (toInt (idx (p, 0))).toNat (N − 1)` — the start index read
    as a signed integer, a negative one reading row 0 and one past the end reading the last row — and column `q`. -/
theorem rowGather_apply {α : Type} {N n C w : Nat} (d : GatherDims ⟨2, ![N, C]⟩ ⟨2, ![n, 1]⟩ ⟨2, ![n, C]⟩)
    (hoff : d.offsetDims = [1]) (hcoll : d.collapsedSliceDims = [0]) (hob : d.operandBatchingDims = [])
    (hsim : d.startIndexMap = [0]) (hivd : d.indexVectorDim = 1)
    (x : (⟨2, ![N, C]⟩ : Shape).Idx → α) (idx : IVec ⟨2, ![n, 1]⟩ w) (p : Fin n) (q : Fin C) (hN : 0 < N) :
    Host.gather d x idx (ix2 p q) = x (ix2 ⟨min (idx (ix2 p (0 : Fin 1))).toInt.toNat (N - 1), by omega⟩ q) := by
  unfold Host.gather
  congr 1
  funext a
  have key0 : ∀ (l : List (Fin 2)) (k : Nat) (h : k < l.length), l = [0] →
      ((ix2 p q : (⟨2, ![n, C]⟩ : Shape).Idx) l[k]).val = p.val := fun l k h hl => by
    subst hl
    obtain rfl : k = 0 := by simpa using h
    rfl
  have key1 : ∀ (l : List (Fin 2)) (k : Nat) (h : k < l.length), l = [1] →
      ((ix2 p q : (⟨2, ![n, C]⟩ : Shape).Idx) l[k]).val = q.val := fun l k h hl => by
    subst hl
    obtain rfl : k = 0 := by simpa using h
    rfl
  have hb : ∀ a : Fin 2, a ∉ d.operandBatchingDims := fun a => by rw [hob]; exact List.not_mem_nil
  match a with
  | ⟨0, _⟩ =>
    apply Fin.ext
    have hk : (0 : Fin 2) ∉ d.sKept := by rw [GatherDims.mem_sKept, hcoll]; simp
    have hm : (0 : Fin 2) ∈ d.startIndexMap := by rw [hsim]; exact List.mem_singleton.mpr rfl
    have hsl : d.sliceSizes 0 = 1 := d.slice_collapsed 0 (by rw [hcoll]; exact List.mem_singleton.mpr rfl)
    show d.start (ix2 p q) idx 0 + d.batchCoord (ix2 p q) 0 + d.offCoord (ix2 p q) 0 = _
    rw [GatherDims.batchCoord_eq_zero _ _ _ (hb 0), GatherDims.offCoord_eq_zero _ _ _ hk]
    simp only [Nat.add_zero]
    unfold GatherDims.start
    rw [dif_pos hm]
    show min (idx _).toInt.toNat (N - d.sliceSizes 0) = min (idx (ix2 p (0 : Fin 1))).toInt.toNat (N - 1)
    rw [hsl]
    congr 3
    congr 1
    funext b
    match b with
    | ⟨0, _⟩ =>
      -- the batch coordinate: result axis 0 is the one batch axis, reading the start indices' axis 0
      unfold GatherDims.siIdx
      rw [dif_neg (by rw [hivd]; simp)]
      unfold GatherDims.siCoord
      apply Fin.ext
      simp only [Fin.val_cast]
      have hbatch : d.batchDims = [0] := by
        show Shape.kept _ d.offsetDims = [0]
        rw [hoff]; rfl
      exact key0 d.batchDims _ _ hbatch
    | ⟨1, _⟩ =>
      -- the index vector's axis: component 0 of the start index, the place of operand axis 0 in the start index map
      unfold GatherDims.siIdx
      rw [dif_pos (by rw [hivd])]
      apply Fin.ext
      show List.idxOf (0 : Fin 2) d.startIndexMap = 0
      rw [hsim]; simp
  | ⟨1, _⟩ =>
    -- axis 1 is not start-indexed (start 0) and is the one kept axis: the offset coordinate is the result's on axis 1
    apply Fin.ext
    have hk : (1 : Fin 2) ∈ d.sKept := by
      rw [GatherDims.mem_sKept, hcoll]; exact ⟨by simp, hb 1⟩
    have hm : (1 : Fin 2) ∉ d.startIndexMap := by rw [hsim]; simp
    show d.start (ix2 p q) idx 1 + d.batchCoord (ix2 p q) 1 + d.offCoord (ix2 p q) 1 = q.val
    rw [GatherDims.batchCoord_eq_zero _ _ _ (hb 1)]
    unfold GatherDims.start GatherDims.offCoord
    rw [dif_neg hm, dif_pos hk]
    simp only [Nat.add_zero, Nat.zero_add]
    exact key1 d.offsetDims _ _ hoff

end RowGather
-- ==== Proof.LibRowScatter.lean ====
/-
  A stablehlo.scatter with an `add` body that adds whole rows of updates onto rows of a rank-2 operand, read at an index
  over the extended reals.

  What `segment_sum(upd, ids, num_segments = N)` of an update array `[n, C]` lowers to: a scatter whose scatter indices
  are the `[n, 1]` column of row numbers, whose operand axis 0 is the inserted, scattered axis, whose update axis 1 is the
  one window axis (operand axis 1), with the index vector on axis 1 of the scatter indices.  Update element `(e, q)` lands
  on operand element `(i, q)` exactly when the start word of row `e`, read SIGNED and NOT clamped, is `i`; an update whose
  start word is not a row of the operand is dropped.  At the exact instance the result element `(i, q)` is therefore the
  operand's plus the sum of `upd (e, q)` over the rows `e` whose start word is `i`.
-/
import Idealize.ShloMosaic.PureOps.Ideal
import Idealize.ShloMosaic.Lib.ValueIdx

namespace RowScatter

open Idealize.ShloMosaic Idealize.ShloMosaic.ValueIdx

/-- THE START ON THE SCATTERED AXIS: operand axis 0 is the one axis the map names, so the start of update element `(e, q)`
    on it is the start word of row `e`, read signed. -/
theorem start_zero {N n C w : Nat} (d : ScatterDims ⟨2, ![N, C]⟩ ⟨2, ![n, 1]⟩ ⟨2, ![n, C]⟩)
    (huw : d.updateWindowDims = [1]) (hsd : d.scatterDimsToOperandDims = [0])
    (hiv : d.indexVectorDim = 1) (idx : IVec ⟨2, ![n, 1]⟩ w) (e : Fin n) (q : Fin C) :
    d.start (ix2 e q) idx (0 : Fin 2) = (idx (ix2 e (0 : Fin 1))).toInt := by
  have key0 : ∀ (l : List (Fin 2)) (k : Nat) (h : k < l.length), l = [0] →
      ((ix2 e q : (⟨2, ![n, C]⟩ : Shape).Idx) l[k]).val = e.val := fun l k h hl => by
    subst hl
    obtain rfl : k = 0 := by simpa using h
    rfl
  have hm : (0 : Fin 2) ∈ d.scatterDimsToOperandDims := by rw [hsd]; exact List.mem_singleton.mpr rfl
  unfold ScatterDims.start
  rw [dif_pos hm]
  congr 2
  funext b
  match b with
  | ⟨0, _⟩ =>
    -- the scatter coordinate: update axis 0 is the one update scatter axis, reading the scatter indices' axis 0
    unfold ScatterDims.siIdx
    rw [dif_neg (by rw [hiv]; simp)]
    unfold ScatterDims.siCoord
    apply Fin.ext
    simp only [Fin.val_cast]
    have hus : d.uScatter = [0] := by
      show Shape.kept _ d.updateWindowDims = [0]
      rw [huw]; rfl
    exact key0 d.uScatter _ _ hus
  | ⟨1, _⟩ =>
    -- the index vector's axis: component 0 of the start index, the place of operand axis 0 in the map
    unfold ScatterDims.siIdx
    rw [dif_pos (by rw [hiv])]
    apply Fin.ext
    show List.idxOf (0 : Fin 2) d.scatterDimsToOperandDims = 0
    rw [hsd]; simp

/-- THE START ON THE WINDOW AXIS: operand axis 1 is not named by the map, so every start on it is 0. -/
theorem start_one {N n C w : Nat} (d : ScatterDims ⟨2, ![N, C]⟩ ⟨2, ![n, 1]⟩ ⟨2, ![n, C]⟩)
    (hsd : d.scatterDimsToOperandDims = [0]) (idx : IVec ⟨2, ![n, 1]⟩ w) (j : (⟨2, ![n, C]⟩ : Shape).Idx) :
    d.start j idx (1 : Fin 2) = 0 := by
  have hm : (1 : Fin 2) ∉ d.scatterDimsToOperandDims := by rw [hsd]; simp
  unfold ScatterDims.start
  rw [dif_neg hm]

/-- THE WINDOW COORDINATE ON THE SCATTERED AXIS: operand axis 0 is inserted, so the window coordinate on it is 0. -/
theorem window_zero {N n C : Nat} (d : ScatterDims ⟨2, ![N, C]⟩ ⟨2, ![n, 1]⟩ ⟨2, ![n, C]⟩)
    (hiw : d.insertedWindowDims = [0]) (j : (⟨2, ![n, C]⟩ : Shape).Idx) :
    d.window j (0 : Fin 2) = 0 := by
  have hk : (0 : Fin 2) ∉ d.sKept := by
    show (0 : Fin 2) ∉ Shape.kept _ d.insertedWindowDims
    rw [hiw]; simp [Shape.kept]
  unfold ScatterDims.window
  rw [dif_neg hk]

/-- THE WINDOW COORDINATE ON THE WINDOW AXIS: operand axis 1 is the one kept axis and update axis 1 the one window axis, so
    the window coordinate of update element `(e, q)` on it is `q`. -/
theorem window_one {N n C : Nat} (d : ScatterDims ⟨2, ![N, C]⟩ ⟨2, ![n, 1]⟩ ⟨2, ![n, C]⟩)
    (huw : d.updateWindowDims = [1]) (hiw : d.insertedWindowDims = [0]) (e : Fin n) (q : Fin C) :
    d.window (ix2 e q) (1 : Fin 2) = q.val := by
  have key1 : ∀ (l : List (Fin 2)) (k : Nat) (h : k < l.length), l = [1] →
      ((ix2 e q : (⟨2, ![n, C]⟩ : Shape).Idx) l[k]).val = q.val := fun l k h hl => by
    subst hl
    obtain rfl : k = 0 := by simpa using h
    rfl
  have hk : (1 : Fin 2) ∈ d.sKept := by
    show (1 : Fin 2) ∈ Shape.kept _ d.insertedWindowDims
    rw [hiw]; simp [Shape.kept]
  unfold ScatterDims.window
  rw [dif_pos hk]
  exact key1 d.updateWindowDims _ _ huw

/-- WHERE AN UPDATE ELEMENT LANDS.  `d` is any record of scatter dimension numbers over an operand `[N, C]`, scatter indices
    `[n, 1]` and updates `[n, C]` whose lists are the row scatter's (each hypothesis holds by `rfl` for a printed record). -/
theorem resultIdx?_row {N n C w : Nat} (d : ScatterDims ⟨2, ![N, C]⟩ ⟨2, ![n, 1]⟩ ⟨2, ![n, C]⟩)
    (huw : d.updateWindowDims = [1]) (hiw : d.insertedWindowDims = [0]) (hsd : d.scatterDimsToOperandDims = [0])
    (hiv : d.indexVectorDim = 1) (idx : IVec ⟨2, ![n, 1]⟩ w) (e : Fin n) (q : Fin C) (i : Fin N) (q' : Fin C) :
    d.resultIdx? (ix2 e q) idx = some (ix2 i q') ↔ (idx (ix2 e (0 : Fin 1))).toInt = (i.val : Int) ∧ q = q' := by
  have hs0 := start_zero d huw hsd hiv idx e q
  have hs1 := start_one d hsd idx (ix2 e q)
  have hw0 := window_zero d hiw (ix2 e q)
  have hw1 := window_one d huw hiw e q
  unfold ScatterDims.resultIdx?
  constructor
  · intro h
    split at h
    · rename_i hin
      have h' := Option.some.inj h
      have e0 : (d.start (ix2 e q) idx (0 : Fin 2) + d.window (ix2 e q) (0 : Fin 2)).toNat = i.val :=
        congrArg Fin.val (congrFun h' (0 : Fin 2))
      have e1 : (d.start (ix2 e q) idx (1 : Fin 2) + d.window (ix2 e q) (1 : Fin 2)).toNat = q'.val :=
        congrArg Fin.val (congrFun h' (1 : Fin 2))
      have p0 := (hin (0 : Fin 2)).1
      rw [hs0, hw0] at e0 p0
      rw [hs1, hw1] at e1
      refine ⟨by omega, Fin.ext (by omega)⟩
    · exact absurd h (by simp)
  · rintro ⟨hi, rfl⟩
    have hin : ∀ a : Fin 2, 0 ≤ d.start (ix2 e q) idx a + d.window (ix2 e q) a ∧
        d.start (ix2 e q) idx a + d.window (ix2 e q) a < ((⟨2, ![N, C]⟩ : Shape).size a : Int) := fun a => by
      match a with
      | ⟨0, _⟩ =>
        show 0 ≤ d.start (ix2 e q) idx (0 : Fin 2) + d.window (ix2 e q) (0 : Fin 2) ∧
          d.start (ix2 e q) idx (0 : Fin 2) + d.window (ix2 e q) (0 : Fin 2) < (N : Int)
        rw [hs0, hw0, hi]
        have := i.isLt
        omega
      | ⟨1, _⟩ =>
        show 0 ≤ d.start (ix2 e q) idx (1 : Fin 2) + d.window (ix2 e q) (1 : Fin 2) ∧
          d.start (ix2 e q) idx (1 : Fin 2) + d.window (ix2 e q) (1 : Fin 2) < (C : Int)
        rw [hs1, hw1]
        have := q.isLt
        omega
    rw [dif_pos hin]
    congr 1
    funext a
    match a with
    | ⟨0, _⟩ =>
      apply Fin.ext
      show (d.start (ix2 e q) idx (0 : Fin 2) + d.window (ix2 e q) (0 : Fin 2)).toNat = i.val
      rw [hs0, hw0, hi]
      omega
    | ⟨1, _⟩ =>
      apply Fin.ext
      show (d.start (ix2 e q) idx (1 : Fin 2) + d.window (ix2 e q) (1 : Fin 2)).toNat = q.val
      rw [hs1, hw1]
      omega

/-- THE ROW SCATTER-ADD READ AT `(i, q)` over the extended reals: the operand's element plus the sum, over the update rows
    `e` whose start word read signed is `i`, of the update's element `(e, q)`. -/
theorem rowScatterAdd_apply {N n C w : Nat} (d : ScatterDims ⟨2, ![N, C]⟩ ⟨2, ![n, 1]⟩ ⟨2, ![n, C]⟩)
    (huw : d.updateWindowDims = [1]) (hiw : d.insertedWindowDims = [0]) (hsd : d.scatterDimsToOperandDims = [0])
    (hiv : d.indexVectorDim = 1) (x : (⟨2, ![N, C]⟩ : Shape).Idx → EReal) (idx : IVec ⟨2, ![n, 1]⟩ w)
    (upd : (⟨2, ![n, C]⟩ : Shape).Idx → EReal) (i : Fin N) (q : Fin C) :
    Ideal.hostScatterAdd d x idx upd (ix2 i q)
      = x (ix2 i q) + ∑ e ∈ Finset.univ.filter (fun e : Fin n => (idx (ix2 e (0 : Fin 1))).toInt = (i.val : Int)), upd (ix2 e q) := by
  unfold Ideal.hostScatterAdd
  congr 1
  symm
  refine Finset.sum_bij (fun e _ => (ix2 e q : (⟨2, ![n, C]⟩ : Shape).Idx)) ?_ ?_ ?_ ?_
  · intro e he
    rw [Finset.mem_filter] at he ⊢
    exact ⟨Finset.mem_univ _, (resultIdx?_row d huw hiw hsd hiv idx e q i q).2 ⟨he.2, rfl⟩⟩
  · intro e₁ _ e₂ _ h
    exact congrFun h (0 : Fin 2)
  · intro j hj
    obtain ⟨e, q'', rfl⟩ : ∃ e q'', j = ix2 e q'' := ⟨j 0, j 1, eq_ix2 j⟩
    rw [Finset.mem_filter] at hj
    obtain ⟨he, rfl⟩ := (resultIdx?_row d huw hiw hsd hiv idx e q'' i q).1 hj.2
    exact ⟨e, Finset.mem_filter.2 ⟨Finset.mem_univ _, he⟩, rfl⟩
  · intro e _
    rfl

end RowScatter
-- ==== Proof.KRead.lean ====
/-
  The kernel program's result, read index by index, is the three-layer graph convolution in the kernel's arrangement.

  Each stage between the grid kernels is read at one index: the column of start words and the broadcast range test,
  the guarded row look-up (which returns the row of the edge's source node, since every wrapped source word is a node),
  the segment sum (the sum over the edges landing on the node), the scale column and the bias rows.  With these reads
  each layer of the kernel is literally one of the two arrangements of the layer's sums, and the three compose.
-/
import proofs.«420770_j5153960755350_2_alg».proof.Proof.Spec
import proofs.«420770_j5153960755350_2_alg».proof.Proof.LibRowGather
import proofs.«420770_j5153960755350_2_alg».proof.Proof.LibRowScatter
import Idealize.ShloMosaic.PureOps.Reduce
import Idealize.ShloMosaic.PureOps.Ideal.Laws
import Idealize.ShloMosaic.Lib.Pipeline.Value

noncomputable section

namespace Gcn

open Idealize.ShloMosaic Idealize.ShloMosaic.ValueIdx

namespace KStages

/-! ## The graph's components, spelt out -/

/-- The source node of edge `e`: its wrapped source word clamped into the nodes. -/
theorem graphOf_s_val (ei : IVec S2xE0 32) (e : Fin EE) :
    ((graphOf ei).s e).val = min (srcW ei (ix1 e)).toInt.toNat (NN - 1) := by
  unfold graphOf
  rfl

/-- The edges landing on node `i`: those whose destination word, read signed, is `i`. -/
theorem graphOf_D (ei : IVec S2xE0 32) (i : Fin NN) :
    (graphOf ei).D i = Finset.univ.filter fun e : Fin EE => (dstRaw ei (ix1 e)).toInt = (i.val : Int) := by
  unfold graphOf
  rfl

/-- The scale of node `p`. -/
theorem graphOf_dinv (ei : IVec S2xE0 32) (p : Fin NN) : (graphOf ei).dinv p = dinvV (F := Ideal) ei (ix1 p) := by
  unfold graphOf
  dsimp only

/-! ## Layout operations read at an index -/

/-- A vector over the edges broadcast to one column reads, at `(e, q)`, the vector at `e`. -/
theorem bcE1_apply {α : Type} (v : SE.Idx → α) (e : Fin EE) (q : Fin 1) :
    broadcastInDim SEx1 ![0] bcEcol v (ix2 e q) = v (ix1 e) :=
  broadcastInDim_apply ![0] bcEcol v (ix2 e q) (ix1 e) (fun a => match a with | ⟨0, _⟩ => rfl)

/-- A vector over the edges broadcast along 64 columns reads, at `(e, q)`, the vector at `e`. -/
theorem bcE64_apply {α : Type} (v : SE.Idx → α) (e : Fin EE) (q : Fin 64) :
    broadcastInDim SEx64 ![0] bcE64 v (ix2 e q) = v (ix1 e) :=
  broadcastInDim_apply ![0] bcE64 v (ix2 e q) (ix1 e) (fun a => match a with | ⟨0, _⟩ => rfl)

/-- The column of start words reads, at `(e, 0)`, the word of edge `e`. -/
theorem col_apply (v : IVec SE 32) (e : Fin EE) : col v (ix2 e 0) = v (ix1 e) := bcE1_apply v e 0

/-- The scale column reads, at `(p, 0)`, the scale of node `p`. -/
theorem dinvCol_apply (ei : IVec S2xE0 32) (p : Fin NN) :
    dinvCol ei (ix2 p (0 : Fin 1)) = (graphOf ei).dinv p := by
  have hk : (SN.rowMajor (ix1 p)).val = (SNx1.rowMajor (ix2 p (0 : Fin 1))).val := by
    rw [Shape.rowMajor_val_one, Shape.rowMajor_val_two]
    show p.val = p.val * 1 + 0
    omega
  rw [graphOf_dinv]
  unfold dinvCol
  exact shapeCast_apply (s := SN) (t := SNx1) (dinvV (F := Ideal) ei) castsNcol (ix2 p (0 : Fin 1)) (ix1 p) hk

/-- A bias vector cast to one row reads, at `(0, q)`, the vector at `q`. -/
theorem rowCast_apply {J : Nat} (b : (⟨1, ![J]⟩ : Shape).Idx → EReal)
    (h : (⟨1, ![J]⟩ : Shape).ShapeCasts ⟨2, ![1, J]⟩) (q : Fin J) :
    shapeCast ⟨2, ![1, J]⟩ b h (ix2 0 q) = vec b q :=
  shapeCast_apply b h (ix2 0 q) (ix1 q) (by
    rw [Shape.rowMajor_val_one, Shape.rowMajor_val_two]
    show q.val = 0 * J + q.val
    omega)
/-! ## The range test holds at every edge -/

/-- A fold by "and" from 1 over a set on which every word is 1 is 1. -/
theorem fold_andi_one {ι : Type} (S : Finset ι) (x : ι → BitVec 1) (h : ∀ i ∈ S, x i = 1#1) :
    S.fold IntOp.andi 1#1 x = 1#1 := by
  induction S using Finset.cons_induction with
  | empty => rfl
  | cons a S ha ih =>
    rw [Finset.fold_cons, ih (fun i hi => h i (Finset.mem_cons_of_mem hi)), h a (Finset.mem_cons_self a S)]
    rfl

/-- The range test at edge `e` folds the one word at `(e, 0)`, which is the "and" of the two comparisons of the wrapped
    source word against 0 and `NN − 1`: both hold. -/
theorem okMask_apply (ei : IVec S2xE0 32) (hs : SrcOk ei) (e : Fin EE) : okMask ei (ix1 e) = 1#1 := by
  unfold okMask
  rw [Host.reduce_eq_fold]
  refine fold_andi_one _ _ (fun i hi => ?_)
  have hd : redEcol.drop i = ix1 e := (Finset.mem_filter.1 hi).2
  obtain ⟨a, b, rfl⟩ : ∃ a b, i = ix2 a b := ⟨i 0, i 1, eq_ix2 i⟩
  obtain rfl : b = 0 := Subsingleton.elim _ _
  obtain rfl : a = e := by
    apply Fin.ext
    have h0 := Shape.ReducesTo.drop_apply_val_of_eq redEcol (ix2 a (0 : Fin 1)) 0 0
    rw [hd] at h0
    exact h0.symm
  show IntOp.andi (IntOp.cmpi .sge (col (srcW ei) (ix2 a 0)) 0#32) (IntOp.cmpi .sle (col (srcW ei) (ix2 a 0)) 99999#32) = 1#1
  rw [col_apply, (hs a).1, (hs a).2]
  rfl
/-! ## The guarded row look-up and the segment sum, read at an index -/

/-- The look-up of a one-column table at the edges' sources reads, at `(e, q)`, the table at the source node of `e`. -/
theorem take1_apply (ei : IVec S2xE0 32) (hs : SrcOk ei) (p : FVec Ideal SNx1 .f32) (e : Fin EE) (q : Fin 1) :
    take1 ei p (ix2 e q) = p (ix2 ((graphOf ei).s e) q) := by
  unfold take1
  rw [select_apply, bcE1_apply, okMask_apply ei hs e, select_one]
  refine (RowGather.rowGather_apply gDims1 rfl rfl rfl rfl rfl p (col (srcW ei)) e q (by decide)).trans ?_
  refine congrArg (fun r => p (ix2 r q)) (Fin.ext ?_)
  show min (col (srcW ei) (ix2 e 0)).toInt.toNat (NN - 1) = ((graphOf ei).s e).val
  rw [graphOf_s_val, col_apply]

/-- The same of a 64-column table. -/
theorem take64_apply (ei : IVec S2xE0 32) (hs : SrcOk ei) (p : FVec Ideal SNx64 .f32) (e : Fin EE) (q : Fin 64) :
    take64 ei p (ix2 e q) = p (ix2 ((graphOf ei).s e) q) := by
  unfold take64
  rw [select_apply, bcE64_apply, okMask_apply ei hs e, select_one]
  refine (RowGather.rowGather_apply gDims64 rfl rfl rfl rfl rfl p (col (srcW ei)) e q (by decide)).trans ?_
  refine congrArg (fun r => p (ix2 r q)) (Fin.ext ?_)
  show min (col (srcW ei) (ix2 e 0)).toInt.toNat (NN - 1) = ((graphOf ei).s e).val
  rw [graphOf_s_val, col_apply]

/-- At the exact instance the host's scatter-add is the exact sum. -/
theorem scatterAdd_eq {s si u : Shape} {w : Nat} (d : ScatterDims s si u) (x : FVec Ideal s .f32) (idx : IVec si w)
    (upd : FVec Ideal u .f32) : Host.scatterAdd d x idx upd = Ideal.hostScatterAdd d x idx upd := rfl

/-- The zero word broadcast from a scalar reads 0 everywhere. -/
theorem zeros_apply {T : Shape} (h : S0.BroadcastsInDim T ![]) (j : T.Idx) :
    broadcastInDim T ![] h (constant (F := Ideal) S0 .f32 0x00000000#32) j = 0 := by
  rw [broadcastInDim_apply ![] h _ j ix0 (fun a => a.elim0), constant_apply, Ideal.ofBits_zero_f32]

/-- The edges whose destination word, in the column of start words, is node `i` are the edges landing on `i`. -/
theorem landing_eq (ei : IVec S2xE0 32) (i : Fin NN) :
    (Finset.univ.filter fun e : Fin EE => (col (dstRaw ei) (ix2 e (0 : Fin 1))).toInt = (i.val : Int)) = (graphOf ei).D i :=
  (Finset.filter_congr (fun e _ => by rw [col_apply])).trans (graphOf_D ei i).symm

/-- The segment sum of one-column edge rows reads, at `(i, q)`, the sum over the edges landing on node `i`. -/
theorem scat1_apply (ei : IVec S2xE0 32) (u : FVec Ideal SEx1 .f32) (i : Fin NN) (q : Fin 1) :
    scat1 ei u (ix2 i q) = ∑ e ∈ (graphOf ei).D i, u (ix2 e q) := by
  unfold scat1
  rw [scatterAdd_eq, RowScatter.rowScatterAdd_apply sDims1 rfl rfl rfl rfl, landing_eq, zeros_apply, zero_add]

/-- The same of 64-column rows. -/
theorem scat64_apply (ei : IVec S2xE0 32) (u : FVec Ideal SEx64 .f32) (i : Fin NN) (q : Fin 64) :
    scat64 ei u (ix2 i q) = ∑ e ∈ (graphOf ei).D i, u (ix2 e q) := by
  unfold scat64
  rw [scatterAdd_eq, RowScatter.rowScatterAdd_apply sDims64 rfl rfl rfl rfl, landing_eq, zeros_apply, zero_add]

/-! ## The dense stages and the two arrangements, read at an index -/

/-- Scaling the rows reads, at `(p, q)`, the entry times the row's scale. -/
theorem scaleRows_apply {C : Nat} (a : (⟨2, ![NN, C]⟩ : Shape).Idx → EReal) (d : (⟨2, ![NN, 1]⟩ : Shape).Idx → EReal)
    (p : Fin NN) (q : Fin C) : scaleRows a d (ix2 p q) = a (ix2 p q) * d (ix2 p 0) := rfl

/-- The fused product, scale, bias and rectifier read at `(p, q)`. -/
theorem denseRelu_apply {K J : Nat} (a : (⟨2, ![NN, K]⟩ : Shape).Idx → EReal) (W : (⟨2, ![K, J]⟩ : Shape).Idx → EReal)
    (d : (⟨2, ![NN, 1]⟩ : Shape).Idx → EReal) (b : (⟨2, ![1, J]⟩ : Shape).Idx → EReal) (p : Fin NN) (q : Fin J) :
    denseRelu a W d b (ix2 p q)
      = max (d (ix2 p 0) * (∑ k : Fin K, a (ix2 p k) * W (ix2 k q)) + b (ix2 0 q)) 0 := rfl

/-- The scaled product read at `(p, q)`. -/
theorem scaleDense_apply {K J : Nat} (a : (⟨2, ![NN, K]⟩ : Shape).Idx → EReal) (d : (⟨2, ![NN, 1]⟩ : Shape).Idx → EReal)
    (W : (⟨2, ![K, J]⟩ : Shape).Idx → EReal) (p : Fin NN) (q : Fin J) :
    scaleDense a d W (ix2 p q) = ∑ k : Fin K, (a (ix2 p k) * d (ix2 p 0)) * W (ix2 k q) := rfl

/-- The scale and bias read at `(p, q)`. -/
theorem scaleBias_apply {J : Nat} (a : (⟨2, ![NN, J]⟩ : Shape).Idx → EReal) (d : (⟨2, ![NN, 1]⟩ : Shape).Idx → EReal)
    (b : (⟨2, ![1, J]⟩ : Shape).Idx → EReal) (p : Fin NN) (q : Fin J) :
    scaleBias a d b (ix2 p q) = d (ix2 p 0) * a (ix2 p q) + b (ix2 0 q) := rfl

/-- The rectified aggregate-first layer, as an array, read at `(p, q)`. -/
theorem relu_aggFirst_apply (G : Graph) {K J : Nat} (h : Fin NN → Fin K → EReal) (W : Fin K → Fin J → EReal)
    (b : Fin J → EReal) (p : Fin NN) (q : Fin J) :
    arr (Graph.relu (G.aggFirst h W b)) (ix2 p q)
      = max (G.dinv p * (∑ k : Fin K, (∑ e ∈ G.D p, h (G.s e) k * G.dinv (G.s e)) * W k q) + b q) 0 := rfl

/-- The matrix-first layer, as an array, read at `(p, q)`. -/
theorem matFirst_apply (G : Graph) {K J : Nat} (h : Fin NN → Fin K → EReal) (W : Fin K → Fin J → EReal)
    (b : Fin J → EReal) (p : Fin NN) (q : Fin J) :
    arr (G.matFirst h W b) (ix2 p q)
      = G.dinv p * (∑ e ∈ G.D p, ∑ k : Fin K, (h (G.s e) k * G.dinv (G.s e)) * W k q) + b q := rfl

/-- A function of two coordinates read back from its array is the function. -/
theorem mat_arr {A B : Nat} (f : Fin A → Fin B → EReal) : mat (arr f) = f := rfl

/-! ## The layers

  With the reads above, the pre-scaled, looked-up and segment-summed features are the aggregate of the layer's
  definition, and each fused grid kernel finishes one arrangement of the layer. -/

/-- The pre-scaled one-column features, looked up at the sources and summed over the landing edges. -/
theorem pre1 (ei : IVec S2xE0 32) (hs : SrcOk ei) (h : FVec Ideal SNx1 .f32) (p : Fin NN) (k : Fin 1) :
    scat1 ei (take1 ei (scaleRows (C := 1) h (dinvCol ei))) (ix2 p k)
      = ∑ e ∈ (graphOf ei).D p, mat h ((graphOf ei).s e) k * (graphOf ei).dinv ((graphOf ei).s e) := by
  rw [scat1_apply]
  refine Finset.sum_congr rfl (fun e _ => ?_)
  rw [take1_apply ei hs, scaleRows_apply, dinvCol_apply]
  rfl

/-- The same of 64-column features. -/
theorem pre64 (ei : IVec S2xE0 32) (hs : SrcOk ei) (h : FVec Ideal SNx64 .f32) (p : Fin NN) (k : Fin 64) :
    scat64 ei (take64 ei (scaleRows (C := 64) h (dinvCol ei))) (ix2 p k)
      = ∑ e ∈ (graphOf ei).D p, mat h ((graphOf ei).s e) k * (graphOf ei).dinv ((graphOf ei).s e) := by
  rw [scat64_apply]
  refine Finset.sum_congr rfl (fun e _ => ?_)
  rw [take64_apply ei hs, scaleRows_apply, dinvCol_apply]
  rfl

/-- The fused product, scale, bias and rectifier applied to the aggregate is the rectified aggregate-first layer. -/
theorem denseRelu_eq {K J : Nat} (ei : IVec S2xE0 32) (A : (⟨2, ![NN, K]⟩ : Shape).Idx → EReal) (h : Fin NN → Fin K → EReal)
    (W : (⟨2, ![K, J]⟩ : Shape).Idx → EReal) (b : (⟨1, ![J]⟩ : Shape).Idx → EReal)
    (hb : (⟨1, ![J]⟩ : Shape).ShapeCasts ⟨2, ![1, J]⟩)
    (hA : ∀ p k, A (ix2 p k) = ∑ e ∈ (graphOf ei).D p, h ((graphOf ei).s e) k * (graphOf ei).dinv ((graphOf ei).s e)) :
    denseRelu A W (dinvCol ei) (shapeCast ⟨2, ![1, J]⟩ b hb)
      = arr (Graph.relu ((graphOf ei).aggFirst h (mat W) (vec b))) := by
  funext i
  obtain ⟨p, q, rfl⟩ : ∃ p q, i = ix2 p q := ⟨i 0, i 1, eq_ix2 i⟩
  rw [denseRelu_apply, relu_aggFirst_apply, dinvCol_apply, rowCast_apply]
  simp only [hA]
  rfl

/-- After layer 1 the kernel holds the rectified aggregate-first layer of the input. -/
theorem kH1_eq (x : FVec Ideal SNx1 .f32) (ei : IVec S2xE0 32) (W1 : FVec Ideal S1x64 .f32) (b1 : FVec Ideal S64v .f32)
    (hs : SrcOk ei) :
    kH1 x ei W1 b1 = arr (Graph.relu ((graphOf ei).aggFirst (mat x) (mat W1) (vec b1))) := by
  unfold kH1
  exact denseRelu_eq (K := 1) (J := 64) ei _ (mat x) W1 b1 casts64row (pre1 ei hs x)

/-- After layer 2 it holds the rectified aggregate-first layer of layer 1's result. -/
theorem kH2_eq (x : FVec Ideal SNx1 .f32) (ei : IVec S2xE0 32) (W1 : FVec Ideal S1x64 .f32) (b1 : FVec Ideal S64v .f32)
    (W2 : FVec Ideal S64x128 .f32) (b2 : FVec Ideal S128v .f32) (hs : SrcOk ei) :
    kH2 x ei W1 b1 W2 b2
      = arr (Graph.relu ((graphOf ei).aggFirst
          (Graph.relu ((graphOf ei).aggFirst (mat x) (mat W1) (vec b1))) (mat W2) (vec b2))) := by
  unfold kH2
  refine (denseRelu_eq (K := 64) (J := 128) ei _ (mat (kH1 x ei W1 b1)) W2 b2 casts128row
    (pre64 ei hs (kH1 x ei W1 b1))).trans ?_
  rw [kH1_eq x ei W1 b1 hs, mat_arr]

/-- The last layer: product first, then look-up, segment sum, scale and bias, is the matrix-first layer. -/
theorem last_eq (ei : IVec S2xE0 32) (hs : SrcOk ei) (H : FVec Ideal SNx128 .f32) (W3 : FVec Ideal S128x1 .f32)
    (b3 : FVec Ideal S1v .f32) :
    scaleBias (J := 1) (scat1 ei (take1 ei (scaleDense (K := 128) (J := 1) H (dinvCol ei) W3))) (dinvCol ei)
        (shapeCast S1x1 b3 casts1row)
      = arr ((graphOf ei).matFirst (mat H) (mat W3) (vec b3)) := by
  funext i
  obtain ⟨p, q, rfl⟩ : ∃ p q, i = ix2 p q := ⟨i 0, i 1, eq_ix2 i⟩
  have hsum : ∀ e, take1 ei (scaleDense (K := 128) (J := 1) H (dinvCol ei) W3) (ix2 e q)
      = ∑ k : Fin 128, (mat H ((graphOf ei).s e) k * (graphOf ei).dinv ((graphOf ei).s e)) * mat W3 k q := by
    intro e
    rw [take1_apply ei hs, scaleDense_apply]
    simp only [dinvCol_apply]
    rfl
  rw [scaleBias_apply, matFirst_apply, dinvCol_apply, rowCast_apply, scat1_apply]
  simp only [hsum]

end KStages

open KStages in
/-- When every wrapped source word is a node (so that the guarded look-ups return rows, never the fill word), the
    composition of the kernel's stages is, entry by entry, `Graph.kOut` of the edge list's graph. -/
theorem kTerm_eq (x : FVec Ideal SNx1 .f32) (ei : IVec S2xE0 32) (W1 : FVec Ideal S1x64 .f32) (b1 : FVec Ideal S64v .f32)
    (W2 : FVec Ideal S64x128 .f32) (b2 : FVec Ideal S128v .f32) (W3 : FVec Ideal S128x1 .f32) (b3 : FVec Ideal S1v .f32)
    (hs : SrcOk ei) :
    kTerm x ei W1 b1 W2 b2 W3 b3
      = arr ((graphOf ei).kOut (mat x) (mat W1) (vec b1) (mat W2) (vec b2) (mat W3) (vec b3)) := by
  unfold kTerm Graph.kOut
  refine (last_eq ei hs (kH2 x ei W1 b1 W2 b2) W3 b3).trans ?_
  rw [kH2_eq x ei W1 b1 W2 b2 hs, mat_arr]

end Gcn

end
-- ==== Proof.RRead.lean ====
/-
  The reference program's result, read index by index, is the three-layer graph convolution in the reference's arrangement.

  The reference derives the graph from the edge list exactly as the specification spells it (the extended source and
  destination words, the wrap of a negative word, the column of start words, the in-degree and the per-node scale), so
  those stages are the specification's terms.  The edge weight is the product of two clamped look-ups of the scale.  Each
  layer is a product with the weights, a look-up of its rows at the edges' sources, a weighing by the edge weight, a
  segment sum onto the landing nodes from zero, and the bias; read at an entry, that is `Graph.conv`.
-/
import proofs.«420770_j5153960755350_2_alg».proof.Proof.RefRead
import proofs.«420770_j5153960755350_2_alg».proof.Proof.Spec
import proofs.«420770_j5153960755350_2_alg».proof.Proof.LibRowGather
import proofs.«420770_j5153960755350_2_alg».proof.Proof.LibRowScatter
import Idealize.ShloMosaic.Lib.StableHlo.Predicate

set_option maxRecDepth 16384

noncomputable section

namespace Cert.ReferenceIdeal.RefValue

open Cert.ReferenceIdeal Idealize.ShloMosaic Idealize.ShloMosaic.ValueIdx

/-! ## The graph stages are the specification's terms

  Each of these holds by unfolding: the two programs spell the same operations over the same shapes. -/

section Glue
variable {F : FTy → Type} [FloatOps F]

theorem v3_eq (x1 : IVec S2x1600000 32) : Read.val_main_v3 (F := F) x1 = Gcn.srcRaw x1 := rfl
theorem v6_eq (x1 : IVec S2x1600000 32) : Read.val_main_v6 (F := F) x1 = Gcn.dstRaw x1 := rfl
theorem v19_eq (x1 : IVec S2x1600000 32) : Read.val_main_v19 (F := F) x1 = Gcn.srcW x1 := rfl
theorem v26_eq (x1 : IVec S2x1600000 32) : Read.val_main_v26 (F := F) x1 = Gcn.dstW x1 := rfl
theorem v14_eq (x1 : IVec S2x1600000 32) : Read.val_main_v14 (F := F) x1 = Gcn.dinvV (F := F) x1 := rfl
theorem v20_eq (x1 : IVec S2x1600000 32) : Read.val_main_v20 (F := F) x1 = Gcn.col (Gcn.srcW x1) := rfl
theorem v27_eq (x1 : IVec S2x1600000 32) : Read.val_main_v27 (F := F) x1 = Gcn.col (Gcn.dstW x1) := rfl
theorem v36_eq (x1 : IVec S2x1600000 32) : Read.val_main_v36 (F := F) x1 = Gcn.col (Gcn.srcW x1) := rfl
theorem v54_eq (x1 : IVec S2x1600000 32) : Read.val_main_v54 (F := F) x1 = Gcn.col (Gcn.srcW x1) := rfl
theorem v72_eq (x1 : IVec S2x1600000 32) : Read.val_main_v72 (F := F) x1 = Gcn.col (Gcn.srcW x1) := rfl
theorem v42_eq (x1 : IVec S2x1600000 32) : Read.val_main_v42 (F := F) x1 = Gcn.col (Gcn.dstRaw x1) := rfl
theorem v60_eq (x1 : IVec S2x1600000 32) : Read.val_main_v60 (F := F) x1 = Gcn.col (Gcn.dstRaw x1) := rfl
theorem v77_eq (x1 : IVec S2x1600000 32) : Read.val_main_v77 (F := F) x1 = Gcn.col (Gcn.dstRaw x1) := rfl
end Glue

/-! ## Reads of the small pieces -/

/-- The one column of start words, read at row `e`. -/
theorem col_apply (v : IVec Gcn.SE 32) (e : Fin Gcn.EE) : Gcn.col v (ix2 e (0 : Fin 1)) = v (ix1 e) := by
  unfold Gcn.col
  exact broadcastInDim_apply _ Gcn.bcEcol v _ (ix1 e) (fun a => match a with
    | ⟨0, _⟩ => by show e.val = if (1700000 : Nat) = 1 then 0 else e.val; rw [if_neg (by decide)])

/-- The rank-1 index at a coordinate, in its two spellings. -/
theorem ofFin_eq_ix1 {n : Nat} (p : Fin n) : (Shape.Idx.ofFin p : (⟨1, ![n]⟩ : Shape).Idx) = ix1 p :=
  funext fun a => match a with | ⟨0, _⟩ => rfl

/-- Row `p` of a one-column array, in its two spellings. -/
theorem ixP_eq_ix2 {n : Nat} (p : Fin n) : (StableHlo.Predicate.ixP p : (⟨2, ![n, 1]⟩ : Shape).Idx) = ix2 p (0 : Fin 1) :=
  funext fun a => match a with | ⟨0, _⟩ => rfl | ⟨1, _⟩ => rfl

/-- The zero word reads 0. -/
theorem ofBits_zero : Ideal.ofBits .f32 0x00000000#32 = 0 := by simp [Ideal.ofBits, Ideal.ieee]

/-- A rank-1 look-up of the scale at a column of start words: the scale at the word read signed and clamped. -/
theorem gather1_apply (x1 : IVec S2x1600000 32) (v : IVec Gcn.SE 32) (e : Fin Gcn.EE) :
    Host.gather gather_S100000_S1700000x1_S1700000_n_0_n_n_0_1_1 (Gcn.dinvV (F := Ideal) x1) (Gcn.col v) (ix1 e)
      = Gcn.dinvV (F := Ideal) x1 (ix1 ⟨min (v (ix1 e)).toInt.toNat (Gcn.NN - 1), Nat.lt_of_le_of_lt (Nat.min_le_right _ _) (by decide)⟩) := by
  generalize Gcn.dinvV (F := Ideal) x1 = dv
  have h := StableHlo.Predicate.gather_take gather_S100000_S1700000x1_S1700000_n_0_n_n_0_1_1 rfl rfl rfl rfl
    dv (Gcn.col v) e (by omega)
  rw [ofFin_eq_ix1, ofFin_eq_ix1] at h
  refine h.trans (congrArg dv (congrArg ix1 (Fin.ext ?_)))
  show min (Gcn.col v (StableHlo.Predicate.ixP e)).toInt.toNat _ = min (v (ix1 e)).toInt.toNat _
  rw [ixP_eq_ix2, col_apply]

/-! ## The graph's fields, and the edge weight -/

/-- The graph's per-node scale is the scale vector read at the node. -/
theorem dinv_eq (x1 : IVec S2x1600000 32) (i : Fin Gcn.NN) :
    (Gcn.graphOf x1).dinv i = Gcn.dinvV (F := Ideal) x1 (ix1 i) := by
  simp only [Gcn.graphOf]

/-- An edge's source node is its wrapped source word, clamped into the nodes. -/
theorem s_val (x1 : IVec S2x1600000 32) (e : Fin Gcn.EE) :
    ((Gcn.graphOf x1).s e).val = min (Gcn.srcW x1 (ix1 e)).toInt.toNat (Gcn.NN - 1) := by
  simp only [Gcn.graphOf]

/-- An edge's second look-up node is its wrapped destination word, clamped into the nodes. -/
theorem t_val (x1 : IVec S2x1600000 32) (e : Fin Gcn.EE) :
    ((Gcn.graphOf x1).t e).val = min (Gcn.dstW x1 (ix1 e)).toInt.toNat (Gcn.NN - 1) := by
  simp only [Gcn.graphOf]

/-- The edges landing on a node are those whose destination word, read signed, is the node. -/
theorem D_eq (x1 : IVec S2x1600000 32) (i : Fin Gcn.NN) :
    (Gcn.graphOf x1).D i = Finset.univ.filter fun e : Fin Gcn.EE => (Gcn.dstRaw x1 (ix1 e)).toInt = (i.val : Int) := by
  simp only [Gcn.graphOf]

/-- The edge weight: the scale at the edge's source times the scale at its landing node. -/
theorem norm_apply (x1 : IVec S2x1600000 32) (e : Fin Gcn.EE) :
    Read.val_main_v29 (F := Ideal) x1 (ix1 e)
      = (Gcn.graphOf x1).dinv ((Gcn.graphOf x1).s e) * (Gcn.graphOf x1).dinv ((Gcn.graphOf x1).t e) := by
  have h21 : Read.val_main_v21 (F := Ideal) x1 (ix1 e) = (Gcn.graphOf x1).dinv ((Gcn.graphOf x1).s e) := by
    unfold Read.val_main_v21
    rw [v14_eq, v20_eq, dinv_eq]
    exact (gather1_apply x1 (Gcn.srcW x1) e).trans (congrArg _ (congrArg ix1 (Fin.ext (s_val x1 e).symm)))
  have h28 : Read.val_main_v28 (F := Ideal) x1 (ix1 e) = (Gcn.graphOf x1).dinv ((Gcn.graphOf x1).t e) := by
    unfold Read.val_main_v28
    rw [v14_eq, v27_eq, dinv_eq]
    exact (gather1_apply x1 (Gcn.dstW x1) e).trans (congrArg _ (congrArg ix1 (Fin.ext (t_val x1 e).symm)))
  rw [Read.val_main_v29_apply, Ideal.mulf_def, h21, h28]

/-! ## One layer after its product with the weights -/

/-- The row a look-up at an edge's wrapped source word reads is the edge's source node. -/
theorem src_node (x1 : IVec S2x1600000 32) (e : Fin Gcn.EE)
    (hlt : min (Gcn.col (Gcn.srcW x1) (ix2 e (0 : Fin 1))).toInt.toNat (Gcn.NN - 1) < Gcn.NN) :
    (⟨min (Gcn.col (Gcn.srcW x1) (ix2 e (0 : Fin 1))).toInt.toNat (Gcn.NN - 1), hlt⟩ : Fin Gcn.NN) = (Gcn.graphOf x1).s e :=
  Fin.ext ((congrArg (fun w : BitVec 32 => min w.toInt.toNat (Gcn.NN - 1)) (col_apply (Gcn.srcW x1) e)).trans (s_val x1 e).symm)

/-- One layer after its product with the weights, read at `(p, q)`: the rows of `y` looked up at the edges' sources, each
    weighed by its edge's weight, added onto the landing nodes from zero, the bias added: the reference's arrangement
    of the layer. -/
theorem layer_tail {K J : Nat} (x1 : IVec S2x1600000 32)
    (dG : GatherDims ⟨2, ![Gcn.NN, J]⟩ ⟨2, ![Gcn.EE, 1]⟩ ⟨2, ![Gcn.EE, J]⟩)
    (hoff : dG.offsetDims = [1]) (hcoll : dG.collapsedSliceDims = [0]) (hob : dG.operandBatchingDims = [])
    (hsim : dG.startIndexMap = [0]) (hivd : dG.indexVectorDim = 1)
    (dS : ScatterDims ⟨2, ![Gcn.NN, J]⟩ ⟨2, ![Gcn.EE, 1]⟩ ⟨2, ![Gcn.EE, J]⟩)
    (huw : dS.updateWindowDims = [1]) (hiw : dS.insertedWindowDims = [0]) (hsd : dS.scatterDimsToOperandDims = [0])
    (hiv : dS.indexVectorDim = 1)
    (y z bb : FVec Ideal ⟨2, ![Gcn.NN, J]⟩ .f32) (nrm : FVec Ideal ⟨2, ![Gcn.EE, J]⟩ .f32)
    (h : Fin Gcn.NN → Fin K → EReal) (W : Fin K → Fin J → EReal) (b : Fin J → EReal)
    (hy : ∀ p q, y (ix2 p q) = ∑ k : Fin K, h p k * W k q)
    (hz : ∀ p q, z (ix2 p q) = 0) (hbb : ∀ p q, bb (ix2 p q) = b q)
    (hn : ∀ e q, nrm (ix2 e q)
      = (Gcn.graphOf x1).dinv ((Gcn.graphOf x1).s e) * (Gcn.graphOf x1).dinv ((Gcn.graphOf x1).t e))
    (p : Fin Gcn.NN) (q : Fin J) :
    addf (Host.scatterAdd dS z (Gcn.col (Gcn.dstRaw x1)) (mulf (Host.gather dG y (Gcn.col (Gcn.srcW x1))) nrm)) bb (ix2 p q)
      = (Gcn.graphOf x1).conv h W b p q := by
  show Ideal.hostScatterAdd dS z (Gcn.col (Gcn.dstRaw x1)) (mulf (Host.gather dG y (Gcn.col (Gcn.srcW x1))) nrm) (ix2 p q)
    + bb (ix2 p q) = _
  rw [RowScatter.rowScatterAdd_apply dS huw hiw hsd hiv, hz, hbb, zero_add]
  unfold Gcn.Graph.conv Gcn.Graph.agg
  rw [D_eq]
  refine congrArg (· + b q) (Finset.sum_congr (Finset.filter_congr fun e _ => by rw [col_apply]) (fun e _ => ?_))
  show Host.gather dG y (Gcn.col (Gcn.srcW x1)) (ix2 e q) * nrm (ix2 e q) = _
  rw [RowGather.rowGather_apply dG hoff hcoll hob hsim hivd y _ e q (by decide), hn, hy]
  rw [src_node x1 e]

/-! ## Layer 1 -/

/-- The first product with the weights, at an entry. -/
theorem dot30 (x0 : FVec Ideal S100000x1 .f32) (x2 : FVec Ideal S1x64 .f32) (p : Fin Gcn.NN) (q : Fin 64) :
    Read.val_main_v30 (F := Ideal) x0 x2 (ix2 p q) = ∑ k : Fin 1, Gcn.mat x0 p k * Gcn.mat x2 k q := by
  refine (Read.val_main_v30_apply x0 x2 _).trans (Finset.sum_congr rfl fun k _ => ?_)
  have e1 : Read.lidx_main_v30 (ix2 p q) k = ix2 p k := funext fun a => match a with | ⟨0, _⟩ => rfl | ⟨1, _⟩ => rfl
  have e2 : Read.ridx_main_v30 (ix2 p q) k = ix2 k q := funext fun a => match a with | ⟨0, _⟩ => rfl | ⟨1, _⟩ => rfl
  rw [e1, e2]
  rfl

/-- The segment sum starts from zero. -/
theorem zero41 (p : Fin Gcn.NN) (q : Fin 64) : Read.val_main_v41 (F := Ideal) (ix2 p q) = 0 :=
  (Read.val_main_v41_apply (F := Ideal) _).trans ((Read.val_main_cst_8_apply (F := Ideal) _).trans ((Ideal.ofBits_def _).trans ofBits_zero))

/-- The bias row laid under every node. -/
theorem bias45 (x3 : FVec Ideal S64 .f32) (p : Fin Gcn.NN) (q : Fin 64) :
    Read.val_main_v45 (F := Ideal) x3 (ix2 p q) = Gcn.vec x3 q := by
  refine (Read.val_main_v45_apply (F := Ideal) x3 _).trans ((Read.val_main_v44_apply (F := Ideal) x3 _).trans ?_)
  have e : Read.idx_main_v44 (Read.idx_main_v45 (ix2 p q)) = ix1 q := funext fun a => match a with | ⟨0, _⟩ => rfl
  rw [e]
  rfl

/-- The edge weight laid along every column. -/
theorem norm39 (x1 : IVec S2x1600000 32) (e : Fin Gcn.EE) (q : Fin 64) :
    Read.val_main_v39 (F := Ideal) x1 (ix2 e q)
      = (Gcn.graphOf x1).dinv ((Gcn.graphOf x1).s e) * (Gcn.graphOf x1).dinv ((Gcn.graphOf x1).t e) := by
  refine (Read.val_main_v39_apply (F := Ideal) x1 _).trans ((Read.val_main_v38_apply (F := Ideal) x1 _).trans ?_)
  have e' : Read.idx_main_v38 (Read.idx_main_v39 (ix2 e q)) = ix1 e := funext fun a => match a with | ⟨0, _⟩ => rfl
  rw [e']
  exact norm_apply x1 e

/-- After the first layer and its rectifier. -/
theorem layer1 (x0 : FVec Ideal S100000x1 .f32) (x1 : IVec S2x1600000 32) (x2 : FVec Ideal S1x64 .f32)
    (x3 : FVec Ideal S64 .f32) (p : Fin Gcn.NN) (q : Fin 64) :
    Read.val_main_v47 (F := Ideal) x0 x1 x2 x3 (ix2 p q)
      = Gcn.Graph.relu ((Gcn.graphOf x1).conv (Gcn.mat x0) (Gcn.mat x2) (Gcn.vec x3)) p q := by
  have hz0 : Read.val_main_call1_v0 (F := Ideal) (ix2 p q) = 0 :=
    (Read.val_main_call1_v0_apply (F := Ideal) _).trans ((Read.val_main_call1_cst_apply (F := Ideal) _).trans ((Ideal.ofBits_def _).trans ofBits_zero))
  have h46 : Read.val_main_v46 (F := Ideal) x0 x1 x2 x3 (ix2 p q)
      = (Gcn.graphOf x1).conv (Gcn.mat x0) (Gcn.mat x2) (Gcn.vec x3) p q := by
    unfold Read.val_main_v46 Read.val_main_v43 Read.val_main_v40 Read.val_main_v37
    rw [v42_eq, v36_eq]
    exact layer_tail x1 gather_S100000x64_S1700000x1_S1700000x64_1_0_n_n_0_1_164 rfl rfl rfl rfl rfl
      scatter_S100000x64_S1700000x1_S1700000x64_1_0_0_1 rfl rfl rfl rfl _ _ _ _ (Gcn.mat x0) (Gcn.mat x2) (Gcn.vec x3)
      (dot30 x0 x2) zero41 (bias45 x3) (norm39 x1) p q
  rw [Read.val_main_v47_apply, Ideal.maximumf_def, h46, hz0]
  rfl

/-! ## Layer 2 -/

/-- The second product with the weights, at an entry. -/
theorem dot48 (x0 : FVec Ideal S100000x1 .f32) (x1 : IVec S2x1600000 32) (x2 : FVec Ideal S1x64 .f32)
    (x3 : FVec Ideal S64 .f32) (x4 : FVec Ideal S64x128 .f32) (p : Fin Gcn.NN) (q : Fin 128) :
    Read.val_main_v48 (F := Ideal) x0 x1 x2 x3 x4 (ix2 p q)
      = ∑ k : Fin 64, Gcn.Graph.relu ((Gcn.graphOf x1).conv (Gcn.mat x0) (Gcn.mat x2) (Gcn.vec x3)) p k * Gcn.mat x4 k q := by
  refine (Read.val_main_v48_apply x0 x1 x2 x3 x4 _).trans (Finset.sum_congr rfl fun k _ => ?_)
  have e1 : Read.lidx_main_v48 (ix2 p q) k = ix2 p k := funext fun a => match a with | ⟨0, _⟩ => rfl | ⟨1, _⟩ => rfl
  have e2 : Read.ridx_main_v48 (ix2 p q) k = ix2 k q := funext fun a => match a with | ⟨0, _⟩ => rfl | ⟨1, _⟩ => rfl
  rw [e1, e2, layer1]
  rfl

/-- The segment sum starts from zero. -/
theorem zero59 (p : Fin Gcn.NN) (q : Fin 128) : Read.val_main_v59 (F := Ideal) (ix2 p q) = 0 :=
  (Read.val_main_v59_apply (F := Ideal) _).trans ((Read.val_main_cst_11_apply (F := Ideal) _).trans ((Ideal.ofBits_def _).trans ofBits_zero))

/-- The bias row laid under every node. -/
theorem bias63 (x5 : FVec Ideal S128 .f32) (p : Fin Gcn.NN) (q : Fin 128) :
    Read.val_main_v63 (F := Ideal) x5 (ix2 p q) = Gcn.vec x5 q := by
  refine (Read.val_main_v63_apply (F := Ideal) x5 _).trans ((Read.val_main_v62_apply (F := Ideal) x5 _).trans ?_)
  have e : Read.idx_main_v62 (Read.idx_main_v63 (ix2 p q)) = ix1 q := funext fun a => match a with | ⟨0, _⟩ => rfl
  rw [e]
  rfl

/-- The edge weight laid along every column. -/
theorem norm57 (x1 : IVec S2x1600000 32) (e : Fin Gcn.EE) (q : Fin 128) :
    Read.val_main_v57 (F := Ideal) x1 (ix2 e q)
      = (Gcn.graphOf x1).dinv ((Gcn.graphOf x1).s e) * (Gcn.graphOf x1).dinv ((Gcn.graphOf x1).t e) := by
  refine (Read.val_main_v57_apply (F := Ideal) x1 _).trans ((Read.val_main_v56_apply (F := Ideal) x1 _).trans ?_)
  have e' : Read.idx_main_v56 (Read.idx_main_v57 (ix2 e q)) = ix1 e := funext fun a => match a with | ⟨0, _⟩ => rfl
  rw [e']
  exact norm_apply x1 e

/-- After the second layer and its rectifier. -/
theorem layer2 (x0 : FVec Ideal S100000x1 .f32) (x1 : IVec S2x1600000 32) (x2 : FVec Ideal S1x64 .f32)
    (x3 : FVec Ideal S64 .f32) (x4 : FVec Ideal S64x128 .f32) (x5 : FVec Ideal S128 .f32) (p : Fin Gcn.NN) (q : Fin 128) :
    Read.val_main_v65 (F := Ideal) x0 x1 x2 x3 x4 x5 (ix2 p q)
      = Gcn.Graph.relu ((Gcn.graphOf x1).conv
          (Gcn.Graph.relu ((Gcn.graphOf x1).conv (Gcn.mat x0) (Gcn.mat x2) (Gcn.vec x3))) (Gcn.mat x4) (Gcn.vec x5)) p q := by
  have hz0 : Read.val_main_call2_v0 (F := Ideal) (ix2 p q) = 0 :=
    (Read.val_main_call2_v0_apply (F := Ideal) _).trans ((Read.val_main_call2_cst_apply (F := Ideal) _).trans ((Ideal.ofBits_def _).trans ofBits_zero))
  have h64 : Read.val_main_v64 (F := Ideal) x0 x1 x2 x3 x4 x5 (ix2 p q)
      = (Gcn.graphOf x1).conv (Gcn.Graph.relu ((Gcn.graphOf x1).conv (Gcn.mat x0) (Gcn.mat x2) (Gcn.vec x3)))
          (Gcn.mat x4) (Gcn.vec x5) p q := by
    unfold Read.val_main_v64 Read.val_main_v61 Read.val_main_v58 Read.val_main_v55
    rw [v60_eq, v54_eq]
    exact layer_tail x1 gather_S100000x128_S1700000x1_S1700000x128_1_0_n_n_0_1_1128 rfl rfl rfl rfl rfl
      scatter_S100000x128_S1700000x1_S1700000x128_1_0_0_1 rfl rfl rfl rfl _ _ _ _ _ (Gcn.mat x4) (Gcn.vec x5)
      (dot48 x0 x1 x2 x3 x4) zero59 (bias63 x5) (norm57 x1) p q
  rw [Read.val_main_v65_apply, Ideal.maximumf_def, h64, hz0]
  rfl

/-! ## Layer 3 -/

/-- The third product with the weights, at an entry. -/
theorem dot66 (x0 : FVec Ideal S100000x1 .f32) (x1 : IVec S2x1600000 32) (x2 : FVec Ideal S1x64 .f32)
    (x3 : FVec Ideal S64 .f32) (x4 : FVec Ideal S64x128 .f32) (x5 : FVec Ideal S128 .f32) (x6 : FVec Ideal S128x1 .f32)
    (p : Fin Gcn.NN) (q : Fin 1) :
    Read.val_main_v66 (F := Ideal) x0 x1 x2 x3 x4 x5 x6 (ix2 p q)
      = ∑ k : Fin 128, Gcn.Graph.relu ((Gcn.graphOf x1).conv
          (Gcn.Graph.relu ((Gcn.graphOf x1).conv (Gcn.mat x0) (Gcn.mat x2) (Gcn.vec x3))) (Gcn.mat x4) (Gcn.vec x5)) p k
          * Gcn.mat x6 k q := by
  refine (Read.val_main_v66_apply x0 x1 x2 x3 x4 x5 x6 _).trans (Finset.sum_congr rfl fun k _ => ?_)
  have e1 : Read.lidx_main_v66 (ix2 p q) k = ix2 p k := funext fun a => match a with | ⟨0, _⟩ => rfl | ⟨1, _⟩ => rfl
  have e2 : Read.ridx_main_v66 (ix2 p q) k = ix2 k q := funext fun a => match a with | ⟨0, _⟩ => rfl | ⟨1, _⟩ => rfl
  rw [e1, e2, layer2]
  rfl

/-- The segment sum starts from zero. -/
theorem zero76 (p : Fin Gcn.NN) (q : Fin 1) : Read.val_main_v76 (F := Ideal) (ix2 p q) = 0 :=
  (Read.val_main_v76_apply (F := Ideal) _).trans ((Read.val_main_cst_14_apply (F := Ideal) _).trans ((Ideal.ofBits_def _).trans ofBits_zero))

/-- The one bias laid under every node. -/
theorem bias80 (x7 : FVec Ideal S1 .f32) (p : Fin Gcn.NN) (q : Fin 1) :
    Read.val_main_v80 (F := Ideal) x7 (ix2 p q) = Gcn.vec x7 q := by
  refine (Read.val_main_v80_apply (F := Ideal) x7 _).trans ((Read.val_main_v79_apply (F := Ideal) x7 _).trans ?_)
  have e : Read.idx_main_v79 (Read.idx_main_v80 (ix2 p q)) = ix1 q := funext fun a => match a with
    | ⟨0, _⟩ => Fin.ext (by have := q.isLt; show 0 = q.val; omega)
  rw [e]
  rfl

/-- The edge weight as the one column. -/
theorem norm74 (x1 : IVec S2x1600000 32) (e : Fin Gcn.EE) (q : Fin 1) :
    Read.val_main_v74 (F := Ideal) x1 (ix2 e q)
      = (Gcn.graphOf x1).dinv ((Gcn.graphOf x1).s e) * (Gcn.graphOf x1).dinv ((Gcn.graphOf x1).t e) := by
  refine (Read.val_main_v74_apply (F := Ideal) x1 _).trans ?_
  have e' : Read.idx_main_v74 (ix2 e q) = ix1 e := funext fun a => match a with | ⟨0, _⟩ => rfl
  rw [e']
  exact norm_apply x1 e

/-- After the third layer: the reference's result. -/
theorem layer3 (x0 : FVec Ideal S100000x1 .f32) (x1 : IVec S2x1600000 32) (x2 : FVec Ideal S1x64 .f32)
    (x3 : FVec Ideal S64 .f32) (x4 : FVec Ideal S64x128 .f32) (x5 : FVec Ideal S128 .f32) (x6 : FVec Ideal S128x1 .f32)
    (x7 : FVec Ideal S1 .f32) (p : Fin Gcn.NN) (q : Fin 1) :
    Read.val_main_v81 (F := Ideal) x0 x1 x2 x3 x4 x5 x6 x7 (ix2 p q)
      = (Gcn.graphOf x1).rOut (Gcn.mat x0) (Gcn.mat x2) (Gcn.vec x3) (Gcn.mat x4) (Gcn.vec x5) (Gcn.mat x6) (Gcn.vec x7) p q := by
  unfold Read.val_main_v81 Read.val_main_v78 Read.val_main_v75 Read.val_main_v73 Gcn.Graph.rOut
  rw [v77_eq, v72_eq]
  exact layer_tail x1 gather_S100000x1_S1700000x1_S1700000x1_1_0_n_n_0_1_11 rfl rfl rfl rfl rfl
    scatter_S100000x1_S1700000x1_S1700000x1_1_0_0_1 rfl rfl rfl rfl _ _ _ _ _ (Gcn.mat x6) (Gcn.vec x7)
    (dot66 x0 x1 x2 x3 x4 x5 x6) zero76 (bias80 x7) (norm74 x1) p q

/-! ## The result -/

/-- A function of two coordinates as an array, read back at the coordinates. -/
theorem arr_apply {A B : Nat} (f : Fin A → Fin B → EReal) (p : Fin A) (q : Fin B) : Gcn.arr f (ix2 p q) = f p q := rfl

/-- The reference's last stage, entry by entry, is `Graph.rOut` of the edge list's graph. -/
theorem result_eq (x0 : FVec Ideal S100000x1 .f32) (x1 : IVec S2x1600000 32) (x2 : FVec Ideal S1x64 .f32)
    (x3 : FVec Ideal S64 .f32) (x4 : FVec Ideal S64x128 .f32) (x5 : FVec Ideal S128 .f32) (x6 : FVec Ideal S128x1 .f32)
    (x7 : FVec Ideal S1 .f32) :
    Cert.ReferenceIdeal.Read.val_main_v81 (F := Ideal) x0 x1 x2 x3 x4 x5 x6 x7
      = Gcn.arr ((Gcn.graphOf x1).rOut (Gcn.mat x0) (Gcn.mat x2) (Gcn.vec x3) (Gcn.mat x4) (Gcn.vec x5) (Gcn.mat x6) (Gcn.vec x7)) := by
  funext i
  obtain ⟨p, q, rfl⟩ : ∃ p q, i = ix2 p q := ⟨i 0, i 1, eq_ix2 i⟩
  rw [arr_apply]
  exact layer3 x0 x1 x2 x3 x4 x5 x6 x7 p q

end Cert.ReferenceIdeal.RefValue
end
-- ==== Proof.Algebra.lean ====
/-
  The three arrangements of a graph-convolution layer agree on real-valued data, and so do the three-layer compositions.

  Every quantity is a finite sum of products of reals read inside the extended reals, so each arrangement is the
  coercion of a real expression; the real expressions agree by distributivity, by exchanging the two finite sums, and
  by `t e = i` for every edge `e` landing on node `i`.
-/
import proofs.«420770_j5153960755350_2_alg».proof.Proof.Spec
import Mathlib.Data.EReal.Basic
import Mathlib.Algebra.BigOperators.Ring.Finset
import Mathlib.Tactic.Ring

noncomputable section

namespace Gcn

/-- The coercion of reals into the extended reals commutes with finite sums. -/
theorem coe_sum {ι : Type} (s : Finset ι) (f : ι → ℝ) :
    (∑ i ∈ s, ((f i : ℝ) : EReal)) = ((∑ i ∈ s, f i : ℝ) : EReal) :=
  (map_sum (⟨⟨Real.toEReal, EReal.coe_zero⟩, EReal.coe_add⟩ : ℝ →+ EReal) f s).symm

/-- The coercion commutes with the rectifier. -/
theorem coe_max_zero (r : ℝ) : max ((r : ℝ) : EReal) 0 = ((max r 0 : ℝ) : EReal) := by
  rw [← EReal.coe_zero]
  exact (EReal.coe_strictMono.monotone.map_max).symm

/-- A real-valued function of one index is the coercion of a real function. -/
theorem Real1.exists {α : Type} {f : α → EReal} (h : Real1 f) :
    ∃ f' : α → ℝ, f = fun i => ((f' i : ℝ) : EReal) := by
  choose f' hf' using h
  exact ⟨f', funext hf'⟩

/-- A real-valued function of two indices is the coercion of a real function. -/
theorem Real2.exists {α β : Type} {f : α → β → EReal} (h : Real2 f) :
    ∃ f' : α → β → ℝ, f = fun i j => ((f' i j : ℝ) : EReal) := by
  choose f' hf' using h
  exact ⟨f', funext fun i => funext fun j => hf' i j⟩

namespace Graph

/-! ## The three arrangements over the reals -/

/-- Aggregate-first equals the reference arrangement, over the reals. -/
theorem real_aggFirst (G : Graph) (ht : ∀ i, ∀ e ∈ G.D i, G.t e = i) (d : Fin NN → ℝ) {K J : Nat}
    (h : Fin NN → Fin K → ℝ) (W : Fin K → Fin J → ℝ) (b : Fin J → ℝ) (i : Fin NN) (j : Fin J) :
    d i * (∑ k : Fin K, (∑ e ∈ G.D i, h (G.s e) k * d (G.s e)) * W k j) + b j
      = (∑ e ∈ G.D i, (∑ k : Fin K, h (G.s e) k * W k j) * (d (G.s e) * d (G.t e))) + b j := by
  congr 1
  rw [Finset.mul_sum]
  simp only [Finset.sum_mul, Finset.mul_sum]
  rw [Finset.sum_comm]
  refine Finset.sum_congr rfl fun e he => ?_
  rw [ht i e he]
  refine Finset.sum_congr rfl fun k _ => ?_
  ring

/-- Matrix-first equals the reference arrangement, over the reals. -/
theorem real_matFirst (G : Graph) (ht : ∀ i, ∀ e ∈ G.D i, G.t e = i) (d : Fin NN → ℝ) {K J : Nat}
    (h : Fin NN → Fin K → ℝ) (W : Fin K → Fin J → ℝ) (b : Fin J → ℝ) (i : Fin NN) (j : Fin J) :
    d i * (∑ e ∈ G.D i, ∑ k : Fin K, (h (G.s e) k * d (G.s e)) * W k j) + b j
      = (∑ e ∈ G.D i, (∑ k : Fin K, h (G.s e) k * W k j) * (d (G.s e) * d (G.t e))) + b j := by
  congr 1
  rw [Finset.mul_sum]
  refine Finset.sum_congr rfl fun e he => ?_
  rw [ht i e he, Finset.mul_sum, Finset.sum_mul]
  refine Finset.sum_congr rfl fun k _ => ?_
  ring

/-! ## Each arrangement on coerced data is the coercion of its real expression -/

theorem aggFirst_coe (G : Graph) (d : Fin NN → ℝ) (hd : G.dinv = fun i => ((d i : ℝ) : EReal)) {K J : Nat}
    (h : Fin NN → Fin K → ℝ) (W : Fin K → Fin J → ℝ) (b : Fin J → ℝ) :
    G.aggFirst (fun i k => ((h i k : ℝ) : EReal)) (fun k j => ((W k j : ℝ) : EReal)) (fun j => ((b j : ℝ) : EReal))
      = fun i j => ((d i * (∑ k : Fin K, (∑ e ∈ G.D i, h (G.s e) k * d (G.s e)) * W k j) + b j : ℝ) : EReal) := by
  funext i j
  simp only [aggFirst, agg, hd, ← EReal.coe_mul, coe_sum, ← EReal.coe_add]

theorem matFirst_coe (G : Graph) (d : Fin NN → ℝ) (hd : G.dinv = fun i => ((d i : ℝ) : EReal)) {K J : Nat}
    (h : Fin NN → Fin K → ℝ) (W : Fin K → Fin J → ℝ) (b : Fin J → ℝ) :
    G.matFirst (fun i k => ((h i k : ℝ) : EReal)) (fun k j => ((W k j : ℝ) : EReal)) (fun j => ((b j : ℝ) : EReal))
      = fun i j => ((d i * (∑ e ∈ G.D i, ∑ k : Fin K, (h (G.s e) k * d (G.s e)) * W k j) + b j : ℝ) : EReal) := by
  funext i j
  simp only [matFirst, agg, hd, ← EReal.coe_mul, coe_sum, ← EReal.coe_add]

theorem conv_coe (G : Graph) (d : Fin NN → ℝ) (hd : G.dinv = fun i => ((d i : ℝ) : EReal)) {K J : Nat}
    (h : Fin NN → Fin K → ℝ) (W : Fin K → Fin J → ℝ) (b : Fin J → ℝ) :
    G.conv (fun i k => ((h i k : ℝ) : EReal)) (fun k j => ((W k j : ℝ) : EReal)) (fun j => ((b j : ℝ) : EReal))
      = fun i j =>
          (((∑ e ∈ G.D i, (∑ k : Fin K, h (G.s e) k * W k j) * (d (G.s e) * d (G.t e))) + b j : ℝ) : EReal) := by
  funext i j
  simp only [conv, agg, hd, ← EReal.coe_mul, coe_sum, ← EReal.coe_add]

/-! ## One layer on real-valued data -/

/-- The reference arrangement of one layer keeps real-valued data real-valued. -/
theorem conv_real (G : Graph) (hd : Real1 G.dinv) {K J : Nat} {h : Fin NN → Fin K → EReal}
    {W : Fin K → Fin J → EReal} {b : Fin J → EReal} (hh : Real2 h) (hW : Real2 W) (hb : Real1 b) :
    Real2 (G.conv h W b) := by
  obtain ⟨d, hd⟩ := hd.exists
  obtain ⟨h', rfl⟩ := hh.exists
  obtain ⟨W', rfl⟩ := hW.exists
  obtain ⟨b', rfl⟩ := hb.exists
  intro i j
  rw [G.conv_coe d hd h' W' b']
  exact ⟨_, rfl⟩

/-- The rectifier keeps real-valued data real-valued. -/
theorem relu_real {J : Nat} {y : Fin NN → Fin J → EReal} (hy : Real2 y) : Real2 (relu y) := by
  intro i j
  obtain ⟨r, hr⟩ := hy i j
  exact ⟨max r 0, by rw [relu, hr, coe_max_zero]⟩

/-- Aggregate-first agrees with the reference arrangement on real-valued data. -/
theorem aggFirst_eq_conv (G : Graph) (ht : ∀ i, ∀ e ∈ G.D i, G.t e = i) (hd : Real1 G.dinv) {K J : Nat}
    {h : Fin NN → Fin K → EReal} {W : Fin K → Fin J → EReal} {b : Fin J → EReal}
    (hh : Real2 h) (hW : Real2 W) (hb : Real1 b) : G.aggFirst h W b = G.conv h W b := by
  obtain ⟨d, hd⟩ := hd.exists
  obtain ⟨h', rfl⟩ := hh.exists
  obtain ⟨W', rfl⟩ := hW.exists
  obtain ⟨b', rfl⟩ := hb.exists
  rw [G.aggFirst_coe d hd h' W' b', G.conv_coe d hd h' W' b']
  funext i j
  exact congrArg Real.toEReal (G.real_aggFirst ht d h' W' b' i j)

/-- Matrix-first agrees with the reference arrangement on real-valued data. -/
theorem matFirst_eq_conv (G : Graph) (ht : ∀ i, ∀ e ∈ G.D i, G.t e = i) (hd : Real1 G.dinv) {K J : Nat}
    {h : Fin NN → Fin K → EReal} {W : Fin K → Fin J → EReal} {b : Fin J → EReal}
    (hh : Real2 h) (hW : Real2 W) (hb : Real1 b) : G.matFirst h W b = G.conv h W b := by
  obtain ⟨d, hd⟩ := hd.exists
  obtain ⟨h', rfl⟩ := hh.exists
  obtain ⟨W', rfl⟩ := hW.exists
  obtain ⟨b', rfl⟩ := hb.exists
  rw [G.matFirst_coe d hd h' W' b', G.conv_coe d hd h' W' b']
  funext i j
  exact congrArg Real.toEReal (G.real_matFirst ht d h' W' b' i j)

/-! ## Three layers -/

/-- The kernel's arrangement of the three layers and the reference's compute the same function when the per-node scale and
    all the data are real-valued and `t e` is the landing node of every edge `e` that lands on a node. -/
theorem kOut_eq_rOut (G : Graph) (ht : ∀ i, ∀ e ∈ G.D i, G.t e = i) (hd : Real1 G.dinv)
    (x : Fin NN → Fin 1 → EReal) (W1 : Fin 1 → Fin 64 → EReal) (b1 : Fin 64 → EReal)
    (W2 : Fin 64 → Fin 128 → EReal) (b2 : Fin 128 → EReal) (W3 : Fin 128 → Fin 1 → EReal) (b3 : Fin 1 → EReal)
    (hx : Real2 x) (hW1 : Real2 W1) (hb1 : Real1 b1) (hW2 : Real2 W2) (hb2 : Real1 b2) (hW3 : Real2 W3) (hb3 : Real1 b3) :
    G.kOut x W1 b1 W2 b2 W3 b3 = G.rOut x W1 b1 W2 b2 W3 b3 := by
  have r1 : Real2 (relu (G.conv x W1 b1)) := relu_real (G.conv_real hd hx hW1 hb1)
  have r2 : Real2 (relu (G.conv (relu (G.conv x W1 b1)) W2 b2)) := relu_real (G.conv_real hd r1 hW2 hb2)
  unfold kOut rOut
  rw [G.aggFirst_eq_conv ht hd hx hW1 hb1, G.aggFirst_eq_conv ht hd r1 hW2 hb2]
  exact G.matFirst_eq_conv ht hd r2 hW3 hb3

end Graph

end Gcn

end
-- ==== Proof.GraphFacts.lean ====
/-
  Facts about the graph of an edge list: how the extended source and destination words read, that the clamped second
  look-up of an edge's destination returns the node the edge lands on, that the per-node scale is a real number, and
  that source words in the node range pass the guarded look-up's range test.
-/
import Idealize.ShloMosaic.Lib.StableHlo.Predicate
import Idealize.ShloMosaic.Lib.ValueLayout
import proofs.«420770_j5153960755350_2_alg».proof.Proof.Spec

noncomputable section

namespace Gcn

open Idealize.ShloMosaic Idealize.ShloMosaic.ValueIdx Idealize.ShloMosaic.StableHlo.Predicate

/-- Every given edge's source word (row 0 of the edge list) is a node: at least 0 and below `NN`, as signed words. -/
def SrcRange (ei : IVec S2xE0 32) : Prop :=
  ∀ p : Fin 1600000, IntOp.cmpi .sge (ei (ix2 (0 : Fin 2) p)) 0#32 = 1#1 ∧ IntOp.cmpi .slt (ei (ix2 (0 : Fin 2) p)) 100000#32 = 1#1

/-! ## The extended rows read at a position -/

/-- Below the number of given edges, the extended row `r` is row `r` of the edge list. -/
theorem rowOf_lo (r : Nat) (hr : r < 2) (hs : S2xE0.Slices ![r, 0] S1xE0) (ei : IVec S2xE0 32) (e : Fin EE)
    (h : e.val < 1600000) : rowOf r hs ei (ix1 e) = ei (ix2 (⟨r, hr⟩ : Fin 2) ⟨e.val, h⟩) := by
  unfold rowOf
  refine (concatenate_pair_apply_left (t := SE) (s₁ := SE0) (s₂ := SN) (0 : Fin 1) _ _ concatsE (ix1 e) rfl
    (ix1 (⟨e.val, h⟩ : Fin 1600000)) ?_).trans ?_
  · intro b
    match b with
    | ⟨0, _⟩ => rfl
  · refine (shapeCast_1a_a_apply _ castsE0 (⟨e.val, h⟩ : Fin 1600000)).trans ?_
    refine extractStridedSlice_apply ![r, 0] ei hs _ (ix2 (⟨r, hr⟩ : Fin 2) (⟨e.val, h⟩ : Fin 1600000)) ?_
    intro a
    match a with
    | ⟨0, _⟩ => rfl
    | ⟨1, _⟩ => exact (Nat.zero_add _).symm

/-- From the number of given edges on, every extended row is the self-loops' numbering. -/
theorem rowOf_hi (r : Nat) (hs : S2xE0.Slices ![r, 0] S1xE0) (ei : IVec S2xE0 32) (e : Fin EE)
    (h : 1600000 ≤ e.val) : rowOf r hs ei (ix1 e) = BitVec.ofNat 32 (e.val - 1600000) := by
  unfold rowOf
  have hlt : e.val - 1600000 < 100000 := by
    have := (show e.val < 1700000 from e.isLt); omega
  refine (concatenate_pair_apply_right (t := SE) (s₁ := SE0) (s₂ := SN) (0 : Fin 1) _ _ concatsE (ix1 e) rfl rfl
    (ix1 (⟨e.val - 1600000, hlt⟩ : Fin 100000)) ?_ ?_).trans ?_
  · intro b hb
    exact absurd (Fin.ext (by have hb1 : b.val < 1 := b.isLt; show b.val = 0; omega)) hb
  · show (e.val - 1600000) + 1600000 = e.val
    omega
  · rfl

/-- A given edge's source word is the edge list's entry in row 0. -/
theorem srcRaw_lo (ei : IVec S2xE0 32) (e : Fin EE) (h : e.val < 1600000) :
    srcRaw ei (ix1 e) = ei (ix2 (0 : Fin 2) ⟨e.val, h⟩) :=
  rowOf_lo 0 (by decide) slices0 ei e h

/-- A self-loop's source word is its node's number. -/
theorem srcRaw_hi (ei : IVec S2xE0 32) (e : Fin EE) (h : 1600000 ≤ e.val) :
    srcRaw ei (ix1 e) = BitVec.ofNat 32 (e.val - 1600000) :=
  rowOf_hi 0 slices0 ei e h

/-- A given edge's destination word is the edge list's entry in row 1. -/
theorem dstRaw_lo (ei : IVec S2xE0 32) (e : Fin EE) (h : e.val < 1600000) :
    dstRaw ei (ix1 e) = ei (ix2 (1 : Fin 2) ⟨e.val, h⟩) :=
  rowOf_lo 1 (by decide) slices1 ei e h

/-- A self-loop's destination word is its node's number. -/
theorem dstRaw_hi (ei : IVec S2xE0 32) (e : Fin EE) (h : 1600000 ≤ e.val) :
    dstRaw ei (ix1 e) = BitVec.ofNat 32 (e.val - 1600000) :=
  rowOf_hi 1 slices1 ei e h

/-! ## The wrap of a word that is not negative -/

/-- A word that reads at least zero, signed, is left as it is by the wrap. -/
theorem wrap_apply_of_nonneg (v : IVec SE 32) (j : SE.Idx) (h : 0 ≤ (v j).toInt) : wrap v j = v j := by
  have hc : IntOp.cmpi .slt (v j) 0#32 = 0#1 := by
    unfold IntOp.cmpi
    show BitVec.ofBool ((v j).slt 0#32) = 0#1
    have hf : (v j).slt 0#32 = false := by
      rw [BitVec.slt, decide_eq_false_iff_not, show (0#32 : BitVec 32).toInt = 0 from rfl]
      omega
    rw [hf]; rfl
  show Scalar.select (IntOp.cmpi .slt (v j) 0#32) _ (v j) = v j
  rw [hc]; exact select_zero _ _

/-- An edge lands on node `i` exactly when its destination word, read signed, is `i`. -/
theorem mem_graphOf_D (ei : IVec S2xE0 32) (i : Fin NN) (e : Fin EE) :
    e ∈ (graphOf ei).D i ↔ (dstRaw ei (ix1 e)).toInt = (i.val : Int) := by
  simp only [graphOf, Finset.mem_filter, Finset.mem_univ, true_and]

/-- An edge's source node is its wrapped source word, clamped into the nodes. -/
theorem graphOf_s_val (ei : IVec S2xE0 32) (e : Fin EE) :
    ((graphOf ei).s e).val = min (srcW ei (ix1 e)).toInt.toNat (NN - 1) := by
  simp only [graphOf]

/-- An edge's second look-up node is its wrapped destination word, clamped into the nodes. -/
theorem graphOf_t_val (ei : IVec S2xE0 32) (e : Fin EE) :
    ((graphOf ei).t e).val = min (dstW ei (ix1 e)).toInt.toNat (NN - 1) := by
  simp only [graphOf]

/-- The clamped look-up of an edge's wrapped destination returns the node the edge lands on. -/
theorem graphOf_ht (ei : IVec S2xE0 32) : ∀ i, ∀ e ∈ (graphOf ei).D i, (graphOf ei).t e = i := by
  intro i e he
  have he' : e ∈ Finset.univ.filter (fun e : Fin EE => (dstRaw ei (ix1 e)).toInt = (i.val : Int)) := he
  have hd : (dstRaw ei (ix1 e)).toInt = (i.val : Int) := (Finset.mem_filter.mp he').2
  have hw : dstW ei (ix1 e) = dstRaw ei (ix1 e) :=
    wrap_apply_of_nonneg _ _ (by rw [hd]; exact Int.natCast_nonneg _)
  apply Fin.ext
  show min (dstW ei (ix1 e)).toInt.toNat (100000 - 1) = i.val
  rw [hw, hd, Int.toNat_natCast]
  exact Nat.min_eq_left (by have := (show i.val < 100000 from i.isLt); omega)

/-! ## The per-node scale is real -/

/-- A scatter-add of ones onto zeros holds a count at every element. -/
theorem hostScatterAdd_count {s si su : Shape} (d : ScatterDims s si su) {w : Nat} (x : s.Idx → EReal) (idx : IVec si w)
    (upd : su.Idx → EReal) (hx : ∀ i, x i = 0) (hu : ∀ j, upd j = 1) (i : s.Idx) :
    ∃ n : ℕ, Ideal.hostScatterAdd d x idx upd i = ((n : ℝ) : EReal) := by
  unfold Ideal.hostScatterAdd
  rw [hx i, zero_add, Finset.sum_congr rfl (fun j _ => hu j), Finset.sum_const, nsmul_one]
  exact ⟨_, (EReal.coe_coe_eq_natCast _).symm⟩

/-- The inverse square root of a nonnegative real where it is positive, zero elsewhere: a real number. -/
theorem dinv_scalar_real (r : ℝ) (hr : 0 ≤ r) :
    ∃ q : ℝ, Scalar.select (Ideal.cmp .ogt (r : EReal) 0) (Ideal.rsqrt (r : EReal)) (0 : EReal) = (q : EReal) := by
  by_cases h : 0 < r
  · refine ⟨(Real.sqrt r)⁻¹, ?_⟩
    have hc : Ideal.cmp .ogt (r : EReal) 0 = 1#1 := by
      unfold Ideal.cmp
      simp [h]
    rw [hc, select_one, Ideal.rsqrt_coe, if_neg (not_lt.mpr hr), if_neg h.ne']
  · have h0 : r = 0 := le_antisymm (not_lt.mp h) hr
    subst h0
    refine ⟨0, ?_⟩
    have hc : Ideal.cmp .ogt ((0 : ℝ) : EReal) 0 = 0#1 := by
      unfold Ideal.cmp
      simp
    rw [hc, select_zero]; rfl

/-- The graph's per-node scale is the scale vector read at the node. -/
theorem graphOf_dinv_apply (ei : IVec S2xE0 32) (i : Fin NN) : (graphOf ei).dinv i = dinvV (F := Ideal) ei (ix1 i) := by
  simp only [graphOf]

/-- A broadcast scalar constant reads the constant's value everywhere. -/
theorem bcast_const_apply {t : Shape} (h : S0.BroadcastsInDim t (![] : Fin 0 → Fin t.rank)) (b : BitVec 32) (j : t.Idx) :
    broadcastInDim t ![] h (constant (F := Ideal) S0 .f32 b) j = Ideal.ofBits .f32 b := rfl

/-- The accumulating scatter on extended reals is the operand plus the sum of the updates landing on the element. -/
theorem scatterAdd_ideal {s si u : Shape} {w : Nat} (d : ScatterDims s si u) (x : FVec Ideal s .f32) (idx : IVec si w)
    (upd : FVec Ideal u .f32) : Host.scatterAdd d x idx upd = Ideal.hostScatterAdd d x idx upd := rfl

/-- The guarded inverse square root, read at an index. -/
theorem select_ogt_rsqrt_apply {s : Shape} (d z : FVec Ideal s .f32) (i : s.Idx) :
    select (cmpf .ogt d z) (Host.rsqrt d) z i
      = Scalar.select (Ideal.cmp .ogt (d i) (z i)) (Ideal.rsqrt (d i)) (z i) := rfl

/-- The in-degree of a node is a count. -/
theorem degV_count (ei : IVec S2xE0 32) (i : SN.Idx) : ∃ n : ℕ, degV (F := Ideal) ei i = ((n : ℝ) : EReal) := by
  have hz : Ideal.ofBits .f32 0x00000000#32 = 0 := by simp [Ideal.ofBits, Ideal.ieee]
  have ho : Ideal.ofBits .f32 0x3F800000#32 = 1 := by simp [Ideal.ofBits, Ideal.ieee, -EReal.coe_mul]; norm_num
  unfold degV
  rw [scatterAdd_ideal]
  exact hostScatterAdd_count degDims _ (col (dstRaw ei)) _ (fun j => (bcast_const_apply bc0N _ j).trans hz)
    (fun j => (bcast_const_apply bc0E _ j).trans ho) i

/-- The per-node scale is real: the in-degree is a finite count, and the inverse square root of a positive real is real. -/
theorem graphOf_dinv_real (ei : IVec S2xE0 32) : Real1 (graphOf ei).dinv := by
  intro i
  have hz : Ideal.ofBits .f32 0x00000000#32 = 0 := by simp [Ideal.ofBits, Ideal.ieee]
  obtain ⟨n, hn⟩ := degV_count ei (ix1 i)
  rw [graphOf_dinv_apply]
  unfold dinvV
  rw [select_ogt_rsqrt_apply, bcast_const_apply, hn, hz]
  exact dinv_scalar_real n (Nat.cast_nonneg n)

/-! ## Source words in the node range pass the range test -/

/-- A word at least 0 and below `NN`, read signed, is below `NN` read unsigned. -/
theorem toNat_lt_of_range (w : BitVec 32) (h0 : IntOp.cmpi .sge w 0#32 = 1#1) (h1 : IntOp.cmpi .slt w 100000#32 = 1#1) :
    w.toNat < 100000 := by
  unfold IntOp.cmpi at h0 h1
  have g0 : (0#32 : BitVec 32).sle w = true := (ofBool_eq_one_iff _).mp h0
  have g1 : w.slt 100000#32 = true := (ofBool_eq_one_iff _).mp h1
  rw [BitVec.sle, decide_eq_true_eq, show (0#32 : BitVec 32).toInt = 0 from rfl] at g0
  rw [BitVec.slt, decide_eq_true_eq, show (100000#32 : BitVec 32).toInt = 100000 from by decide] at g1
  have hw := w.isLt
  rw [BitVec.toInt_eq_toNat_cond] at g0 g1
  split at g0 <;> omega

/-- A word below `NN`, read unsigned, passes the range test after the wrap. -/
theorem wrap_ok_of_toNat_lt (v : IVec SE 32) (j : SE.Idx) (h : (v j).toNat < 100000) :
    IntOp.cmpi .sge (wrap v j) 0#32 = 1#1 ∧ IntOp.cmpi .sle (wrap v j) 99999#32 = 1#1 := by
  have hi : (v j).toInt = ((v j).toNat : Int) := toInt_eq_toNat_of_lt (by omega)
  have hw : wrap v j = v j := wrap_apply_of_nonneg v j (by rw [hi]; exact Int.natCast_nonneg _)
  rw [hw]
  refine ⟨(sge_iff_toNat (by omega) (by decide)).mpr (Nat.zero_le _), (sle_iff_toNat (by omega) (by decide)).mpr ?_⟩
  show (v j).toNat ≤ 99999
  omega

/-- Source words in the node range pass the guarded look-up's range test, self-loops included. -/
theorem srcOk_of_range (ei : IVec S2xE0 32) (h : SrcRange ei) : SrcOk ei := by
  intro e
  refine wrap_ok_of_toNat_lt (srcRaw ei) (ix1 e) ?_
  by_cases he : e.val < 1600000
  · rw [srcRaw_lo ei e he]
    exact toNat_lt_of_range _ (h ⟨e.val, he⟩).1 (h ⟨e.val, he⟩).2
  · have hge : 1600000 ≤ e.val := Nat.le_of_not_lt he
    have hlt : e.val - 1600000 < 100000 := by
      have := (show e.val < 1700000 from e.isLt); omega
    rw [srcRaw_hi ei e hge, BitVec.toNat_ofNat, Nat.mod_eq_of_lt (by omega)]
    exact hlt

end Gcn

end
-- ==== Proof.PreDecode.lean ====
/-
  What the precondition says: each float argument holds real numbers only, and every given edge's source word is a node.

  The printed predicate is a conjunction of one-bit words: for each float argument a fold by "and" of the elementwise
  test |a| < +∞, and for the edge list a fold by "and" of 0 ≤ w ∧ w < 100000 over the source words w (row 0 of the
  edge list).  A conjunction that is 1 has every conjunct 1; a fold by "and" that is 1 met a 1 at every element; an
  extended real whose absolute value is below +∞ is neither infinity, so it is a real number.
-/
import proofs.«420770_j5153960755350_2_alg».proof.Pre_finite_inputs
import proofs.«420770_j5153960755350_2_alg».proof.Proof.Gen.Pre_finite_inputs
import proofs.«420770_j5153960755350_2_alg».proof.Proof.Spec
import proofs.«420770_j5153960755350_2_alg».proof.Proof.GraphFacts
import Idealize.ShloMosaic.Lib.ReduceAll
import Idealize.ShloMosaic.Lib.StableHlo.Predicate
import Idealize.ShloMosaic.Lib.Pipeline.Value

noncomputable section

namespace Cert.Pre_finite_inputs.Decode

open Idealize.ShloMosaic Idealize.ShloMosaic.ValueIdx

/-- The scalar shape has one index. -/
local instance subsingleton_S_ : Subsingleton S_.Idx := ⟨fun _ _ => funext fun d => d.elim0⟩

/-- The word 0x7F800000 denotes +∞. -/
theorem ofBits_inf : Ideal.ofBits .f32 0x7F800000#32 = (⊤ : EReal) := by simp [Ideal.ofBits, Ideal.ieee]

/-- An extended real whose absolute value max(e, −e) is below +∞ is a real number: at either infinity the absolute
    value is +∞. -/
theorem real_of_abs_lt_top (e : EReal) (h : Ideal.cmp .olt (max e (-e)) (⊤ : EReal) = 1#1) : ∃ r : ℝ, e = (r : EReal) := by
  induction e using EReal.rec with
  | bot => simp [Ideal.cmp] at h
  | coe r => exact ⟨r, rfl⟩
  | top => simp [Ideal.cmp] at h

/-- One float argument: if the fold by "and" of |a| < +∞ over the whole array is 1, every element is a real number. -/
theorem real_of_all {s : Shape} {axes : List (Fin s.rank)} (a : FVec Ideal s .f32)
    (bc : S_.BroadcastsInDim s (![] : Fin 0 → Fin s.rank)) (red : s.ReducesTo axes S_) (hu : 0 < S_.numel)
    (h : Host.reduce IntOp.andi
        (cmpf .olt (Host.absf a) (broadcastInDim s ![] bc (constant (F := Ideal) S_ .f32 0x7F800000#32)))
        (constantI S_ 1 1#1) red hu ix0 = 1#1) (i : s.Idx) : ∃ r : ℝ, a i = (r : EReal) := by
  have hi := Host.reduce_andi_all _ _ red hu ix0 h i
  have hi' : Ideal.cmp .olt (max (a i) (-(a i))) (Ideal.ofBits .f32 0x7F800000#32) = 1#1 := hi
  rw [ofBits_inf] at hi'
  exact real_of_abs_lt_top (a i) hi'

/-- Row 0 of the edge list, flattened, read at position p is the edge list at (0, p). -/
theorem row0_apply (ei : IVec S2x1600000 32) (sl : S2x1600000.Slices ![0, 0] S1x1600000) (sc : S1x1600000.ShapeCasts S1600000)
    (p : Fin 1600000) :
    shapeCast S1600000 (extractStridedSlice S1x1600000 ![0, 0] ei sl) sc (ix1 p) = ei (ix2 (0 : Fin 2) p) := by
  refine (shapeCast_apply _ sc (ix1 p) (ix2 (0 : Fin 1) p) ?_).trans
    (extractStridedSlice_apply ![0, 0] ei sl (ix2 (0 : Fin 1) p) (ix2 (0 : Fin 2) p) fun a => ?_)
  · rewrite [Shape.rowMajor_val_two, Shape.rowMajor_val_one]
    show 0 * 1600000 + p.val = p.val
    omega
  · match a with
    | ⟨0, _⟩ => show (0 : Nat) = 0 + 0; rfl
    | ⟨1, _⟩ => show p.val = 0 + p.val; omega

/-- The edge list: if the fold by "and" of 0 ≤ w ∧ w < 100000 over the source words is 1, every source word is a node. -/
theorem src_of_all (ei : IVec S2x1600000 32) (sl : S2x1600000.Slices ![0, 0] S1x1600000) (sc : S1x1600000.ShapeCasts S1600000)
    (bc : S_.BroadcastsInDim S1600000 (![] : Fin 0 → Fin S1600000.rank)) (red : S1600000.ReducesTo [0] S_) (hu : 0 < S_.numel)
    (h : Host.reduce IntOp.andi
        (andi
          (cmpi .sge (shapeCast S1600000 (extractStridedSlice S1x1600000 ![0, 0] ei sl) sc)
            (broadcastInDim S1600000 ![] bc (constantI S_ 32 0#32)))
          (cmpi .slt (shapeCast S1600000 (extractStridedSlice S1x1600000 ![0, 0] ei sl) sc)
            (broadcastInDim S1600000 ![] bc (constantI S_ 32 100000#32))))
        (constantI S_ 1 1#1) red hu ix0 = 1#1) : Gcn.SrcRange ei := by
  intro p
  have hp := Host.reduce_andi_all _ _ red hu ix0 h (ix1 p)
  have hp' : IntOp.andi
      (IntOp.cmpi .sge (shapeCast S1600000 (extractStridedSlice S1x1600000 ![0, 0] ei sl) sc (ix1 p)) 0#32)
      (IntOp.cmpi .slt (shapeCast S1600000 (extractStridedSlice S1x1600000 ![0, 0] ei sl) sc (ix1 p)) 100000#32) = 1#1 := hp
  rw [row0_apply ei sl sc p] at hp'
  exact IntOp.andi_eq_one.1 hp'

/-- From "the printed predicate is all ones": every float argument is real-valued, and row 0 of the edge list holds node
    numbers. -/
theorem facts_of_pre (x : FVec Ideal S100000x1 .f32) (ei : IVec S2x1600000 32) (W1 : FVec Ideal S1x64 .f32)
    (b1 : FVec Ideal S64 .f32) (W2 : FVec Ideal S64x128 .f32) (b2 : FVec Ideal S128 .f32) (W3 : FVec Ideal S128x1 .f32)
    (b3 : FVec Ideal S1 .f32)
    (h : Cert.Pre_finite_inputs.fn (F := Ideal) x ei W1 b1 W2 b2 W3 b3 = fun _ => 1#1) :
    Gcn.Real2 (Gcn.mat x) ∧ Gcn.Real2 (Gcn.mat W1) ∧ Gcn.Real1 (Gcn.vec b1) ∧ Gcn.Real2 (Gcn.mat W2) ∧ Gcn.Real1 (Gcn.vec b2)
      ∧ Gcn.Real2 (Gcn.mat W3) ∧ Gcn.Real1 (Gcn.vec b3) ∧ Gcn.SrcRange ei := by
  have h0 := congrFun h ix0
  obtain ⟨h33, h43⟩ := IntOp.andi_eq_one.1 h0
  obtain ⟨h28, h32⟩ := IntOp.andi_eq_one.1 h33
  obtain ⟨h23, h27⟩ := IntOp.andi_eq_one.1 h28
  obtain ⟨h18, h22⟩ := IntOp.andi_eq_one.1 h23
  obtain ⟨h13, h17⟩ := IntOp.andi_eq_one.1 h18
  obtain ⟨h8, h12⟩ := IntOp.andi_eq_one.1 h13
  obtain ⟨h3, h7⟩ := IntOp.andi_eq_one.1 h8
  exact ⟨fun p q => real_of_all x _ _ _ h3 (ix2 p q), fun p q => real_of_all W1 _ _ _ h7 (ix2 p q),
    fun p => real_of_all b1 _ _ _ h12 (ix1 p), fun p q => real_of_all W2 _ _ _ h17 (ix2 p q),
    fun p => real_of_all b2 _ _ _ h22 (ix1 p), fun p q => real_of_all W3 _ _ _ h27 (ix2 p q),
    fun p => real_of_all b3 _ _ _ h32 (ix1 p), src_of_all ei _ _ _ _ _ h43⟩

end Cert.Pre_finite_inputs.Decode

end
-- ==== Proof.lean ====
/-
  The certificate of a three-layer graph convolution (N = 100000 nodes, 1600000 given edges plus one self-loop per node)
  whose kernel program rearranges every layer of the reference.

  The reference computes, per layer, out = Σ_{e → i} (h W)[src e] · (dinv[src e] · dinv[dst e]) + b with
  dinv = rsqrt(in-degree) (0 where the degree is 0).  The kernel program factors the edge weight into a per-source and a
  per-destination scale and moves the matrix product across the edge sum: layers 1 and 2 aggregate the pre-scaled
  features first and multiply by the weights afterwards (in a grid kernel that also scales by the destination, adds the
  bias and rectifies); layer 3 multiplies first.  Over the extended reals these rearrangements use distributivity, so
  they hold on REAL data: the precondition's finiteness of the float arguments is used, and the in-degrees are finite
  counts.  The kernel program looks rows up with a guarded `take` that fills a row whose source word is not a node
  with the NaN word, where the reference's look-up clamps the index; the two agree exactly where every source word is a
  node, which the precondition states for the given edges (the self-loops are nodes by construction).

  How the pieces fit: the kernel program's run ends with its result buffer at the composition of its stages
  (`Gcn.kTerm`: each grid kernel's output array as one function of its input arrays, the host stretches between them read
  off the run), which read index by index is `Graph.kOut` of the edge list's graph; the reference's run ends at its
  composed term, which read index by index is `Graph.rOut`; and `kOut = rOut` on real data.  The three frames are the
  generated ones (the reference's is its run with the result dropped); nothing was rewritten by the ideal pass, so
  `preserves` is trivial.
-/
import proofs.«420770_j5153960755350_2_alg».proof.Defs
import proofs.«420770_j5153960755350_2_alg».proof.Proof.Gen.Kernel
import proofs.«420770_j5153960755350_2_alg».proof.Proof.Gen.Kernel.Frame
import proofs.«420770_j5153960755350_2_alg».proof.Proof.Gen.KernelIdeal
import proofs.«420770_j5153960755350_2_alg».proof.Proof.Gen.KernelIdeal.Frame
import proofs.«420770_j5153960755350_2_alg».proof.Proof.Gen.ReferenceIdeal
import proofs.«420770_j5153960755350_2_alg».proof.Proof.Gen.Pre_finite_inputs
import proofs.«420770_j5153960755350_2_alg».proof.Proof.RefRun
import proofs.«420770_j5153960755350_2_alg».proof.Proof.RefRead
import proofs.«420770_j5153960755350_2_alg».proof.Proof.KRun
import proofs.«420770_j5153960755350_2_alg».proof.Proof.KChain
import proofs.«420770_j5153960755350_2_alg».proof.Proof.KRead
import proofs.«420770_j5153960755350_2_alg».proof.Proof.RRead
import proofs.«420770_j5153960755350_2_alg».proof.Proof.Algebra
import proofs.«420770_j5153960755350_2_alg».proof.Proof.GraphFacts
import proofs.«420770_j5153960755350_2_alg».proof.Proof.PreDecode
import Idealize.ShloMosaic.Adequacy
import Idealize.ShloMosaic.Init

noncomputable section

namespace Cert.Proof

open Idealize.ShloMosaic Idealize.SL.Sem

/-- The word-level kernel program runs and keeps its arguments: the generated frame. -/
theorem frame_kernel : @Cert.frame_Kernel Cert.Kernel.Gen.facts Cert.Pre_finite_inputs.Gen.facts :=
  fun m ρ _ => Cert.Kernel.Gen.frame m ρ

/-- The idealized kernel program runs and keeps its arguments: the generated frame. -/
theorem frame_kernelIdeal : @Cert.frame_KernelIdeal Cert.KernelIdeal.Gen.facts Cert.Pre_finite_inputs.Gen.facts :=
  fun m ρ _ => Cert.KernelIdeal.Gen.frame m ρ

/-- The idealized reference runs and keeps its arguments: its run with the result dropped. -/
theorem frame_referenceIdeal : @Cert.frame_ReferenceIdeal Cert.ReferenceIdeal.Gen.facts Cert.Pre_finite_inputs.Gen.facts :=
  fun m ρ _ => (θ_run Cert.ReferenceIdeal.defs _ _).mono (fun _ h c => (h c).2) (Cert.ReferenceIdeal.Value.run (F := Ideal) m ρ)

/-- Both idealized programs end with the three-layer convolution of the edge list's graph: the kernel program in the
    aggregate-first / matrix-first arrangement, the reference in its own, equal on the real data the precondition admits. -/
theorem algebraic :
    @Cert.algebraic_KernelIdeal_ReferenceIdeal Cert.KernelIdeal.Gen.facts Cert.ReferenceIdeal.Gen.facts Cert.Pre_finite_inputs.Gen.facts := by
  intro m ρ m' ρ' hpre hagree
  refine ⟨fun c => Gcn.kTerm (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7)), ?_, ?_⟩
  · exact (θ_run Cert.KernelIdeal.defs _ _).mono
      (fun r h c => ⟨(h c).1.trans (Cert.KernelIdeal.Gen.W15_result m ρ c), (h c).2⟩)
      (Cert.KernelIdeal.Gen.run_result (F := Ideal) m ρ)
  · refine (θ_run Cert.ReferenceIdeal.defs _ _).mono (fun r h c => ⟨(h c).1.trans ?_, (h c).2⟩)
      (Cert.ReferenceIdeal.Value.run (F := Ideal) m' ρ')
    obtain ⟨a0, a1, a2, a3, a4, a5, a6, a7⟩ := hagree c
    rw [Cert.ReferenceIdeal.Read.val_main_v81_eq, a0, a1, a2, a3, a4, a5, a6, a7]
    obtain ⟨hx, hW1, hb1, hW2, hb2, hW3, hb3, hsrc⟩ := Cert.Pre_finite_inputs.Decode.facts_of_pre _ _ _ _ _ _ _ _ (hpre c)
    rw [Cert.ReferenceIdeal.RefValue.result_eq]
    show _ = Gcn.kTerm _ _ _ _ _ _ _ _
    rw [Gcn.kTerm_eq _ _ _ _ _ _ _ _ (Gcn.srcOk_of_range _ hsrc),
      Gcn.Graph.kOut_eq_rOut _ (Gcn.graphOf_ht _) (Gcn.graphOf_dinv_real _) _ _ _ _ _ _ _ hx hW1 hb1 hW2 hb2 hW3 hb3]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
